-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x64 : Shape := ⟨3, ![2048, 128, 64]⟩
abbrev S_ : Shape := ⟨0, ![]⟩

class Facts : Prop where
  bcast_S_S2048x128x64 : S_.BroadcastsInDim S2048x128x64 (![] : Fin 0 → Fin S2048x128x64.rank)
  reducesTo_S2048x128x64_S_d0_1_2 : S2048x128x64.ReducesTo [0, 1, 2] S_
  h_S_ : 0 < S_.numel

variable [Facts]

def fn {F : FTy → Type} [FloatOps F] (main_arg0 : FVec F S2048x128x64 .f32) (main_arg1 : FVec F S2048x128x64 .f32) : IVec S_ 1 :=
  let main_v0 : FVec F S2048x128x64 .f32 := Host.absf main_arg0
  let main_cst : FVec F S_ .f32 := constant S_ .f32 0x7F800000#32
  let main_v1 : FVec F S2048x128x64 .f32 := broadcastInDim S2048x128x64 ![] bcast_S_S2048x128x64 main_cst
  let main_v2 : IVec S2048x128x64 1 := cmpf .olt main_v0 main_v1
  let main_c : IVec S_ 1 := constantI S_ 1 1#1
  let main_v3 : IVec S_ 1 := (fun x v => Host.reduce IntOp.andi x v reducesTo_S2048x128x64_S_d0_1_2 h_S_) main_v2 main_c
  let main_v4 : FVec F S2048x128x64 .f32 := Host.absf main_arg1
  let main_cst_0 : FVec F S_ .f32 := constant S_ .f32 0x7F800000#32
  let main_v5 : FVec F S2048x128x64 .f32 := broadcastInDim S2048x128x64 ![] bcast_S_S2048x128x64 main_cst_0
  let main_v6 : IVec S2048x128x64 1 := cmpf .olt main_v4 main_v5
  let main_c_1 : IVec S_ 1 := constantI S_ 1 1#1
  let main_v7 : IVec S_ 1 := (fun x v => Host.reduce IntOp.andi x v reducesTo_S2048x128x64_S_d0_1_2 h_S_) main_v6 main_c_1
  let main_v8 : IVec S_ 1 := andi main_v3 main_v7
  main_v8
-- ==== Kernel.lean ====
abbrev S2048x128x64 : Shape := ⟨3, ![2048, 128, 64]⟩
abbrev S2048x8x64 : Shape := ⟨3, ![2048, 8, 64]⟩
abbrev S2048x8x64x64 : Shape := ⟨4, ![2048, 8, 64, 64]⟩
abbrev S64x8x64 : Shape := ⟨3, ![64, 8, 64]⟩
abbrev S64x8x64x64 : Shape := ⟨4, ![64, 8, 64, 64]⟩
abbrev S64x64x64 : Shape := ⟨3, ![64, 64, 64]⟩
abbrev S64x1x64 : Shape := ⟨3, ![64, 1, 64]⟩
abbrev S64x64 : Shape := ⟨2, ![64, 64]⟩
abbrev S64x64x1 : Shape := ⟨3, ![64, 64, 1]⟩
abbrev S64x1x64x64 : Shape := ⟨4, ![64, 1, 64, 64]⟩
abbrev S2048x24x64 : Shape := ⟨3, ![2048, 24, 64]⟩
abbrev S64x24x64 : Shape := ⟨3, ![64, 24, 64]⟩
abbrev S2048x40x64 : Shape := ⟨3, ![2048, 40, 64]⟩
abbrev S64x40x64 : Shape := ⟨3, ![64, 40, 64]⟩
abbrev S2048x56x64 : Shape := ⟨3, ![2048, 56, 64]⟩
abbrev S64x56x64 : Shape := ⟨3, ![64, 56, 64]⟩
abbrev S2048x32x64x64 : Shape := ⟨4, ![2048, 32, 64, 64]⟩

abbrev nBuf : Space → Nat
  | .hbm => 15
  | .vmem => 24
  | .smem => 0
  | _ => 0

abbrev bufTy : (tb : Table) → Fin (tcTables nBuf tb) → BufTy
  | .hbm, ⟨0, _⟩ => ⟨S2048x128x64, .f32⟩
  | .hbm, ⟨1, _⟩ => ⟨S2048x128x64, .f32⟩
  | .hbm, ⟨2, _⟩ => ⟨S2048x8x64, .f32⟩
  | .hbm, ⟨3, _⟩ => ⟨S2048x8x64, .f32⟩
  | .hbm, ⟨4, _⟩ => ⟨S2048x8x64x64, .f32⟩
  | .hbm, ⟨5, _⟩ => ⟨S2048x24x64, .f32⟩
  | .hbm, ⟨6, _⟩ => ⟨S2048x24x64, .f32⟩
  | .hbm, ⟨7, _⟩ => ⟨S2048x8x64x64, .f32⟩
  | .hbm, ⟨8, _⟩ => ⟨S2048x40x64, .f32⟩
  | .hbm, ⟨9, _⟩ => ⟨S2048x40x64, .f32⟩
  | .hbm, ⟨10, _⟩ => ⟨S2048x8x64x64, .f32⟩
  | .hbm, ⟨11, _⟩ => ⟨S2048x56x64, .f32⟩
  | .hbm, ⟨12, _⟩ => ⟨S2048x56x64, .f32⟩
  | .hbm, ⟨13, _⟩ => ⟨S2048x8x64x64, .f32⟩
  | .hbm, ⟨14, _⟩ => ⟨S2048x32x64x64, .f32⟩
  | .local _ .vmem, ⟨0, _⟩ => ⟨S64x8x64, .f32⟩
  | .local _ .vmem, ⟨1, _⟩ => ⟨S64x8x64, .f32⟩
  | .local _ .vmem, ⟨2, _⟩ => ⟨S64x8x64, .f32⟩
  | .local _ .vmem, ⟨3, _⟩ => ⟨S64x8x64, .f32⟩
  | .local _ .vmem, ⟨4, _⟩ => ⟨S64x8x64x64, .f32⟩
  | .local _ .vmem, ⟨5, _⟩ => ⟨S64x8x64x64, .f32⟩
  | .local _ .vmem, ⟨6, _⟩ => ⟨S64x24x64, .f32⟩
  | .local _ .vmem, ⟨7, _⟩ => ⟨S64x24x64, .f32⟩
  | .local _ .vmem, ⟨8, _⟩ => ⟨S64x24x64, .f32⟩
  | .local _ .vmem, ⟨9, _⟩ => ⟨S64x24x64, .f32⟩
  | .local _ .vmem, ⟨10, _⟩ => ⟨S64x8x64x64, .f32⟩
  | .local _ .vmem, ⟨11, _⟩ => ⟨S64x8x64x64, .f32⟩
  | .local _ .vmem, ⟨12, _⟩ => ⟨S64x40x64, .f32⟩
  | .local _ .vmem, ⟨13, _⟩ => ⟨S64x40x64, .f32⟩
  | .local _ .vmem, ⟨14, _⟩ => ⟨S64x40x64, .f32⟩
  | .local _ .vmem, ⟨15, _⟩ => ⟨S64x40x64, .f32⟩
  | .local _ .vmem, ⟨16, _⟩ => ⟨S64x8x64x64, .f32⟩
  | .local _ .vmem, ⟨17, _⟩ => ⟨S64x8x64x64, .f32⟩
  | .local _ .vmem, ⟨18, _⟩ => ⟨S64x56x64, .f32⟩
  | .local _ .vmem, ⟨19, _⟩ => ⟨S64x56x64, .f32⟩
  | .local _ .vmem, ⟨20, _⟩ => ⟨S64x56x64, .f32⟩
  | .local _ .vmem, ⟨21, _⟩ => ⟨S64x56x64, .f32⟩
  | .local _ .vmem, ⟨22, _⟩ => ⟨S64x8x64x64, .f32⟩
  | .local _ .vmem, ⟨23, _⟩ => ⟨S64x8x64x64, .f32⟩
  | _, _ => ⟨S2048x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S64x24x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x24x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x8x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S64x40x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x40x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x8x64x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S64x56x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x56x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x8x64x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2048x128x64_S2048x8x64_0_0_0 : S2048x128x64.Slices ![0, 0, 0] S2048x8x64
  inb_S64x8x64_S64x1x64_0_0_0 : ∀ a, (![0, 0, 0] : Fin 3 → Nat) a + S64x1x64.size a ≤ S64x8x64.size a
  h_S64x1x64 : 0 < S64x1x64.numel
  shapeCasts_S64x1x64_S64x64 : S64x1x64.ShapeCasts S64x64
  shapeCasts_S64x64_S64x64x1 : S64x64.ShapeCasts S64x64x1
  shapeCasts_S64x64_S64x1x64 : S64x64.ShapeCasts S64x1x64
  broadcasts_S64x64x1_S64x64x64 : S64x64x1.Broadcasts S64x64x64
  broadcasts_S64x1x64_S64x64x64 : S64x1x64.Broadcasts S64x64x64
  inb_S64x8x64x64_S64x1x64x64_0_0_0_0 : ∀ a, (![0, 0, 0, 0] : Fin 4 → Nat) a + S64x1x64x64.size a ≤ S64x8x64x64.size a
  h_S64x1x64x64 : 0 < S64x1x64x64.numel
  shapeCasts_S64x1x64x64_S64x64x64 : S64x1x64x64.ShapeCasts S64x64x64
  shapeCasts_S64x64x64_S64x1x64x64 : S64x64x64.ShapeCasts S64x1x64x64
  inb_S64x8x64_S64x1x64_0_1_0 : ∀ a, (![0, 1, 0] : Fin 3 → Nat) a + S64x1x64.size a ≤ S64x8x64.size a
  inb_S64x8x64x64_S64x1x64x64_0_1_0_0 : ∀ a, (![0, 1, 0, 0] : Fin 4 → Nat) a + S64x1x64x64.size a ≤ S64x8x64x64.size a
  inb_S64x8x64_S64x1x64_0_2_0 : ∀ a, (![0, 2, 0] : Fin 3 → Nat) a + S64x1x64.size a ≤ S64x8x64.size a
  inb_S64x8x64x64_S64x1x64x64_0_2_0_0 : ∀ a, (![0, 2, 0, 0] : Fin 4 → Nat) a + S64x1x64x64.size a ≤ S64x8x64x64.size a
  inb_S64x8x64_S64x1x64_0_3_0 : ∀ a, (![0, 3, 0] : Fin 3 → Nat) a + S64x1x64.size a ≤ S64x8x64.size a
  inb_S64x8x64x64_S64x1x64x64_0_3_0_0 : ∀ a, (![0, 3, 0, 0] : Fin 4 → Nat) a + S64x1x64x64.size a ≤ S64x8x64x64.size a
  inb_S64x8x64_S64x1x64_0_4_0 : ∀ a, (![0, 4, 0] : Fin 3 → Nat) a + S64x1x64.size a ≤ S64x8x64.size a
  inb_S64x8x64x64_S64x1x64x64_0_4_0_0 : ∀ a, (![0, 4, 0, 0] : Fin 4 → Nat) a + S64x1x64x64.size a ≤ S64x8x64x64.size a
  inb_S64x8x64_S64x1x64_0_5_0 : ∀ a, (![0, 5, 0] : Fin 3 → Nat) a + S64x1x64.size a ≤ S64x8x64.size a
  inb_S64x8x64x64_S64x1x64x64_0_5_0_0 : ∀ a, (![0, 5, 0, 0] : Fin 4 → Nat) a + S64x1x64x64.size a ≤ S64x8x64x64.size a
  inb_S64x8x64_S64x1x64_0_6_0 : ∀ a, (![0, 6, 0] : Fin 3 → Nat) a + S64x1x64.size a ≤ S64x8x64.size a
  inb_S64x8x64x64_S64x1x64x64_0_6_0_0 : ∀ a, (![0, 6, 0, 0] : Fin 4 → Nat) a + S64x1x64x64.size a ≤ S64x8x64x64.size a
  inb_S64x8x64_S64x1x64_0_7_0 : ∀ a, (![0, 7, 0] : Fin 3 → Nat) a + S64x1x64.size a ≤ S64x8x64.size a
  inb_S64x8x64x64_S64x1x64x64_0_7_0_0 : ∀ a, (![0, 7, 0, 0] : Fin 4 → Nat) a + S64x1x64x64.size a ≤ S64x8x64x64.size a
  slices_S2048x128x64_S2048x24x64_0_8_0 : S2048x128x64.Slices ![0, 8, 0] S2048x24x64
  inb_S64x24x64_S64x1x64_0_0_0 : ∀ a, (![0, 0, 0] : Fin 3 → Nat) a + S64x1x64.size a ≤ S64x24x64.size a
  inb_S64x24x64_S64x1x64_0_1_0 : ∀ a, (![0, 1, 0] : Fin 3 → Nat) a + S64x1x64.size a ≤ S64x24x64.size a
  inb_S64x24x64_S64x1x64_0_2_0 : ∀ a, (![0, 2, 0] : Fin 3 → Nat) a + S64x1x64.size a ≤ S64x24x64.size a
  inb_S64x24x64_S64x1x64_0_3_0 : ∀ a, (![0, 3, 0] : Fin 3 → Nat) a + S64x1x64.size a ≤ S64x24x64.size a
  inb_S64x24x64_S64x1x64_0_4_0 : ∀ a, (![0, 4, 0] : Fin 3 → Nat) a + S64x1x64.size a ≤ S64x24x64.size a
  inb_S64x24x64_S64x1x64_0_5_0 : ∀ a, (![0, 5, 0] : Fin 3 → Nat) a + S64x1x64.size a ≤ S64x24x64.size a
  inb_S64x24x64_S64x1x64_0_6_0 : ∀ a, (![0, 6, 0] : Fin 3 → Nat) a + S64x1x64.size a ≤ S64x24x64.size a
  inb_S64x24x64_S64x1x64_0_7_0 : ∀ a, (![0, 7, 0] : Fin 3 → Nat) a + S64x1x64.size a ≤ S64x24x64.size a
  inb_S64x24x64_S64x1x64_0_8_0 : ∀ a, (![0, 8, 0] : Fin 3 → Nat) a + S64x1x64.size a ≤ S64x24x64.size a
  inb_S64x24x64_S64x1x64_0_9_0 : ∀ a, (![0, 9, 0] : Fin 3 → Nat) a + S64x1x64.size a ≤ S64x24x64.size a
  inb_S64x24x64_S64x1x64_0_10_0 : ∀ a, (![0, 10, 0] : Fin 3 → Nat) a + S64x1x64.size a ≤ S64x24x64.size a
  inb_S64x24x64_S64x1x64_0_11_0 : ∀ a, (![0, 11, 0] : Fin 3 → Nat) a + S64x1x64.size a ≤ S64x24x64.size a
  inb_S64x24x64_S64x1x64_0_12_0 : ∀ a, (![0, 12, 0] : Fin 3 → Nat) a + S64x1x64.size a ≤ S64x24x64.size a
  inb_S64x24x64_S64x1x64_0_13_0 : ∀ a, (![0, 13, 0] : Fin 3 → Nat) a + S64x1x64.size a ≤ S64x24x64.size a
  inb_S64x24x64_S64x1x64_0_14_0 : ∀ a, (![0, 14, 0] : Fin 3 → Nat) a + S64x1x64.size a ≤ S64x24x64.size a
  inb_S64x24x64_S64x1x64_0_15_0 : ∀ a, (![0, 15, 0] : Fin 3 → Nat) a + S64x1x64.size a ≤ S64x24x64.size a
  inb_S64x24x64_S64x1x64_0_16_0 : ∀ a, (![0, 16, 0] : Fin 3 → Nat) a + S64x1x64.size a ≤ S64x24x64.size a
  inb_S64x24x64_S64x1x64_0_17_0 : ∀ a, (![0, 17, 0] : Fin 3 → Nat) a + S64x1x64.size a ≤ S64x24x64.size a
  inb_S64x24x64_S64x1x64_0_18_0 : ∀ a, (![0, 18, 0] : Fin 3 → Nat) a + S64x1x64.size a ≤ S64x24x64.size a
  inb_S64x24x64_S64x1x64_0_19_0 : ∀ a, (![0, 19, 0] : Fin 3 → Nat) a + S64x1x64.size a ≤ S64x24x64.size a
  inb_S64x24x64_S64x1x64_0_20_0 : ∀ a, (![0, 20, 0] : Fin 3 → Nat) a + S64x1x64.size a ≤ S64x24x64.size a
  inb_S64x24x64_S64x1x64_0_21_0 : ∀ a, (![0, 21, 0] : Fin 3 → Nat) a + S64x1x64.size a ≤ S64x24x64.size a
  inb_S64x24x64_S64x1x64_0_22_0 : ∀ a, (![0, 22, 0] : Fin 3 → Nat) a + S64x1x64.size a ≤ S64x24x64.size a
  inb_S64x24x64_S64x1x64_0_23_0 : ∀ a, (![0, 23, 0] : Fin 3 → Nat) a + S64x1x64.size a ≤ S64x24x64.size a
  slices_S2048x128x64_S2048x40x64_0_32_0 : S2048x128x64.Slices ![0, 32, 0] S2048x40x64
  inb_S64x40x64_S64x1x64_0_0_0 : ∀ a, (![0, 0, 0] : Fin 3 → Nat) a + S64x1x64.size a ≤ S64x40x64.size a
  inb_S64x40x64_S64x1x64_0_1_0 : ∀ a, (![0, 1, 0] : Fin 3 → Nat) a + S64x1x64.size a ≤ S64x40x64.size a
  inb_S64x40x64_S64x1x64_0_2_0 : ∀ a, (![0, 2, 0] : Fin 3 → Nat) a + S64x1x64.size a ≤ S64x40x64.size a
  inb_S64x40x64_S64x1x64_0_3_0 : ∀ a, (![0, 3, 0] : Fin 3 → Nat) a + S64x1x64.size a ≤ S64x40x64.size a
  inb_S64x40x64_S64x1x64_0_4_0 : ∀ a, (![0, 4, 0] : Fin 3 → Nat) a + S64x1x64.size a ≤ S64x40x64.size a
  inb_S64x40x64_S64x1x64_0_5_0 : ∀ a, (![0, 5, 0] : Fin 3 → Nat) a + S64x1x64.size a ≤ S64x40x64.size a
  inb_S64x40x64_S64x1x64_0_6_0 : ∀ a, (![0, 6, 0] : Fin 3 → Nat) a + S64x1x64.size a ≤ S64x40x64.size a
  inb_S64x40x64_S64x1x64_0_7_0 : ∀ a, (![0, 7, 0] : Fin 3 → Nat) a + S64x1x64.size a ≤ S64x40x64.size a
  inb_S64x40x64_S64x1x64_0_8_0 : ∀ a, (![0, 8, 0] : Fin 3 → Nat) a + S64x1x64.size a ≤ S64x40x64.size a
  inb_S64x40x64_S64x1x64_0_9_0 : ∀ a, (![0, 9, 0] : Fin 3 → Nat) a + S64x1x64.size a ≤ S64x40x64.size a
  inb_S64x40x64_S64x1x64_0_10_0 : ∀ a, (![0, 10, 0] : Fin 3 → Nat) a + S64x1x64.size a ≤ S64x40x64.size a
  inb_S64x40x64_S64x1x64_0_11_0 : ∀ a, (![0, 11, 0] : Fin 3 → Nat) a + S64x1x64.size a ≤ S64x40x64.size a
  inb_S64x40x64_S64x1x64_0_12_0 : ∀ a, (![0, 12, 0] : Fin 3 → Nat) a + S64x1x64.size a ≤ S64x40x64.size a
  inb_S64x40x64_S64x1x64_0_13_0 : ∀ a, (![0, 13, 0] : Fin 3 → Nat) a + S64x1x64.size a ≤ S64x40x64.size a
  inb_S64x40x64_S64x1x64_0_14_0 : ∀ a, (![0, 14, 0] : Fin 3 → Nat) a + S64x1x64.size a ≤ S64x40x64.size a
  inb_S64x40x64_S64x1x64_0_15_0 : ∀ a, (![0, 15, 0] : Fin 3 → Nat) a + S64x1x64.size a ≤ S64x40x64.size a
  inb_S64x40x64_S64x1x64_0_16_0 : ∀ a, (![0, 16, 0] : Fin 3 → Nat) a + S64x1x64.size a ≤ S64x40x64.size a
  inb_S64x40x64_S64x1x64_0_17_0 : ∀ a, (![0, 17, 0] : Fin 3 → Nat) a + S64x1x64.size a ≤ S64x40x64.size a
  inb_S64x40x64_S64x1x64_0_18_0 : ∀ a, (![0, 18, 0] : Fin 3 → Nat) a + S64x1x64.size a ≤ S64x40x64.size a
  inb_S64x40x64_S64x1x64_0_19_0 : ∀ a, (![0, 19, 0] : Fin 3 → Nat) a + S64x1x64.size a ≤ S64x40x64.size a
  inb_S64x40x64_S64x1x64_0_20_0 : ∀ a, (![0, 20, 0] : Fin 3 → Nat) a + S64x1x64.size a ≤ S64x40x64.size a
  inb_S64x40x64_S64x1x64_0_21_0 : ∀ a, (![0, 21, 0] : Fin 3 → Nat) a + S64x1x64.size a ≤ S64x40x64.size a
  inb_S64x40x64_S64x1x64_0_22_0 : ∀ a, (![0, 22, 0] : Fin 3 → Nat) a + S64x1x64.size a ≤ S64x40x64.size a
  inb_S64x40x64_S64x1x64_0_23_0 : ∀ a, (![0, 23, 0] : Fin 3 → Nat) a + S64x1x64.size a ≤ S64x40x64.size a
  inb_S64x40x64_S64x1x64_0_24_0 : ∀ a, (![0, 24, 0] : Fin 3 → Nat) a + S64x1x64.size a ≤ S64x40x64.size a
  inb_S64x40x64_S64x1x64_0_25_0 : ∀ a, (![0, 25, 0] : Fin 3 → Nat) a + S64x1x64.size a ≤ S64x40x64.size a
  inb_S64x40x64_S64x1x64_0_26_0 : ∀ a, (![0, 26, 0] : Fin 3 → Nat) a + S64x1x64.size a ≤ S64x40x64.size a
  inb_S64x40x64_S64x1x64_0_27_0 : ∀ a, (![0, 27, 0] : Fin 3 → Nat) a + S64x1x64.size a ≤ S64x40x64.size a
  inb_S64x40x64_S64x1x64_0_28_0 : ∀ a, (![0, 28, 0] : Fin 3 → Nat) a + S64x1x64.size a ≤ S64x40x64.size a
  inb_S64x40x64_S64x1x64_0_29_0 : ∀ a, (![0, 29, 0] : Fin 3 → Nat) a + S64x1x64.size a ≤ S64x40x64.size a
  inb_S64x40x64_S64x1x64_0_30_0 : ∀ a, (![0, 30, 0] : Fin 3 → Nat) a + S64x1x64.size a ≤ S64x40x64.size a
  inb_S64x40x64_S64x1x64_0_31_0 : ∀ a, (![0, 31, 0] : Fin 3 → Nat) a + S64x1x64.size a ≤ S64x40x64.size a
  inb_S64x40x64_S64x1x64_0_32_0 : ∀ a, (![0, 32, 0] : Fin 3 → Nat) a + S64x1x64.size a ≤ S64x40x64.size a
  inb_S64x40x64_S64x1x64_0_33_0 : ∀ a, (![0, 33, 0] : Fin 3 → Nat) a + S64x1x64.size a ≤ S64x40x64.size a
  inb_S64x40x64_S64x1x64_0_34_0 : ∀ a, (![0, 34, 0] : Fin 3 → Nat) a + S64x1x64.size a ≤ S64x40x64.size a
  inb_S64x40x64_S64x1x64_0_35_0 : ∀ a, (![0, 35, 0] : Fin 3 → Nat) a + S64x1x64.size a ≤ S64x40x64.size a
  inb_S64x40x64_S64x1x64_0_36_0 : ∀ a, (![0, 36, 0] : Fin 3 → Nat) a + S64x1x64.size a ≤ S64x40x64.size a
  inb_S64x40x64_S64x1x64_0_37_0 : ∀ a, (![0, 37, 0] : Fin 3 → Nat) a + S64x1x64.size a ≤ S64x40x64.size a
  inb_S64x40x64_S64x1x64_0_38_0 : ∀ a, (![0, 38, 0] : Fin 3 → Nat) a + S64x1x64.size a ≤ S64x40x64.size a
  inb_S64x40x64_S64x1x64_0_39_0 : ∀ a, (![0, 39, 0] : Fin 3 → Nat) a + S64x1x64.size a ≤ S64x40x64.size a
  slices_S2048x128x64_S2048x56x64_0_72_0 : S2048x128x64.Slices ![0, 72, 0] S2048x56x64
  inb_S64x56x64_S64x1x64_0_0_0 : ∀ a, (![0, 0, 0] : Fin 3 → Nat) a + S64x1x64.size a ≤ S64x56x64.size a
  inb_S64x56x64_S64x1x64_0_1_0 : ∀ a, (![0, 1, 0] : Fin 3 → Nat) a + S64x1x64.size a ≤ S64x56x64.size a
  inb_S64x56x64_S64x1x64_0_2_0 : ∀ a, (![0, 2, 0] : Fin 3 → Nat) a + S64x1x64.size a ≤ S64x56x64.size a
  inb_S64x56x64_S64x1x64_0_3_0 : ∀ a, (![0, 3, 0] : Fin 3 → Nat) a + S64x1x64.size a ≤ S64x56x64.size a
  inb_S64x56x64_S64x1x64_0_4_0 : ∀ a, (![0, 4, 0] : Fin 3 → Nat) a + S64x1x64.size a ≤ S64x56x64.size a
  inb_S64x56x64_S64x1x64_0_5_0 : ∀ a, (![0, 5, 0] : Fin 3 → Nat) a + S64x1x64.size a ≤ S64x56x64.size a
  inb_S64x56x64_S64x1x64_0_6_0 : ∀ a, (![0, 6, 0] : Fin 3 → Nat) a + S64x1x64.size a ≤ S64x56x64.size a
  inb_S64x56x64_S64x1x64_0_7_0 : ∀ a, (![0, 7, 0] : Fin 3 → Nat) a + S64x1x64.size a ≤ S64x56x64.size a
  inb_S64x56x64_S64x1x64_0_8_0 : ∀ a, (![0, 8, 0] : Fin 3 → Nat) a + S64x1x64.size a ≤ S64x56x64.size a
  inb_S64x56x64_S64x1x64_0_9_0 : ∀ a, (![0, 9, 0] : Fin 3 → Nat) a + S64x1x64.size a ≤ S64x56x64.size a
  inb_S64x56x64_S64x1x64_0_10_0 : ∀ a, (![0, 10, 0] : Fin 3 → Nat) a + S64x1x64.size a ≤ S64x56x64.size a
  inb_S64x56x64_S64x1x64_0_11_0 : ∀ a, (![0, 11, 0] : Fin 3 → Nat) a + S64x1x64.size a ≤ S64x56x64.size a
  inb_S64x56x64_S64x1x64_0_12_0 : ∀ a, (![0, 12, 0] : Fin 3 → Nat) a + S64x1x64.size a ≤ S64x56x64.size a
  inb_S64x56x64_S64x1x64_0_13_0 : ∀ a, (![0, 13, 0] : Fin 3 → Nat) a + S64x1x64.size a ≤ S64x56x64.size a
  inb_S64x56x64_S64x1x64_0_14_0 : ∀ a, (![0, 14, 0] : Fin 3 → Nat) a + S64x1x64.size a ≤ S64x56x64.size a
  inb_S64x56x64_S64x1x64_0_15_0 : ∀ a, (![0, 15, 0] : Fin 3 → Nat) a + S64x1x64.size a ≤ S64x56x64.size a
  inb_S64x56x64_S64x1x64_0_16_0 : ∀ a, (![0, 16, 0] : Fin 3 → Nat) a + S64x1x64.size a ≤ S64x56x64.size a
  inb_S64x56x64_S64x1x64_0_17_0 : ∀ a, (![0, 17, 0] : Fin 3 → Nat) a + S64x1x64.size a ≤ S64x56x64.size a
  inb_S64x56x64_S64x1x64_0_18_0 : ∀ a, (![0, 18, 0] : Fin 3 → Nat) a + S64x1x64.size a ≤ S64x56x64.size a
  inb_S64x56x64_S64x1x64_0_19_0 : ∀ a, (![0, 19, 0] : Fin 3 → Nat) a + S64x1x64.size a ≤ S64x56x64.size a
  inb_S64x56x64_S64x1x64_0_20_0 : ∀ a, (![0, 20, 0] : Fin 3 → Nat) a + S64x1x64.size a ≤ S64x56x64.size a
  inb_S64x56x64_S64x1x64_0_21_0 : ∀ a, (![0, 21, 0] : Fin 3 → Nat) a + S64x1x64.size a ≤ S64x56x64.size a
  inb_S64x56x64_S64x1x64_0_22_0 : ∀ a, (![0, 22, 0] : Fin 3 → Nat) a + S64x1x64.size a ≤ S64x56x64.size a
  inb_S64x56x64_S64x1x64_0_23_0 : ∀ a, (![0, 23, 0] : Fin 3 → Nat) a + S64x1x64.size a ≤ S64x56x64.size a
  inb_S64x56x64_S64x1x64_0_24_0 : ∀ a, (![0, 24, 0] : Fin 3 → Nat) a + S64x1x64.size a ≤ S64x56x64.size a
  inb_S64x56x64_S64x1x64_0_25_0 : ∀ a, (![0, 25, 0] : Fin 3 → Nat) a + S64x1x64.size a ≤ S64x56x64.size a
  inb_S64x56x64_S64x1x64_0_26_0 : ∀ a, (![0, 26, 0] : Fin 3 → Nat) a + S64x1x64.size a ≤ S64x56x64.size a
  inb_S64x56x64_S64x1x64_0_27_0 : ∀ a, (![0, 27, 0] : Fin 3 → Nat) a + S64x1x64.size a ≤ S64x56x64.size a
  inb_S64x56x64_S64x1x64_0_28_0 : ∀ a, (![0, 28, 0] : Fin 3 → Nat) a + S64x1x64.size a ≤ S64x56x64.size a
  inb_S64x56x64_S64x1x64_0_29_0 : ∀ a, (![0, 29, 0] : Fin 3 → Nat) a + S64x1x64.size a ≤ S64x56x64.size a
  inb_S64x56x64_S64x1x64_0_30_0 : ∀ a, (![0, 30, 0] : Fin 3 → Nat) a + S64x1x64.size a ≤ S64x56x64.size a
  inb_S64x56x64_S64x1x64_0_31_0 : ∀ a, (![0, 31, 0] : Fin 3 → Nat) a + S64x1x64.size a ≤ S64x56x64.size a
  inb_S64x56x64_S64x1x64_0_32_0 : ∀ a, (![0, 32, 0] : Fin 3 → Nat) a + S64x1x64.size a ≤ S64x56x64.size a
  inb_S64x56x64_S64x1x64_0_33_0 : ∀ a, (![0, 33, 0] : Fin 3 → Nat) a + S64x1x64.size a ≤ S64x56x64.size a
  inb_S64x56x64_S64x1x64_0_34_0 : ∀ a, (![0, 34, 0] : Fin 3 → Nat) a + S64x1x64.size a ≤ S64x56x64.size a
  inb_S64x56x64_S64x1x64_0_35_0 : ∀ a, (![0, 35, 0] : Fin 3 → Nat) a + S64x1x64.size a ≤ S64x56x64.size a
  inb_S64x56x64_S64x1x64_0_36_0 : ∀ a, (![0, 36, 0] : Fin 3 → Nat) a + S64x1x64.size a ≤ S64x56x64.size a
  inb_S64x56x64_S64x1x64_0_37_0 : ∀ a, (![0, 37, 0] : Fin 3 → Nat) a + S64x1x64.size a ≤ S64x56x64.size a
  inb_S64x56x64_S64x1x64_0_38_0 : ∀ a, (![0, 38, 0] : Fin 3 → Nat) a + S64x1x64.size a ≤ S64x56x64.size a
  inb_S64x56x64_S64x1x64_0_39_0 : ∀ a, (![0, 39, 0] : Fin 3 → Nat) a + S64x1x64.size a ≤ S64x56x64.size a
  inb_S64x56x64_S64x1x64_0_40_0 : ∀ a, (![0, 40, 0] : Fin 3 → Nat) a + S64x1x64.size a ≤ S64x56x64.size a
  inb_S64x56x64_S64x1x64_0_41_0 : ∀ a, (![0, 41, 0] : Fin 3 → Nat) a + S64x1x64.size a ≤ S64x56x64.size a
  inb_S64x56x64_S64x1x64_0_42_0 : ∀ a, (![0, 42, 0] : Fin 3 → Nat) a + S64x1x64.size a ≤ S64x56x64.size a
  inb_S64x56x64_S64x1x64_0_43_0 : ∀ a, (![0, 43, 0] : Fin 3 → Nat) a + S64x1x64.size a ≤ S64x56x64.size a
  inb_S64x56x64_S64x1x64_0_44_0 : ∀ a, (![0, 44, 0] : Fin 3 → Nat) a + S64x1x64.size a ≤ S64x56x64.size a
  inb_S64x56x64_S64x1x64_0_45_0 : ∀ a, (![0, 45, 0] : Fin 3 → Nat) a + S64x1x64.size a ≤ S64x56x64.size a
  inb_S64x56x64_S64x1x64_0_46_0 : ∀ a, (![0, 46, 0] : Fin 3 → Nat) a + S64x1x64.size a ≤ S64x56x64.size a
  inb_S64x56x64_S64x1x64_0_47_0 : ∀ a, (![0, 47, 0] : Fin 3 → Nat) a + S64x1x64.size a ≤ S64x56x64.size a
  inb_S64x56x64_S64x1x64_0_48_0 : ∀ a, (![0, 48, 0] : Fin 3 → Nat) a + S64x1x64.size a ≤ S64x56x64.size a
  inb_S64x56x64_S64x1x64_0_49_0 : ∀ a, (![0, 49, 0] : Fin 3 → Nat) a + S64x1x64.size a ≤ S64x56x64.size a
  inb_S64x56x64_S64x1x64_0_50_0 : ∀ a, (![0, 50, 0] : Fin 3 → Nat) a + S64x1x64.size a ≤ S64x56x64.size a
  inb_S64x56x64_S64x1x64_0_51_0 : ∀ a, (![0, 51, 0] : Fin 3 → Nat) a + S64x1x64.size a ≤ S64x56x64.size a
  inb_S64x56x64_S64x1x64_0_52_0 : ∀ a, (![0, 52, 0] : Fin 3 → Nat) a + S64x1x64.size a ≤ S64x56x64.size a
  inb_S64x56x64_S64x1x64_0_53_0 : ∀ a, (![0, 53, 0] : Fin 3 → Nat) a + S64x1x64.size a ≤ S64x56x64.size a
  inb_S64x56x64_S64x1x64_0_54_0 : ∀ a, (![0, 54, 0] : Fin 3 → Nat) a + S64x1x64.size a ≤ S64x56x64.size a
  inb_S64x56x64_S64x1x64_0_55_0 : ∀ a, (![0, 55, 0] : Fin 3 → Nat) a + S64x1x64.size a ≤ S64x56x64.size a
  concatenates_S2048x8x64x64_S2048x8x64x64_S2048x8x64x64_S2048x8x64x64_S2048x32x64x64_d1 : Shape.Concatenates [S2048x8x64x64, S2048x8x64x64, S2048x8x64x64, S2048x8x64x64] S2048x32x64x64 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8x64.size a ≤ S2048x8x64.size a
  hwx0_0 : ∀ i : grid0.Coords, EltTy.bits .f32 = 32 ∨ (Rect.block (s := S2048x8x64) S64x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8x64.size a ≤ S2048x8x64.size a
  hwx0_1 : ∀ i : grid0.Coords, EltTy.bits .f32 = 32 ∨ (Rect.block (s := S2048x8x64) S64x8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8x64x64.size a ≤ S2048x8x64x64.size a
  hwx0_2 : ∀ i : grid0.Coords, EltTy.bits .f32 = 32 ∨ (Rect.block (s := S2048x8x64x64) S64x8x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x24x64.size a ≤ S2048x24x64.size a
  hwx1_0 : ∀ i : grid1.Coords, EltTy.bits .f32 = 32 ∨ (Rect.block (s := S2048x24x64) S64x24x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x24x64.size a ≤ S2048x24x64.size a
  hwx1_1 : ∀ i : grid1.Coords, EltTy.bits .f32 = 32 ∨ (Rect.block (s := S2048x24x64) S64x24x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x8x64x64.size a ≤ S2048x8x64x64.size a
  hwx1_2 : ∀ i : grid1.Coords, EltTy.bits .f32 = 32 ∨ (Rect.block (s := S2048x8x64x64) S64x8x64x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x40x64.size a ≤ S2048x40x64.size a
  hwx2_0 : ∀ i : grid2.Coords, EltTy.bits .f32 = 32 ∨ (Rect.block (s := S2048x40x64) S64x40x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x40x64.size a ≤ S2048x40x64.size a
  hwx2_1 : ∀ i : grid2.Coords, EltTy.bits .f32 = 32 ∨ (Rect.block (s := S2048x40x64) S64x40x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x8x64x64.size a ≤ S2048x8x64x64.size a
  hwx2_2 : ∀ i : grid2.Coords, EltTy.bits .f32 = 32 ∨ (Rect.block (s := S2048x8x64x64) S64x8x64x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x56x64.size a ≤ S2048x56x64.size a
  hwx3_0 : ∀ i : grid3.Coords, EltTy.bits .f32 = 32 ∨ (Rect.block (s := S2048x56x64) S64x56x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x56x64.size a ≤ S2048x56x64.size a
  hwx3_1 : ∀ i : grid3.Coords, EltTy.bits .f32 = 32 ∨ (Rect.block (s := S2048x56x64) S64x56x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S64x8x64x64.size a ≤ S2048x8x64x64.size a
  hwx3_2 : ∀ i : grid3.Coords, EltTy.bits .f32 = 32 ∨ (Rect.block (s := S2048x8x64x64) S64x8x64x64.size (cc3_transform_2 i) (hinb3_2 i)).WholeWords (EltTy.packing .f32)

variable [Facts₀]

abbrev win0_0 : Pipeline.Window sig grid0 :=
  Pipeline.Window.ofSpec (Memref.whole main_v0) S64x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x8x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x8x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S64x24x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x24x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x8x64x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S64x40x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S64x40x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S64x8x64x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v9) S64x56x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S64x56x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S64x8x64x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S2048x128x64 : Shape := ⟨3, ![2048, 128, 64]⟩
abbrev S2048x8x64 : Shape := ⟨3, ![2048, 8, 64]⟩
abbrev S2048x8x1x64 : Shape := ⟨4, ![2048, 8, 1, 64]⟩
abbrev S2048x8x64x64 : Shape := ⟨4, ![2048, 8, 64, 64]⟩
abbrev S_ : Shape := ⟨0, ![]⟩
abbrev S2048x24x64 : Shape := ⟨3, ![2048, 24, 64]⟩
abbrev S2048x8x3x64 : Shape := ⟨4, ![2048, 8, 3, 64]⟩
abbrev S2048x40x64 : Shape := ⟨3, ![2048, 40, 64]⟩
abbrev S2048x8x5x64 : Shape := ⟨4, ![2048, 8, 5, 64]⟩
abbrev S2048x56x64 : Shape := ⟨3, ![2048, 56, 64]⟩
abbrev S2048x8x7x64 : Shape := ⟨4, ![2048, 8, 7, 64]⟩
abbrev S2048x32x64x64 : Shape := ⟨4, ![2048, 32, 64, 64]⟩

abbrev nBuf : Space → Nat
  | .hbm => 35
  | .vmem => 0
  | .smem => 0
  | _ => 0

abbrev bufTy : (tb : Table) → Fin (tcTables nBuf tb) → BufTy
  | .hbm, ⟨0, _⟩ => ⟨S2048x128x64, .f32⟩
  | .hbm, ⟨1, _⟩ => ⟨S2048x128x64, .f32⟩
  | .hbm, ⟨2, _⟩ => ⟨S2048x8x64, .f32⟩
  | .hbm, ⟨3, _⟩ => ⟨S2048x8x1x64, .f32⟩
  | .hbm, ⟨4, _⟩ => ⟨S2048x8x64, .f32⟩
  | .hbm, ⟨5, _⟩ => ⟨S2048x8x1x64, .f32⟩
  | .hbm, ⟨6, _⟩ => ⟨S2048x8x64x64, .f32⟩
  | .hbm, ⟨7, _⟩ => ⟨S_, .f32⟩
  | .hbm, ⟨8, _⟩ => ⟨S2048x8x64x64, .f32⟩
  | .hbm, ⟨9, _⟩ => ⟨S2048x8x64x64, .f32⟩
  | .hbm, ⟨10, _⟩ => ⟨S2048x24x64, .f32⟩
  | .hbm, ⟨11, _⟩ => ⟨S2048x8x3x64, .f32⟩
  | .hbm, ⟨12, _⟩ => ⟨S2048x24x64, .f32⟩
  | .hbm, ⟨13, _⟩ => ⟨S2048x8x3x64, .f32⟩
  | .hbm, ⟨14, _⟩ => ⟨S2048x8x64x64, .f32⟩
  | .hbm, ⟨15, _⟩ => ⟨S_, .f32⟩
  | .hbm, ⟨16, _⟩ => ⟨S2048x8x64x64, .f32⟩
  | .hbm, ⟨17, _⟩ => ⟨S2048x8x64x64, .f32⟩
  | .hbm, ⟨18, _⟩ => ⟨S2048x40x64, .f32⟩
  | .hbm, ⟨19, _⟩ => ⟨S2048x8x5x64, .f32⟩
  | .hbm, ⟨20, _⟩ => ⟨S2048x40x64, .f32⟩
  | .hbm, ⟨21, _⟩ => ⟨S2048x8x5x64, .f32⟩
  | .hbm, ⟨22, _⟩ => ⟨S2048x8x64x64, .f32⟩
  | .hbm, ⟨23, _⟩ => ⟨S_, .f32⟩
  | .hbm, ⟨24, _⟩ => ⟨S2048x8x64x64, .f32⟩
  | .hbm, ⟨25, _⟩ => ⟨S2048x8x64x64, .f32⟩
  | .hbm, ⟨26, _⟩ => ⟨S2048x56x64, .f32⟩
  | .hbm, ⟨27, _⟩ => ⟨S2048x8x7x64, .f32⟩
  | .hbm, ⟨28, _⟩ => ⟨S2048x56x64, .f32⟩
  | .hbm, ⟨29, _⟩ => ⟨S2048x8x7x64, .f32⟩
  | .hbm, ⟨30, _⟩ => ⟨S2048x8x64x64, .f32⟩
  | .hbm, ⟨31, _⟩ => ⟨S_, .f32⟩
  | .hbm, ⟨32, _⟩ => ⟨S2048x8x64x64, .f32⟩
  | .hbm, ⟨33, _⟩ => ⟨S2048x8x64x64, .f32⟩
  | .hbm, ⟨34, _⟩ => ⟨S2048x32x64x64, .f32⟩
  | _, _ => ⟨S2048x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]

class Facts₀ : Prop where
  slices_S2048x128x64_S2048x8x64_0_0_0 : S2048x128x64.Slices ![0, 0, 0] S2048x8x64
  shapeCasts_S2048x8x64_S2048x8x1x64 : S2048x8x64.ShapeCasts S2048x8x1x64
  bcast_S_S2048x8x64x64 : S_.BroadcastsInDim S2048x8x64x64 (![] : Fin 0 → Fin S2048x8x64x64.rank)
  slices_S2048x128x64_S2048x24x64_0_8_0 : S2048x128x64.Slices ![0, 8, 0] S2048x24x64
  shapeCasts_S2048x24x64_S2048x8x3x64 : S2048x24x64.ShapeCasts S2048x8x3x64
  slices_S2048x128x64_S2048x40x64_0_32_0 : S2048x128x64.Slices ![0, 32, 0] S2048x40x64
  shapeCasts_S2048x40x64_S2048x8x5x64 : S2048x40x64.ShapeCasts S2048x8x5x64
  slices_S2048x128x64_S2048x56x64_0_72_0 : S2048x128x64.Slices ![0, 72, 0] S2048x56x64
  shapeCasts_S2048x56x64_S2048x8x7x64 : S2048x56x64.ShapeCasts S2048x8x7x64
  concatenates_S2048x8x64x64_S2048x8x64x64_S2048x8x64x64_S2048x8x64x64_S2048x32x64x64_d1 : Shape.Concatenates [S2048x8x64x64, S2048x8x64x64, S2048x8x64x64, S2048x8x64x64] S2048x32x64x64 1
  dot_S2048x8x1x64_S2048x8x1x64_S2048x8x64x64_2_2_3_3_01_01_wf : DotDims.WF S2048x8x1x64 S2048x8x1x64 S2048x8x64x64 [2] [2] [3] [3] [0, 1] [0, 1]
  dot_S2048x8x3x64_S2048x8x3x64_S2048x8x64x64_2_2_3_3_01_01_wf : DotDims.WF S2048x8x3x64 S2048x8x3x64 S2048x8x64x64 [2] [2] [3] [3] [0, 1] [0, 1]
  dot_S2048x8x5x64_S2048x8x5x64_S2048x8x64x64_2_2_3_3_01_01_wf : DotDims.WF S2048x8x5x64 S2048x8x5x64 S2048x8x64x64 [2] [2] [3] [3] [0, 1] [0, 1]
  dot_S2048x8x7x64_S2048x8x7x64_S2048x8x64x64_2_2_3_3_01_01_wf : DotDims.WF S2048x8x7x64 S2048x8x7x64 S2048x8x64x64 [2] [2] [3] [3] [0, 1] [0, 1]

variable [Facts₀]

def dot_S2048x8x1x64_S2048x8x1x64_S2048x8x64x64_2_2_3_3_01_01 : DotDims S2048x8x1x64 S2048x8x1x64 S2048x8x64x64 where
  lhsContracting := [2]
  rhsContracting := [2]
  lhsNonContracting := [3]
  rhsNonContracting := [3]
  lhsBatch := [0, 1]
  rhsBatch := [0, 1]
  wf := dot_S2048x8x1x64_S2048x8x1x64_S2048x8x64x64_2_2_3_3_01_01_wf
def dot_S2048x8x3x64_S2048x8x3x64_S2048x8x64x64_2_2_3_3_01_01 : DotDims S2048x8x3x64 S2048x8x3x64 S2048x8x64x64 where
  lhsContracting := [2]
  rhsContracting := [2]
  lhsNonContracting := [3]
  rhsNonContracting := [3]
  lhsBatch := [0, 1]
  rhsBatch := [0, 1]
  wf := dot_S2048x8x3x64_S2048x8x3x64_S2048x8x64x64_2_2_3_3_01_01_wf
def dot_S2048x8x5x64_S2048x8x5x64_S2048x8x64x64_2_2_3_3_01_01 : DotDims S2048x8x5x64 S2048x8x5x64 S2048x8x64x64 where
  lhsContracting := [2]
  rhsContracting := [2]
  lhsNonContracting := [3]
  rhsNonContracting := [3]
  lhsBatch := [0, 1]
  rhsBatch := [0, 1]
  wf := dot_S2048x8x5x64_S2048x8x5x64_S2048x8x64x64_2_2_3_3_01_01_wf
def dot_S2048x8x7x64_S2048x8x7x64_S2048x8x64x64_2_2_3_3_01_01 : DotDims S2048x8x7x64 S2048x8x7x64 S2048x8x64x64 where
  lhsContracting := [2]
  rhsContracting := [2]
  lhsNonContracting := [3]
  rhsNonContracting := [3]
  lhsBatch := [0, 1]
  rhsBatch := [0, 1]
  wf := dot_S2048x8x7x64_S2048x8x7x64_S2048x8x64x64_2_2_3_3_01_01_wf

class Facts : Prop extends Facts₀ where

variable [Facts]
-- ==== Proof.Kernel.Ops.lean ====
/-
  The arithmetic of one stored slab, as pure functions of the rows it reads.

  For one multiplicity index the kernel body forms, from rows a₀ … a_{d-1} of the first operand and b₀ … b_{d-1} of
  the second (each a [64, 1, 64] block: sample, one row, channel), the [64, 64, 64] array whose entry (n, u, v) is
  ((0 + a₀(n,u)·b₀(n,v)) + a₁(n,u)·b₁(n,v)) + … , multiplies it by a constant, and stores it as a [64, 1, 64, 64] slab.
  `term` is one outer product a(n,u)·b(n,v) written with the broadcasts the body uses; `accD` is the sum of d of them in
  the body's order, starting from the zero array; `scaled s` is the product with the constant of bit pattern `s`,
  laid out as a slab.
-/
import proofs.«168482_j7232724927058_1_alg».proof.Proof.Gen.Kernel

noncomputable section

namespace Cert.Kernel.Hand

open Cert.Kernel Idealize.ShloMosaic Idealize.SL.Sem

variable {F : FTy → Type} [FloatOps F]

/-- The outer product of two rows: entry (n, u, v) is a(n, 0, u) · b(n, 0, v). -/
def term (a b : Vec F S64x1x64 .f32) : FVec F S64x64x64 .f32 :=
  mulf (broadcastTo S64x64x64 (shapeCast S64x64x1 (shapeCast S64x64 a Gen.shapeCasts_S64x1x64_S64x64) Gen.shapeCasts_S64x64_S64x64x1) Gen.broadcasts_S64x64x1_S64x64x64)
    (broadcastTo S64x64x64 (shapeCast S64x1x64 (shapeCast S64x64 b Gen.shapeCasts_S64x1x64_S64x64) Gen.shapeCasts_S64x64_S64x1x64) Gen.broadcasts_S64x1x64_S64x64x64)

/-- The zero array every accumulation starts from. -/
def zeros : FVec F S64x64x64 .f32 := broadcast S64x64x64 (Scalar.ofBits .f32 0x00000000#32)

/-- One outer product added to zero (contraction length 1). -/
def acc1 (a0 b0 : Vec F S64x1x64 .f32) : FVec F S64x64x64 .f32 := addf zeros (term a0 b0)

/-- Three outer products added in order (contraction length 3). -/
def acc3 (a0 b0 a1 b1 a2 b2 : Vec F S64x1x64 .f32) : FVec F S64x64x64 .f32 :=
  addf (addf (acc1 a0 b0) (term a1 b1)) (term a2 b2)

/-- Five outer products added in order (contraction length 5). -/
def acc5 (a0 b0 a1 b1 a2 b2 a3 b3 a4 b4 : Vec F S64x1x64 .f32) : FVec F S64x64x64 .f32 :=
  addf (addf (acc3 a0 b0 a1 b1 a2 b2) (term a3 b3)) (term a4 b4)

/-- Seven outer products added in order (contraction length 7). -/
def acc7 (a0 b0 a1 b1 a2 b2 a3 b3 a4 b4 a5 b5 a6 b6 : Vec F S64x1x64 .f32) : FVec F S64x64x64 .f32 :=
  addf (addf (acc5 a0 b0 a1 b1 a2 b2 a3 b3 a4 b4) (term a5 b5)) (term a6 b6)

/-- The accumulated array times the constant of bit pattern `s`, as a [64, 1, 64, 64] slab. -/
def scaled (s : BitVec 32) (acc : FVec F S64x64x64 .f32) : FVec F S64x1x64x64 .f32 :=
  shapeCast S64x1x64x64 (mulf acc (broadcast S64x64x64 (Scalar.ofBits .f32 s))) Gen.shapeCasts_S64x64x64_S64x1x64x64

end Cert.Kernel.Hand

end
-- ==== Proof.Kernel.Reg0.lean ====
/-
  Region 0 of @main (the pallas_call of contraction length 1), at any contents `V` of the TensorCore's buffers on entry.

  The grid has 32 points; at point t the two input windows hold rows 64·t … 64·t+63 of their [2048, 8, 64] arrays and
  the output window is written back to rows 64·t … 64·t+63 of the [2048, 8, 64, 64] result. The body stores eight slabs into
  the output block, slab i (at multiplicity index i) being `scaled` of the sum of the 1 outer product of rows
  1·i … 1·i+0 of the two input blocks (`out0_2`). Stated here: the blocks (`iblk0`), what the body leaves
  (`out0_2`, and that its eight slabs tile the block), the body's triple (`sound_kernel0`), the pipeline's proof data
  (`dat0`) and the body obligation at every point (`body_obligation0`).
-/
import proofs.«168482_j7232724927058_1_alg».proof.Proof.Kernel.Ops
import proofs.«168482_j7232724927058_1_alg».proof.Proof.Gen.Kernel.Launch
import proofs.«168482_j7232724927058_1_alg».proof.Proof.Gen.Kernel.Skeleton
import proofs.«168482_j7232724927058_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's staging buffer holds its block at every point, for any proof data over `V`'s arrays whose body
    leaves the block in place: the window is fetched at every point, never cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: row j of an input block, slab i of the output block -/

abbrev rl0_0 : Rect S64x8x64 := Rect.unit (s := S64x8x64) ![0, 0, 0] S64x1x64.size Gen.inb_S64x8x64_S64x1x64_0_0_0
abbrev rl0_1 : Rect S64x8x64 := Rect.unit (s := S64x8x64) ![0, 1, 0] S64x1x64.size Gen.inb_S64x8x64_S64x1x64_0_1_0
abbrev rl0_2 : Rect S64x8x64 := Rect.unit (s := S64x8x64) ![0, 2, 0] S64x1x64.size Gen.inb_S64x8x64_S64x1x64_0_2_0
abbrev rl0_3 : Rect S64x8x64 := Rect.unit (s := S64x8x64) ![0, 3, 0] S64x1x64.size Gen.inb_S64x8x64_S64x1x64_0_3_0
abbrev rl0_4 : Rect S64x8x64 := Rect.unit (s := S64x8x64) ![0, 4, 0] S64x1x64.size Gen.inb_S64x8x64_S64x1x64_0_4_0
abbrev rl0_5 : Rect S64x8x64 := Rect.unit (s := S64x8x64) ![0, 5, 0] S64x1x64.size Gen.inb_S64x8x64_S64x1x64_0_5_0
abbrev rl0_6 : Rect S64x8x64 := Rect.unit (s := S64x8x64) ![0, 6, 0] S64x1x64.size Gen.inb_S64x8x64_S64x1x64_0_6_0
abbrev rl0_7 : Rect S64x8x64 := Rect.unit (s := S64x8x64) ![0, 7, 0] S64x1x64.size Gen.inb_S64x8x64_S64x1x64_0_7_0
abbrev rs0_0 : Rect S64x8x64x64 := Rect.unit (s := S64x8x64x64) ![0, 0, 0, 0] S64x1x64x64.size Gen.inb_S64x8x64x64_S64x1x64x64_0_0_0_0
abbrev rs0_1 : Rect S64x8x64x64 := Rect.unit (s := S64x8x64x64) ![0, 1, 0, 0] S64x1x64x64.size Gen.inb_S64x8x64x64_S64x1x64x64_0_1_0_0
abbrev rs0_2 : Rect S64x8x64x64 := Rect.unit (s := S64x8x64x64) ![0, 2, 0, 0] S64x1x64x64.size Gen.inb_S64x8x64x64_S64x1x64x64_0_2_0_0
abbrev rs0_3 : Rect S64x8x64x64 := Rect.unit (s := S64x8x64x64) ![0, 3, 0, 0] S64x1x64x64.size Gen.inb_S64x8x64x64_S64x1x64x64_0_3_0_0
abbrev rs0_4 : Rect S64x8x64x64 := Rect.unit (s := S64x8x64x64) ![0, 4, 0, 0] S64x1x64x64.size Gen.inb_S64x8x64x64_S64x1x64x64_0_4_0_0
abbrev rs0_5 : Rect S64x8x64x64 := Rect.unit (s := S64x8x64x64) ![0, 5, 0, 0] S64x1x64x64.size Gen.inb_S64x8x64x64_S64x1x64x64_0_5_0_0
abbrev rs0_6 : Rect S64x8x64x64 := Rect.unit (s := S64x8x64x64) ![0, 6, 0, 0] S64x1x64x64.size Gen.inb_S64x8x64x64_S64x1x64x64_0_6_0_0
abbrev rs0_7 : Rect S64x8x64x64 := Rect.unit (s := S64x8x64x64) ![0, 7, 0, 0] S64x1x64x64.size Gen.inb_S64x8x64x64_S64x1x64x64_0_7_0_0

/-! ## What the body leaves in the output block -/

/-- The output block after the body, from the two input blocks: eight slabs, the last stored first. Slab i is the scaled
    sum of the outer products of rows 1·i … 1·i+0. -/
def out0_2 (x0 x1 : Vec F S64x8x64 .f32) : Vec F S64x8x64x64 .f32 :=
  View.canon [⟨rs0_7, scaled 0x3F800000#32 (acc1 (View.ld x0 rl0_7) (View.ld x1 rl0_7))⟩,
    ⟨rs0_6, scaled 0x3F800000#32 (acc1 (View.ld x0 rl0_6) (View.ld x1 rl0_6))⟩,
    ⟨rs0_5, scaled 0x3F800000#32 (acc1 (View.ld x0 rl0_5) (View.ld x1 rl0_5))⟩,
    ⟨rs0_4, scaled 0x3F800000#32 (acc1 (View.ld x0 rl0_4) (View.ld x1 rl0_4))⟩,
    ⟨rs0_3, scaled 0x3F800000#32 (acc1 (View.ld x0 rl0_3) (View.ld x1 rl0_3))⟩,
    ⟨rs0_2, scaled 0x3F800000#32 (acc1 (View.ld x0 rl0_2) (View.ld x1 rl0_2))⟩,
    ⟨rs0_1, scaled 0x3F800000#32 (acc1 (View.ld x0 rl0_1) (View.ld x1 rl0_1))⟩,
    ⟨rs0_0, scaled 0x3F800000#32 (acc1 (View.ld x0 rl0_0) (View.ld x1 rl0_0))⟩]

/-- The eight slabs tile the block, so every index of it lies in one of them. -/
theorem cover0_2 (p0 p1 p2 p3 p4 p5 p6 p7 : Vec F S64x1x64x64 .f32) (y : S64x8x64x64.Idx) :
    ∃ pc ∈ ([⟨rs0_7, p7⟩, ⟨rs0_6, p6⟩, ⟨rs0_5, p5⟩, ⟨rs0_4, p4⟩, ⟨rs0_3, p3⟩, ⟨rs0_2, p2⟩, ⟨rs0_1, p1⟩, ⟨rs0_0, p0⟩] : List (View.Piece (Elt F) S64x8x64x64 .f32)), y ∈ pc.1.set :=
  View.cover_of_tiled [⟨rs0_7, p7⟩, ⟨rs0_6, p6⟩, ⟨rs0_5, p5⟩, ⟨rs0_4, p4⟩, ⟨rs0_3, p3⟩, ⟨rs0_2, p2⟩, ⟨rs0_1, p1⟩, ⟨rs0_0, p0⟩] S64x1x64x64.size (by rfl) y

/-! ## The body's triple -/

set_option maxHeartbeats 4000000 in
/-- The body on whole staging memrefs — the inputs' at contents `x0`, `x1`, the output's at anything — runs to the
    continuation with the inputs' as they were and the output's at `out0_2 x0 x1`. -/
theorem sound_kernel0 (c : Dev nD) (E : Set ℕ) (i : grid0.Coords) (arg1 : Memref sig .tc .vmem S64x8x64 .f32) (harg1 : arg1.IsWhole)
    (arg2 : Memref sig .tc .vmem S64x8x64 .f32) (harg2 : arg2.IsWhole) (arg3 : Memref sig .tc .vmem S64x8x64x64 .f32) (harg3 : arg3.IsWhole)
    (x0 x1 : Vec F S64x8x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  unfold owns
  iintro ⟨⟨%f0, %hf0, H0⟩, ⟨%f1, %hf1, H1⟩, ⟨%d2, %f2, -, H2⟩, Hk⟩
  subst hf0; subst hf1
  sl_unfold [cc0_kernel]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _ _ _ _ _ _ _ _)).trans ?_
  sl_unfold_words
  rfl

/-! ## The pipeline's proof data -/

/-- The proof data of pipeline 0 on core `c`: the arrays as the region finds them; after the body at point `t` each input's
    buffer at its block and the output's at `out0_2` of the input blocks; the scoped rest and the generator register ride
    along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Reg1.lean ====
/-
  Region 1 of @main (the pallas_call of contraction length 3), at any contents `V` of the TensorCore's buffers on entry.

  The grid has 32 points; at point t the two input windows hold rows 64·t … 64·t+63 of their [2048, 24, 64] arrays and
  the output window is written back to rows 64·t … 64·t+63 of the [2048, 8, 64, 64] result. The body stores eight slabs into
  the output block, slab i (at multiplicity index i) being `scaled` of the sum of the 3 outer products of rows
  3·i … 3·i+2 of the two input blocks (`out1_2`). Stated here: the blocks (`iblk1`), what the body leaves
  (`out1_2`, and that its eight slabs tile the block), the body's triple (`sound_kernel1`), the pipeline's proof data
  (`dat1`) and the body obligation at every point (`body_obligation1`).
-/
import proofs.«168482_j7232724927058_1_alg».proof.Proof.Kernel.Ops
import proofs.«168482_j7232724927058_1_alg».proof.Proof.Gen.Kernel.Launch
import proofs.«168482_j7232724927058_1_alg».proof.Proof.Gen.Kernel.Skeleton
import proofs.«168482_j7232724927058_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's staging buffer holds its block at every point, for any proof data over `V`'s arrays whose body
    leaves the block in place: the window is fetched at every point, never cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: row j of an input block, slab i of the output block -/

abbrev rl1_0 : Rect S64x24x64 := Rect.unit (s := S64x24x64) ![0, 0, 0] S64x1x64.size Gen.inb_S64x24x64_S64x1x64_0_0_0
abbrev rl1_1 : Rect S64x24x64 := Rect.unit (s := S64x24x64) ![0, 1, 0] S64x1x64.size Gen.inb_S64x24x64_S64x1x64_0_1_0
abbrev rl1_2 : Rect S64x24x64 := Rect.unit (s := S64x24x64) ![0, 2, 0] S64x1x64.size Gen.inb_S64x24x64_S64x1x64_0_2_0
abbrev rl1_3 : Rect S64x24x64 := Rect.unit (s := S64x24x64) ![0, 3, 0] S64x1x64.size Gen.inb_S64x24x64_S64x1x64_0_3_0
abbrev rl1_4 : Rect S64x24x64 := Rect.unit (s := S64x24x64) ![0, 4, 0] S64x1x64.size Gen.inb_S64x24x64_S64x1x64_0_4_0
abbrev rl1_5 : Rect S64x24x64 := Rect.unit (s := S64x24x64) ![0, 5, 0] S64x1x64.size Gen.inb_S64x24x64_S64x1x64_0_5_0
abbrev rl1_6 : Rect S64x24x64 := Rect.unit (s := S64x24x64) ![0, 6, 0] S64x1x64.size Gen.inb_S64x24x64_S64x1x64_0_6_0
abbrev rl1_7 : Rect S64x24x64 := Rect.unit (s := S64x24x64) ![0, 7, 0] S64x1x64.size Gen.inb_S64x24x64_S64x1x64_0_7_0
abbrev rl1_8 : Rect S64x24x64 := Rect.unit (s := S64x24x64) ![0, 8, 0] S64x1x64.size Gen.inb_S64x24x64_S64x1x64_0_8_0
abbrev rl1_9 : Rect S64x24x64 := Rect.unit (s := S64x24x64) ![0, 9, 0] S64x1x64.size Gen.inb_S64x24x64_S64x1x64_0_9_0
abbrev rl1_10 : Rect S64x24x64 := Rect.unit (s := S64x24x64) ![0, 10, 0] S64x1x64.size Gen.inb_S64x24x64_S64x1x64_0_10_0
abbrev rl1_11 : Rect S64x24x64 := Rect.unit (s := S64x24x64) ![0, 11, 0] S64x1x64.size Gen.inb_S64x24x64_S64x1x64_0_11_0
abbrev rl1_12 : Rect S64x24x64 := Rect.unit (s := S64x24x64) ![0, 12, 0] S64x1x64.size Gen.inb_S64x24x64_S64x1x64_0_12_0
abbrev rl1_13 : Rect S64x24x64 := Rect.unit (s := S64x24x64) ![0, 13, 0] S64x1x64.size Gen.inb_S64x24x64_S64x1x64_0_13_0
abbrev rl1_14 : Rect S64x24x64 := Rect.unit (s := S64x24x64) ![0, 14, 0] S64x1x64.size Gen.inb_S64x24x64_S64x1x64_0_14_0
abbrev rl1_15 : Rect S64x24x64 := Rect.unit (s := S64x24x64) ![0, 15, 0] S64x1x64.size Gen.inb_S64x24x64_S64x1x64_0_15_0
abbrev rl1_16 : Rect S64x24x64 := Rect.unit (s := S64x24x64) ![0, 16, 0] S64x1x64.size Gen.inb_S64x24x64_S64x1x64_0_16_0
abbrev rl1_17 : Rect S64x24x64 := Rect.unit (s := S64x24x64) ![0, 17, 0] S64x1x64.size Gen.inb_S64x24x64_S64x1x64_0_17_0
abbrev rl1_18 : Rect S64x24x64 := Rect.unit (s := S64x24x64) ![0, 18, 0] S64x1x64.size Gen.inb_S64x24x64_S64x1x64_0_18_0
abbrev rl1_19 : Rect S64x24x64 := Rect.unit (s := S64x24x64) ![0, 19, 0] S64x1x64.size Gen.inb_S64x24x64_S64x1x64_0_19_0
abbrev rl1_20 : Rect S64x24x64 := Rect.unit (s := S64x24x64) ![0, 20, 0] S64x1x64.size Gen.inb_S64x24x64_S64x1x64_0_20_0
abbrev rl1_21 : Rect S64x24x64 := Rect.unit (s := S64x24x64) ![0, 21, 0] S64x1x64.size Gen.inb_S64x24x64_S64x1x64_0_21_0
abbrev rl1_22 : Rect S64x24x64 := Rect.unit (s := S64x24x64) ![0, 22, 0] S64x1x64.size Gen.inb_S64x24x64_S64x1x64_0_22_0
abbrev rl1_23 : Rect S64x24x64 := Rect.unit (s := S64x24x64) ![0, 23, 0] S64x1x64.size Gen.inb_S64x24x64_S64x1x64_0_23_0
abbrev rs1_0 : Rect S64x8x64x64 := Rect.unit (s := S64x8x64x64) ![0, 0, 0, 0] S64x1x64x64.size Gen.inb_S64x8x64x64_S64x1x64x64_0_0_0_0
abbrev rs1_1 : Rect S64x8x64x64 := Rect.unit (s := S64x8x64x64) ![0, 1, 0, 0] S64x1x64x64.size Gen.inb_S64x8x64x64_S64x1x64x64_0_1_0_0
abbrev rs1_2 : Rect S64x8x64x64 := Rect.unit (s := S64x8x64x64) ![0, 2, 0, 0] S64x1x64x64.size Gen.inb_S64x8x64x64_S64x1x64x64_0_2_0_0
abbrev rs1_3 : Rect S64x8x64x64 := Rect.unit (s := S64x8x64x64) ![0, 3, 0, 0] S64x1x64x64.size Gen.inb_S64x8x64x64_S64x1x64x64_0_3_0_0
abbrev rs1_4 : Rect S64x8x64x64 := Rect.unit (s := S64x8x64x64) ![0, 4, 0, 0] S64x1x64x64.size Gen.inb_S64x8x64x64_S64x1x64x64_0_4_0_0
abbrev rs1_5 : Rect S64x8x64x64 := Rect.unit (s := S64x8x64x64) ![0, 5, 0, 0] S64x1x64x64.size Gen.inb_S64x8x64x64_S64x1x64x64_0_5_0_0
abbrev rs1_6 : Rect S64x8x64x64 := Rect.unit (s := S64x8x64x64) ![0, 6, 0, 0] S64x1x64x64.size Gen.inb_S64x8x64x64_S64x1x64x64_0_6_0_0
abbrev rs1_7 : Rect S64x8x64x64 := Rect.unit (s := S64x8x64x64) ![0, 7, 0, 0] S64x1x64x64.size Gen.inb_S64x8x64x64_S64x1x64x64_0_7_0_0

/-! ## What the body leaves in the output block -/

/-- The output block after the body, from the two input blocks: eight slabs, the last stored first. Slab i is the scaled
    sum of the outer products of rows 3·i … 3·i+2. -/
def out1_2 (x0 x1 : Vec F S64x24x64 .f32) : Vec F S64x8x64x64 .f32 :=
  View.canon [⟨rs1_7, scaled 0x3F13CD3A#32 (acc3 (View.ld x0 rl1_21) (View.ld x1 rl1_21) (View.ld x0 rl1_22) (View.ld x1 rl1_22) (View.ld x0 rl1_23) (View.ld x1 rl1_23))⟩,
    ⟨rs1_6, scaled 0x3F13CD3A#32 (acc3 (View.ld x0 rl1_18) (View.ld x1 rl1_18) (View.ld x0 rl1_19) (View.ld x1 rl1_19) (View.ld x0 rl1_20) (View.ld x1 rl1_20))⟩,
    ⟨rs1_5, scaled 0x3F13CD3A#32 (acc3 (View.ld x0 rl1_15) (View.ld x1 rl1_15) (View.ld x0 rl1_16) (View.ld x1 rl1_16) (View.ld x0 rl1_17) (View.ld x1 rl1_17))⟩,
    ⟨rs1_4, scaled 0x3F13CD3A#32 (acc3 (View.ld x0 rl1_12) (View.ld x1 rl1_12) (View.ld x0 rl1_13) (View.ld x1 rl1_13) (View.ld x0 rl1_14) (View.ld x1 rl1_14))⟩,
    ⟨rs1_3, scaled 0x3F13CD3A#32 (acc3 (View.ld x0 rl1_9) (View.ld x1 rl1_9) (View.ld x0 rl1_10) (View.ld x1 rl1_10) (View.ld x0 rl1_11) (View.ld x1 rl1_11))⟩,
    ⟨rs1_2, scaled 0x3F13CD3A#32 (acc3 (View.ld x0 rl1_6) (View.ld x1 rl1_6) (View.ld x0 rl1_7) (View.ld x1 rl1_7) (View.ld x0 rl1_8) (View.ld x1 rl1_8))⟩,
    ⟨rs1_1, scaled 0x3F13CD3A#32 (acc3 (View.ld x0 rl1_3) (View.ld x1 rl1_3) (View.ld x0 rl1_4) (View.ld x1 rl1_4) (View.ld x0 rl1_5) (View.ld x1 rl1_5))⟩,
    ⟨rs1_0, scaled 0x3F13CD3A#32 (acc3 (View.ld x0 rl1_0) (View.ld x1 rl1_0) (View.ld x0 rl1_1) (View.ld x1 rl1_1) (View.ld x0 rl1_2) (View.ld x1 rl1_2))⟩]

/-- The eight slabs tile the block, so every index of it lies in one of them. -/
theorem cover1_2 (p0 p1 p2 p3 p4 p5 p6 p7 : Vec F S64x1x64x64 .f32) (y : S64x8x64x64.Idx) :
    ∃ pc ∈ ([⟨rs1_7, p7⟩, ⟨rs1_6, p6⟩, ⟨rs1_5, p5⟩, ⟨rs1_4, p4⟩, ⟨rs1_3, p3⟩, ⟨rs1_2, p2⟩, ⟨rs1_1, p1⟩, ⟨rs1_0, p0⟩] : List (View.Piece (Elt F) S64x8x64x64 .f32)), y ∈ pc.1.set :=
  View.cover_of_tiled [⟨rs1_7, p7⟩, ⟨rs1_6, p6⟩, ⟨rs1_5, p5⟩, ⟨rs1_4, p4⟩, ⟨rs1_3, p3⟩, ⟨rs1_2, p2⟩, ⟨rs1_1, p1⟩, ⟨rs1_0, p0⟩] S64x1x64x64.size (by rfl) y

/-! ## The body's triple -/

set_option maxHeartbeats 4000000 in
/-- The body on whole staging memrefs — the inputs' at contents `x0`, `x1`, the output's at anything — runs to the
    continuation with the inputs' as they were and the output's at `out1_2 x0 x1`. -/
theorem sound_kernel1 (c : Dev nD) (E : Set ℕ) (i : grid1.Coords) (arg1 : Memref sig .tc .vmem S64x24x64 .f32) (harg1 : arg1.IsWhole)
    (arg2 : Memref sig .tc .vmem S64x24x64 .f32) (harg2 : arg2.IsWhole) (arg3 : Memref sig .tc .vmem S64x8x64x64 .f32) (harg3 : arg3.IsWhole)
    (x0 x1 : Vec F S64x24x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  unfold owns
  iintro ⟨⟨%f0, %hf0, H0⟩, ⟨%f1, %hf1, H1⟩, ⟨%d2, %f2, -, H2⟩, Hk⟩
  subst hf0; subst hf1
  sl_unfold [cc1_kernel]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _ _ _ _ _ _ _ _)).trans ?_
  sl_unfold_words
  rfl

/-! ## The pipeline's proof data -/

/-- The proof data of pipeline 1 on core `c`: the arrays as the region finds them; after the body at point `t` each input's
    buffer at its block and the output's at `out1_2` of the input blocks; the scoped rest and the generator register ride
    along untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Reg2.lean ====
/-
  Region 2 of @main (the pallas_call of contraction length 5), at any contents `V` of the TensorCore's buffers on entry.

  The grid has 32 points; at point t the two input windows hold rows 64·t … 64·t+63 of their [2048, 40, 64] arrays and
  the output window is written back to rows 64·t … 64·t+63 of the [2048, 8, 64, 64] result. The body stores eight slabs into
  the output block, slab i (at multiplicity index i) being `scaled` of the sum of the 5 outer products of rows
  5·i … 5·i+4 of the two input blocks (`out2_2`). Stated here: the blocks (`iblk2`), what the body leaves
  (`out2_2`, and that its eight slabs tile the block), the body's triple (`sound_kernel2`), the pipeline's proof data
  (`dat2`) and the body obligation at every point (`body_obligation2`).
-/
import proofs.«168482_j7232724927058_1_alg».proof.Proof.Kernel.Ops
import proofs.«168482_j7232724927058_1_alg».proof.Proof.Gen.Kernel.Launch
import proofs.«168482_j7232724927058_1_alg».proof.Proof.Gen.Kernel.Skeleton
import proofs.«168482_j7232724927058_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first operand's staging buffer holds its block at every point, for any proof data over `V`'s arrays whose body
    leaves the block in place: the window is fetched at every point, never cut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the second operand. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: row j of an input block, slab i of the output block -/

abbrev rl2_0 : Rect S64x40x64 := Rect.unit (s := S64x40x64) ![0, 0, 0] S64x1x64.size Gen.inb_S64x40x64_S64x1x64_0_0_0
abbrev rl2_1 : Rect S64x40x64 := Rect.unit (s := S64x40x64) ![0, 1, 0] S64x1x64.size Gen.inb_S64x40x64_S64x1x64_0_1_0
abbrev rl2_2 : Rect S64x40x64 := Rect.unit (s := S64x40x64) ![0, 2, 0] S64x1x64.size Gen.inb_S64x40x64_S64x1x64_0_2_0
abbrev rl2_3 : Rect S64x40x64 := Rect.unit (s := S64x40x64) ![0, 3, 0] S64x1x64.size Gen.inb_S64x40x64_S64x1x64_0_3_0
abbrev rl2_4 : Rect S64x40x64 := Rect.unit (s := S64x40x64) ![0, 4, 0] S64x1x64.size Gen.inb_S64x40x64_S64x1x64_0_4_0
abbrev rl2_5 : Rect S64x40x64 := Rect.unit (s := S64x40x64) ![0, 5, 0] S64x1x64.size Gen.inb_S64x40x64_S64x1x64_0_5_0
abbrev rl2_6 : Rect S64x40x64 := Rect.unit (s := S64x40x64) ![0, 6, 0] S64x1x64.size Gen.inb_S64x40x64_S64x1x64_0_6_0
abbrev rl2_7 : Rect S64x40x64 := Rect.unit (s := S64x40x64) ![0, 7, 0] S64x1x64.size Gen.inb_S64x40x64_S64x1x64_0_7_0
abbrev rl2_8 : Rect S64x40x64 := Rect.unit (s := S64x40x64) ![0, 8, 0] S64x1x64.size Gen.inb_S64x40x64_S64x1x64_0_8_0
abbrev rl2_9 : Rect S64x40x64 := Rect.unit (s := S64x40x64) ![0, 9, 0] S64x1x64.size Gen.inb_S64x40x64_S64x1x64_0_9_0
abbrev rl2_10 : Rect S64x40x64 := Rect.unit (s := S64x40x64) ![0, 10, 0] S64x1x64.size Gen.inb_S64x40x64_S64x1x64_0_10_0
abbrev rl2_11 : Rect S64x40x64 := Rect.unit (s := S64x40x64) ![0, 11, 0] S64x1x64.size Gen.inb_S64x40x64_S64x1x64_0_11_0
abbrev rl2_12 : Rect S64x40x64 := Rect.unit (s := S64x40x64) ![0, 12, 0] S64x1x64.size Gen.inb_S64x40x64_S64x1x64_0_12_0
abbrev rl2_13 : Rect S64x40x64 := Rect.unit (s := S64x40x64) ![0, 13, 0] S64x1x64.size Gen.inb_S64x40x64_S64x1x64_0_13_0
abbrev rl2_14 : Rect S64x40x64 := Rect.unit (s := S64x40x64) ![0, 14, 0] S64x1x64.size Gen.inb_S64x40x64_S64x1x64_0_14_0
abbrev rl2_15 : Rect S64x40x64 := Rect.unit (s := S64x40x64) ![0, 15, 0] S64x1x64.size Gen.inb_S64x40x64_S64x1x64_0_15_0
abbrev rl2_16 : Rect S64x40x64 := Rect.unit (s := S64x40x64) ![0, 16, 0] S64x1x64.size Gen.inb_S64x40x64_S64x1x64_0_16_0
abbrev rl2_17 : Rect S64x40x64 := Rect.unit (s := S64x40x64) ![0, 17, 0] S64x1x64.size Gen.inb_S64x40x64_S64x1x64_0_17_0
abbrev rl2_18 : Rect S64x40x64 := Rect.unit (s := S64x40x64) ![0, 18, 0] S64x1x64.size Gen.inb_S64x40x64_S64x1x64_0_18_0
abbrev rl2_19 : Rect S64x40x64 := Rect.unit (s := S64x40x64) ![0, 19, 0] S64x1x64.size Gen.inb_S64x40x64_S64x1x64_0_19_0
abbrev rl2_20 : Rect S64x40x64 := Rect.unit (s := S64x40x64) ![0, 20, 0] S64x1x64.size Gen.inb_S64x40x64_S64x1x64_0_20_0
abbrev rl2_21 : Rect S64x40x64 := Rect.unit (s := S64x40x64) ![0, 21, 0] S64x1x64.size Gen.inb_S64x40x64_S64x1x64_0_21_0
abbrev rl2_22 : Rect S64x40x64 := Rect.unit (s := S64x40x64) ![0, 22, 0] S64x1x64.size Gen.inb_S64x40x64_S64x1x64_0_22_0
abbrev rl2_23 : Rect S64x40x64 := Rect.unit (s := S64x40x64) ![0, 23, 0] S64x1x64.size Gen.inb_S64x40x64_S64x1x64_0_23_0
abbrev rl2_24 : Rect S64x40x64 := Rect.unit (s := S64x40x64) ![0, 24, 0] S64x1x64.size Gen.inb_S64x40x64_S64x1x64_0_24_0
abbrev rl2_25 : Rect S64x40x64 := Rect.unit (s := S64x40x64) ![0, 25, 0] S64x1x64.size Gen.inb_S64x40x64_S64x1x64_0_25_0
abbrev rl2_26 : Rect S64x40x64 := Rect.unit (s := S64x40x64) ![0, 26, 0] S64x1x64.size Gen.inb_S64x40x64_S64x1x64_0_26_0
abbrev rl2_27 : Rect S64x40x64 := Rect.unit (s := S64x40x64) ![0, 27, 0] S64x1x64.size Gen.inb_S64x40x64_S64x1x64_0_27_0
abbrev rl2_28 : Rect S64x40x64 := Rect.unit (s := S64x40x64) ![0, 28, 0] S64x1x64.size Gen.inb_S64x40x64_S64x1x64_0_28_0
abbrev rl2_29 : Rect S64x40x64 := Rect.unit (s := S64x40x64) ![0, 29, 0] S64x1x64.size Gen.inb_S64x40x64_S64x1x64_0_29_0
abbrev rl2_30 : Rect S64x40x64 := Rect.unit (s := S64x40x64) ![0, 30, 0] S64x1x64.size Gen.inb_S64x40x64_S64x1x64_0_30_0
abbrev rl2_31 : Rect S64x40x64 := Rect.unit (s := S64x40x64) ![0, 31, 0] S64x1x64.size Gen.inb_S64x40x64_S64x1x64_0_31_0
abbrev rl2_32 : Rect S64x40x64 := Rect.unit (s := S64x40x64) ![0, 32, 0] S64x1x64.size Gen.inb_S64x40x64_S64x1x64_0_32_0
abbrev rl2_33 : Rect S64x40x64 := Rect.unit (s := S64x40x64) ![0, 33, 0] S64x1x64.size Gen.inb_S64x40x64_S64x1x64_0_33_0
abbrev rl2_34 : Rect S64x40x64 := Rect.unit (s := S64x40x64) ![0, 34, 0] S64x1x64.size Gen.inb_S64x40x64_S64x1x64_0_34_0
abbrev rl2_35 : Rect S64x40x64 := Rect.unit (s := S64x40x64) ![0, 35, 0] S64x1x64.size Gen.inb_S64x40x64_S64x1x64_0_35_0
abbrev rl2_36 : Rect S64x40x64 := Rect.unit (s := S64x40x64) ![0, 36, 0] S64x1x64.size Gen.inb_S64x40x64_S64x1x64_0_36_0
abbrev rl2_37 : Rect S64x40x64 := Rect.unit (s := S64x40x64) ![0, 37, 0] S64x1x64.size Gen.inb_S64x40x64_S64x1x64_0_37_0
abbrev rl2_38 : Rect S64x40x64 := Rect.unit (s := S64x40x64) ![0, 38, 0] S64x1x64.size Gen.inb_S64x40x64_S64x1x64_0_38_0
abbrev rl2_39 : Rect S64x40x64 := Rect.unit (s := S64x40x64) ![0, 39, 0] S64x1x64.size Gen.inb_S64x40x64_S64x1x64_0_39_0
abbrev rs2_0 : Rect S64x8x64x64 := Rect.unit (s := S64x8x64x64) ![0, 0, 0, 0] S64x1x64x64.size Gen.inb_S64x8x64x64_S64x1x64x64_0_0_0_0
abbrev rs2_1 : Rect S64x8x64x64 := Rect.unit (s := S64x8x64x64) ![0, 1, 0, 0] S64x1x64x64.size Gen.inb_S64x8x64x64_S64x1x64x64_0_1_0_0
abbrev rs2_2 : Rect S64x8x64x64 := Rect.unit (s := S64x8x64x64) ![0, 2, 0, 0] S64x1x64x64.size Gen.inb_S64x8x64x64_S64x1x64x64_0_2_0_0
abbrev rs2_3 : Rect S64x8x64x64 := Rect.unit (s := S64x8x64x64) ![0, 3, 0, 0] S64x1x64x64.size Gen.inb_S64x8x64x64_S64x1x64x64_0_3_0_0
abbrev rs2_4 : Rect S64x8x64x64 := Rect.unit (s := S64x8x64x64) ![0, 4, 0, 0] S64x1x64x64.size Gen.inb_S64x8x64x64_S64x1x64x64_0_4_0_0
abbrev rs2_5 : Rect S64x8x64x64 := Rect.unit (s := S64x8x64x64) ![0, 5, 0, 0] S64x1x64x64.size Gen.inb_S64x8x64x64_S64x1x64x64_0_5_0_0
abbrev rs2_6 : Rect S64x8x64x64 := Rect.unit (s := S64x8x64x64) ![0, 6, 0, 0] S64x1x64x64.size Gen.inb_S64x8x64x64_S64x1x64x64_0_6_0_0
abbrev rs2_7 : Rect S64x8x64x64 := Rect.unit (s := S64x8x64x64) ![0, 7, 0, 0] S64x1x64x64.size Gen.inb_S64x8x64x64_S64x1x64x64_0_7_0_0

/-! ## What the body leaves in the output block -/

/-- The output block after the body, from the two input blocks: eight slabs, the last stored first. Slab i is the scaled
    sum of the outer products of rows 5·i … 5·i+4. -/
def out2_2 (x0 x1 : Vec F S64x40x64 .f32) : Vec F S64x8x64x64 .f32 :=
  View.canon [⟨rs2_7, scaled 0x3EE4F92E#32 (acc5 (View.ld x0 rl2_35) (View.ld x1 rl2_35) (View.ld x0 rl2_36) (View.ld x1 rl2_36) (View.ld x0 rl2_37) (View.ld x1 rl2_37) (View.ld x0 rl2_38) (View.ld x1 rl2_38) (View.ld x0 rl2_39) (View.ld x1 rl2_39))⟩,
    ⟨rs2_6, scaled 0x3EE4F92E#32 (acc5 (View.ld x0 rl2_30) (View.ld x1 rl2_30) (View.ld x0 rl2_31) (View.ld x1 rl2_31) (View.ld x0 rl2_32) (View.ld x1 rl2_32) (View.ld x0 rl2_33) (View.ld x1 rl2_33) (View.ld x0 rl2_34) (View.ld x1 rl2_34))⟩,
    ⟨rs2_5, scaled 0x3EE4F92E#32 (acc5 (View.ld x0 rl2_25) (View.ld x1 rl2_25) (View.ld x0 rl2_26) (View.ld x1 rl2_26) (View.ld x0 rl2_27) (View.ld x1 rl2_27) (View.ld x0 rl2_28) (View.ld x1 rl2_28) (View.ld x0 rl2_29) (View.ld x1 rl2_29))⟩,
    ⟨rs2_4, scaled 0x3EE4F92E#32 (acc5 (View.ld x0 rl2_20) (View.ld x1 rl2_20) (View.ld x0 rl2_21) (View.ld x1 rl2_21) (View.ld x0 rl2_22) (View.ld x1 rl2_22) (View.ld x0 rl2_23) (View.ld x1 rl2_23) (View.ld x0 rl2_24) (View.ld x1 rl2_24))⟩,
    ⟨rs2_3, scaled 0x3EE4F92E#32 (acc5 (View.ld x0 rl2_15) (View.ld x1 rl2_15) (View.ld x0 rl2_16) (View.ld x1 rl2_16) (View.ld x0 rl2_17) (View.ld x1 rl2_17) (View.ld x0 rl2_18) (View.ld x1 rl2_18) (View.ld x0 rl2_19) (View.ld x1 rl2_19))⟩,
    ⟨rs2_2, scaled 0x3EE4F92E#32 (acc5 (View.ld x0 rl2_10) (View.ld x1 rl2_10) (View.ld x0 rl2_11) (View.ld x1 rl2_11) (View.ld x0 rl2_12) (View.ld x1 rl2_12) (View.ld x0 rl2_13) (View.ld x1 rl2_13) (View.ld x0 rl2_14) (View.ld x1 rl2_14))⟩,
    ⟨rs2_1, scaled 0x3EE4F92E#32 (acc5 (View.ld x0 rl2_5) (View.ld x1 rl2_5) (View.ld x0 rl2_6) (View.ld x1 rl2_6) (View.ld x0 rl2_7) (View.ld x1 rl2_7) (View.ld x0 rl2_8) (View.ld x1 rl2_8) (View.ld x0 rl2_9) (View.ld x1 rl2_9))⟩,
    ⟨rs2_0, scaled 0x3EE4F92E#32 (acc5 (View.ld x0 rl2_0) (View.ld x1 rl2_0) (View.ld x0 rl2_1) (View.ld x1 rl2_1) (View.ld x0 rl2_2) (View.ld x1 rl2_2) (View.ld x0 rl2_3) (View.ld x1 rl2_3) (View.ld x0 rl2_4) (View.ld x1 rl2_4))⟩]

/-- The eight slabs tile the block, so every index of it lies in one of them. -/
theorem cover2_2 (p0 p1 p2 p3 p4 p5 p6 p7 : Vec F S64x1x64x64 .f32) (y : S64x8x64x64.Idx) :
    ∃ pc ∈ ([⟨rs2_7, p7⟩, ⟨rs2_6, p6⟩, ⟨rs2_5, p5⟩, ⟨rs2_4, p4⟩, ⟨rs2_3, p3⟩, ⟨rs2_2, p2⟩, ⟨rs2_1, p1⟩, ⟨rs2_0, p0⟩] : List (View.Piece (Elt F) S64x8x64x64 .f32)), y ∈ pc.1.set :=
  View.cover_of_tiled [⟨rs2_7, p7⟩, ⟨rs2_6, p6⟩, ⟨rs2_5, p5⟩, ⟨rs2_4, p4⟩, ⟨rs2_3, p3⟩, ⟨rs2_2, p2⟩, ⟨rs2_1, p1⟩, ⟨rs2_0, p0⟩] S64x1x64x64.size (by rfl) y

/-! ## The body's triple -/

set_option maxHeartbeats 4000000 in
/-- The body on whole staging memrefs — the inputs' at contents `x0`, `x1`, the output's at anything — runs to the
    continuation with the inputs' as they were and the output's at `out2_2 x0 x1`. -/
theorem sound_kernel2 (c : Dev nD) (E : Set ℕ) (i : grid2.Coords) (arg1 : Memref sig .tc .vmem S64x40x64 .f32) (harg1 : arg1.IsWhole)
    (arg2 : Memref sig .tc .vmem S64x40x64 .f32) (harg2 : arg2.IsWhole) (arg3 : Memref sig .tc .vmem S64x8x64x64 .f32) (harg3 : arg3.IsWhole)
    (x0 x1 : Vec F S64x40x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  unfold owns
  iintro ⟨⟨%f0, %hf0, H0⟩, ⟨%f1, %hf1, H1⟩, ⟨%d2, %f2, -, H2⟩, Hk⟩
  subst hf0; subst hf1
  sl_unfold [cc2_kernel]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover2_2 _ _ _ _ _ _ _ _)).trans ?_
  sl_unfold_words
  rfl

/-! ## The pipeline's proof data -/

/-- The proof data of pipeline 2 on core `c`: the arrays as the region finds them; after the body at point `t` each input's
    buffer at its block and the output's at `out2_2` of the input blocks; the scoped rest and the generator register ride
    along untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Reg3.lean ====
/-
  Region 3 of @main (the pallas_call of contraction length 7), at any contents `V` of the TensorCore's buffers on entry.

  The grid has 32 points; at point t the two input windows hold rows 64·t … 64·t+63 of their [2048, 56, 64] arrays and
  the output window is written back to rows 64·t … 64·t+63 of the [2048, 8, 64, 64] result. The body stores eight slabs into
  the output block, slab i (at multiplicity index i) being `scaled` of the sum of the 7 outer products of rows
  7·i … 7·i+6 of the two input blocks (`out3_2`). Stated here: the blocks (`iblk3`), what the body leaves
  (`out3_2`, and that its eight slabs tile the block), the body's triple (`sound_kernel3`), the pipeline's proof data
  (`dat3`) and the body obligation at every point (`body_obligation3`).
-/
import proofs.«168482_j7232724927058_1_alg».proof.Proof.Kernel.Ops
import proofs.«168482_j7232724927058_1_alg».proof.Proof.Gen.Kernel.Launch
import proofs.«168482_j7232724927058_1_alg».proof.Proof.Gen.Kernel.Skeleton
import proofs.«168482_j7232724927058_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first operand's staging buffer holds its block at every point, for any proof data over `V`'s arrays whose body
    leaves the block in place: the window is fetched at every point, never cut. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the second operand. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: row j of an input block, slab i of the output block -/

abbrev rl3_0 : Rect S64x56x64 := Rect.unit (s := S64x56x64) ![0, 0, 0] S64x1x64.size Gen.inb_S64x56x64_S64x1x64_0_0_0
abbrev rl3_1 : Rect S64x56x64 := Rect.unit (s := S64x56x64) ![0, 1, 0] S64x1x64.size Gen.inb_S64x56x64_S64x1x64_0_1_0
abbrev rl3_2 : Rect S64x56x64 := Rect.unit (s := S64x56x64) ![0, 2, 0] S64x1x64.size Gen.inb_S64x56x64_S64x1x64_0_2_0
abbrev rl3_3 : Rect S64x56x64 := Rect.unit (s := S64x56x64) ![0, 3, 0] S64x1x64.size Gen.inb_S64x56x64_S64x1x64_0_3_0
abbrev rl3_4 : Rect S64x56x64 := Rect.unit (s := S64x56x64) ![0, 4, 0] S64x1x64.size Gen.inb_S64x56x64_S64x1x64_0_4_0
abbrev rl3_5 : Rect S64x56x64 := Rect.unit (s := S64x56x64) ![0, 5, 0] S64x1x64.size Gen.inb_S64x56x64_S64x1x64_0_5_0
abbrev rl3_6 : Rect S64x56x64 := Rect.unit (s := S64x56x64) ![0, 6, 0] S64x1x64.size Gen.inb_S64x56x64_S64x1x64_0_6_0
abbrev rl3_7 : Rect S64x56x64 := Rect.unit (s := S64x56x64) ![0, 7, 0] S64x1x64.size Gen.inb_S64x56x64_S64x1x64_0_7_0
abbrev rl3_8 : Rect S64x56x64 := Rect.unit (s := S64x56x64) ![0, 8, 0] S64x1x64.size Gen.inb_S64x56x64_S64x1x64_0_8_0
abbrev rl3_9 : Rect S64x56x64 := Rect.unit (s := S64x56x64) ![0, 9, 0] S64x1x64.size Gen.inb_S64x56x64_S64x1x64_0_9_0
abbrev rl3_10 : Rect S64x56x64 := Rect.unit (s := S64x56x64) ![0, 10, 0] S64x1x64.size Gen.inb_S64x56x64_S64x1x64_0_10_0
abbrev rl3_11 : Rect S64x56x64 := Rect.unit (s := S64x56x64) ![0, 11, 0] S64x1x64.size Gen.inb_S64x56x64_S64x1x64_0_11_0
abbrev rl3_12 : Rect S64x56x64 := Rect.unit (s := S64x56x64) ![0, 12, 0] S64x1x64.size Gen.inb_S64x56x64_S64x1x64_0_12_0
abbrev rl3_13 : Rect S64x56x64 := Rect.unit (s := S64x56x64) ![0, 13, 0] S64x1x64.size Gen.inb_S64x56x64_S64x1x64_0_13_0
abbrev rl3_14 : Rect S64x56x64 := Rect.unit (s := S64x56x64) ![0, 14, 0] S64x1x64.size Gen.inb_S64x56x64_S64x1x64_0_14_0
abbrev rl3_15 : Rect S64x56x64 := Rect.unit (s := S64x56x64) ![0, 15, 0] S64x1x64.size Gen.inb_S64x56x64_S64x1x64_0_15_0
abbrev rl3_16 : Rect S64x56x64 := Rect.unit (s := S64x56x64) ![0, 16, 0] S64x1x64.size Gen.inb_S64x56x64_S64x1x64_0_16_0
abbrev rl3_17 : Rect S64x56x64 := Rect.unit (s := S64x56x64) ![0, 17, 0] S64x1x64.size Gen.inb_S64x56x64_S64x1x64_0_17_0
abbrev rl3_18 : Rect S64x56x64 := Rect.unit (s := S64x56x64) ![0, 18, 0] S64x1x64.size Gen.inb_S64x56x64_S64x1x64_0_18_0
abbrev rl3_19 : Rect S64x56x64 := Rect.unit (s := S64x56x64) ![0, 19, 0] S64x1x64.size Gen.inb_S64x56x64_S64x1x64_0_19_0
abbrev rl3_20 : Rect S64x56x64 := Rect.unit (s := S64x56x64) ![0, 20, 0] S64x1x64.size Gen.inb_S64x56x64_S64x1x64_0_20_0
abbrev rl3_21 : Rect S64x56x64 := Rect.unit (s := S64x56x64) ![0, 21, 0] S64x1x64.size Gen.inb_S64x56x64_S64x1x64_0_21_0
abbrev rl3_22 : Rect S64x56x64 := Rect.unit (s := S64x56x64) ![0, 22, 0] S64x1x64.size Gen.inb_S64x56x64_S64x1x64_0_22_0
abbrev rl3_23 : Rect S64x56x64 := Rect.unit (s := S64x56x64) ![0, 23, 0] S64x1x64.size Gen.inb_S64x56x64_S64x1x64_0_23_0
abbrev rl3_24 : Rect S64x56x64 := Rect.unit (s := S64x56x64) ![0, 24, 0] S64x1x64.size Gen.inb_S64x56x64_S64x1x64_0_24_0
abbrev rl3_25 : Rect S64x56x64 := Rect.unit (s := S64x56x64) ![0, 25, 0] S64x1x64.size Gen.inb_S64x56x64_S64x1x64_0_25_0
abbrev rl3_26 : Rect S64x56x64 := Rect.unit (s := S64x56x64) ![0, 26, 0] S64x1x64.size Gen.inb_S64x56x64_S64x1x64_0_26_0
abbrev rl3_27 : Rect S64x56x64 := Rect.unit (s := S64x56x64) ![0, 27, 0] S64x1x64.size Gen.inb_S64x56x64_S64x1x64_0_27_0
abbrev rl3_28 : Rect S64x56x64 := Rect.unit (s := S64x56x64) ![0, 28, 0] S64x1x64.size Gen.inb_S64x56x64_S64x1x64_0_28_0
abbrev rl3_29 : Rect S64x56x64 := Rect.unit (s := S64x56x64) ![0, 29, 0] S64x1x64.size Gen.inb_S64x56x64_S64x1x64_0_29_0
abbrev rl3_30 : Rect S64x56x64 := Rect.unit (s := S64x56x64) ![0, 30, 0] S64x1x64.size Gen.inb_S64x56x64_S64x1x64_0_30_0
abbrev rl3_31 : Rect S64x56x64 := Rect.unit (s := S64x56x64) ![0, 31, 0] S64x1x64.size Gen.inb_S64x56x64_S64x1x64_0_31_0
abbrev rl3_32 : Rect S64x56x64 := Rect.unit (s := S64x56x64) ![0, 32, 0] S64x1x64.size Gen.inb_S64x56x64_S64x1x64_0_32_0
abbrev rl3_33 : Rect S64x56x64 := Rect.unit (s := S64x56x64) ![0, 33, 0] S64x1x64.size Gen.inb_S64x56x64_S64x1x64_0_33_0
abbrev rl3_34 : Rect S64x56x64 := Rect.unit (s := S64x56x64) ![0, 34, 0] S64x1x64.size Gen.inb_S64x56x64_S64x1x64_0_34_0
abbrev rl3_35 : Rect S64x56x64 := Rect.unit (s := S64x56x64) ![0, 35, 0] S64x1x64.size Gen.inb_S64x56x64_S64x1x64_0_35_0
abbrev rl3_36 : Rect S64x56x64 := Rect.unit (s := S64x56x64) ![0, 36, 0] S64x1x64.size Gen.inb_S64x56x64_S64x1x64_0_36_0
abbrev rl3_37 : Rect S64x56x64 := Rect.unit (s := S64x56x64) ![0, 37, 0] S64x1x64.size Gen.inb_S64x56x64_S64x1x64_0_37_0
abbrev rl3_38 : Rect S64x56x64 := Rect.unit (s := S64x56x64) ![0, 38, 0] S64x1x64.size Gen.inb_S64x56x64_S64x1x64_0_38_0
abbrev rl3_39 : Rect S64x56x64 := Rect.unit (s := S64x56x64) ![0, 39, 0] S64x1x64.size Gen.inb_S64x56x64_S64x1x64_0_39_0
abbrev rl3_40 : Rect S64x56x64 := Rect.unit (s := S64x56x64) ![0, 40, 0] S64x1x64.size Gen.inb_S64x56x64_S64x1x64_0_40_0
abbrev rl3_41 : Rect S64x56x64 := Rect.unit (s := S64x56x64) ![0, 41, 0] S64x1x64.size Gen.inb_S64x56x64_S64x1x64_0_41_0
abbrev rl3_42 : Rect S64x56x64 := Rect.unit (s := S64x56x64) ![0, 42, 0] S64x1x64.size Gen.inb_S64x56x64_S64x1x64_0_42_0
abbrev rl3_43 : Rect S64x56x64 := Rect.unit (s := S64x56x64) ![0, 43, 0] S64x1x64.size Gen.inb_S64x56x64_S64x1x64_0_43_0
abbrev rl3_44 : Rect S64x56x64 := Rect.unit (s := S64x56x64) ![0, 44, 0] S64x1x64.size Gen.inb_S64x56x64_S64x1x64_0_44_0
abbrev rl3_45 : Rect S64x56x64 := Rect.unit (s := S64x56x64) ![0, 45, 0] S64x1x64.size Gen.inb_S64x56x64_S64x1x64_0_45_0
abbrev rl3_46 : Rect S64x56x64 := Rect.unit (s := S64x56x64) ![0, 46, 0] S64x1x64.size Gen.inb_S64x56x64_S64x1x64_0_46_0
abbrev rl3_47 : Rect S64x56x64 := Rect.unit (s := S64x56x64) ![0, 47, 0] S64x1x64.size Gen.inb_S64x56x64_S64x1x64_0_47_0
abbrev rl3_48 : Rect S64x56x64 := Rect.unit (s := S64x56x64) ![0, 48, 0] S64x1x64.size Gen.inb_S64x56x64_S64x1x64_0_48_0
abbrev rl3_49 : Rect S64x56x64 := Rect.unit (s := S64x56x64) ![0, 49, 0] S64x1x64.size Gen.inb_S64x56x64_S64x1x64_0_49_0
abbrev rl3_50 : Rect S64x56x64 := Rect.unit (s := S64x56x64) ![0, 50, 0] S64x1x64.size Gen.inb_S64x56x64_S64x1x64_0_50_0
abbrev rl3_51 : Rect S64x56x64 := Rect.unit (s := S64x56x64) ![0, 51, 0] S64x1x64.size Gen.inb_S64x56x64_S64x1x64_0_51_0
abbrev rl3_52 : Rect S64x56x64 := Rect.unit (s := S64x56x64) ![0, 52, 0] S64x1x64.size Gen.inb_S64x56x64_S64x1x64_0_52_0
abbrev rl3_53 : Rect S64x56x64 := Rect.unit (s := S64x56x64) ![0, 53, 0] S64x1x64.size Gen.inb_S64x56x64_S64x1x64_0_53_0
abbrev rl3_54 : Rect S64x56x64 := Rect.unit (s := S64x56x64) ![0, 54, 0] S64x1x64.size Gen.inb_S64x56x64_S64x1x64_0_54_0
abbrev rl3_55 : Rect S64x56x64 := Rect.unit (s := S64x56x64) ![0, 55, 0] S64x1x64.size Gen.inb_S64x56x64_S64x1x64_0_55_0
abbrev rs3_0 : Rect S64x8x64x64 := Rect.unit (s := S64x8x64x64) ![0, 0, 0, 0] S64x1x64x64.size Gen.inb_S64x8x64x64_S64x1x64x64_0_0_0_0
abbrev rs3_1 : Rect S64x8x64x64 := Rect.unit (s := S64x8x64x64) ![0, 1, 0, 0] S64x1x64x64.size Gen.inb_S64x8x64x64_S64x1x64x64_0_1_0_0
abbrev rs3_2 : Rect S64x8x64x64 := Rect.unit (s := S64x8x64x64) ![0, 2, 0, 0] S64x1x64x64.size Gen.inb_S64x8x64x64_S64x1x64x64_0_2_0_0
abbrev rs3_3 : Rect S64x8x64x64 := Rect.unit (s := S64x8x64x64) ![0, 3, 0, 0] S64x1x64x64.size Gen.inb_S64x8x64x64_S64x1x64x64_0_3_0_0
abbrev rs3_4 : Rect S64x8x64x64 := Rect.unit (s := S64x8x64x64) ![0, 4, 0, 0] S64x1x64x64.size Gen.inb_S64x8x64x64_S64x1x64x64_0_4_0_0
abbrev rs3_5 : Rect S64x8x64x64 := Rect.unit (s := S64x8x64x64) ![0, 5, 0, 0] S64x1x64x64.size Gen.inb_S64x8x64x64_S64x1x64x64_0_5_0_0
abbrev rs3_6 : Rect S64x8x64x64 := Rect.unit (s := S64x8x64x64) ![0, 6, 0, 0] S64x1x64x64.size Gen.inb_S64x8x64x64_S64x1x64x64_0_6_0_0
abbrev rs3_7 : Rect S64x8x64x64 := Rect.unit (s := S64x8x64x64) ![0, 7, 0, 0] S64x1x64x64.size Gen.inb_S64x8x64x64_S64x1x64x64_0_7_0_0

/-! ## What the body leaves in the output block -/

/-- The output block after the body, from the two input blocks: eight slabs, the last stored first. Slab i is the scaled
    sum of the outer products of rows 7·i … 7·i+6. -/
def out3_2 (x0 x1 : Vec F S64x56x64 .f32) : Vec F S64x8x64x64 .f32 :=
  View.canon [⟨rs3_7, scaled 0x3EC1848F#32 (acc7 (View.ld x0 rl3_49) (View.ld x1 rl3_49) (View.ld x0 rl3_50) (View.ld x1 rl3_50) (View.ld x0 rl3_51) (View.ld x1 rl3_51) (View.ld x0 rl3_52) (View.ld x1 rl3_52) (View.ld x0 rl3_53) (View.ld x1 rl3_53) (View.ld x0 rl3_54) (View.ld x1 rl3_54) (View.ld x0 rl3_55) (View.ld x1 rl3_55))⟩,
    ⟨rs3_6, scaled 0x3EC1848F#32 (acc7 (View.ld x0 rl3_42) (View.ld x1 rl3_42) (View.ld x0 rl3_43) (View.ld x1 rl3_43) (View.ld x0 rl3_44) (View.ld x1 rl3_44) (View.ld x0 rl3_45) (View.ld x1 rl3_45) (View.ld x0 rl3_46) (View.ld x1 rl3_46) (View.ld x0 rl3_47) (View.ld x1 rl3_47) (View.ld x0 rl3_48) (View.ld x1 rl3_48))⟩,
    ⟨rs3_5, scaled 0x3EC1848F#32 (acc7 (View.ld x0 rl3_35) (View.ld x1 rl3_35) (View.ld x0 rl3_36) (View.ld x1 rl3_36) (View.ld x0 rl3_37) (View.ld x1 rl3_37) (View.ld x0 rl3_38) (View.ld x1 rl3_38) (View.ld x0 rl3_39) (View.ld x1 rl3_39) (View.ld x0 rl3_40) (View.ld x1 rl3_40) (View.ld x0 rl3_41) (View.ld x1 rl3_41))⟩,
    ⟨rs3_4, scaled 0x3EC1848F#32 (acc7 (View.ld x0 rl3_28) (View.ld x1 rl3_28) (View.ld x0 rl3_29) (View.ld x1 rl3_29) (View.ld x0 rl3_30) (View.ld x1 rl3_30) (View.ld x0 rl3_31) (View.ld x1 rl3_31) (View.ld x0 rl3_32) (View.ld x1 rl3_32) (View.ld x0 rl3_33) (View.ld x1 rl3_33) (View.ld x0 rl3_34) (View.ld x1 rl3_34))⟩,
    ⟨rs3_3, scaled 0x3EC1848F#32 (acc7 (View.ld x0 rl3_21) (View.ld x1 rl3_21) (View.ld x0 rl3_22) (View.ld x1 rl3_22) (View.ld x0 rl3_23) (View.ld x1 rl3_23) (View.ld x0 rl3_24) (View.ld x1 rl3_24) (View.ld x0 rl3_25) (View.ld x1 rl3_25) (View.ld x0 rl3_26) (View.ld x1 rl3_26) (View.ld x0 rl3_27) (View.ld x1 rl3_27))⟩,
    ⟨rs3_2, scaled 0x3EC1848F#32 (acc7 (View.ld x0 rl3_14) (View.ld x1 rl3_14) (View.ld x0 rl3_15) (View.ld x1 rl3_15) (View.ld x0 rl3_16) (View.ld x1 rl3_16) (View.ld x0 rl3_17) (View.ld x1 rl3_17) (View.ld x0 rl3_18) (View.ld x1 rl3_18) (View.ld x0 rl3_19) (View.ld x1 rl3_19) (View.ld x0 rl3_20) (View.ld x1 rl3_20))⟩,
    ⟨rs3_1, scaled 0x3EC1848F#32 (acc7 (View.ld x0 rl3_7) (View.ld x1 rl3_7) (View.ld x0 rl3_8) (View.ld x1 rl3_8) (View.ld x0 rl3_9) (View.ld x1 rl3_9) (View.ld x0 rl3_10) (View.ld x1 rl3_10) (View.ld x0 rl3_11) (View.ld x1 rl3_11) (View.ld x0 rl3_12) (View.ld x1 rl3_12) (View.ld x0 rl3_13) (View.ld x1 rl3_13))⟩,
    ⟨rs3_0, scaled 0x3EC1848F#32 (acc7 (View.ld x0 rl3_0) (View.ld x1 rl3_0) (View.ld x0 rl3_1) (View.ld x1 rl3_1) (View.ld x0 rl3_2) (View.ld x1 rl3_2) (View.ld x0 rl3_3) (View.ld x1 rl3_3) (View.ld x0 rl3_4) (View.ld x1 rl3_4) (View.ld x0 rl3_5) (View.ld x1 rl3_5) (View.ld x0 rl3_6) (View.ld x1 rl3_6))⟩]

/-- The eight slabs tile the block, so every index of it lies in one of them. -/
theorem cover3_2 (p0 p1 p2 p3 p4 p5 p6 p7 : Vec F S64x1x64x64 .f32) (y : S64x8x64x64.Idx) :
    ∃ pc ∈ ([⟨rs3_7, p7⟩, ⟨rs3_6, p6⟩, ⟨rs3_5, p5⟩, ⟨rs3_4, p4⟩, ⟨rs3_3, p3⟩, ⟨rs3_2, p2⟩, ⟨rs3_1, p1⟩, ⟨rs3_0, p0⟩] : List (View.Piece (Elt F) S64x8x64x64 .f32)), y ∈ pc.1.set :=
  View.cover_of_tiled [⟨rs3_7, p7⟩, ⟨rs3_6, p6⟩, ⟨rs3_5, p5⟩, ⟨rs3_4, p4⟩, ⟨rs3_3, p3⟩, ⟨rs3_2, p2⟩, ⟨rs3_1, p1⟩, ⟨rs3_0, p0⟩] S64x1x64x64.size (by rfl) y

/-! ## The body's triple -/

set_option maxHeartbeats 4000000 in
/-- The body on whole staging memrefs — the inputs' at contents `x0`, `x1`, the output's at anything — runs to the
    continuation with the inputs' as they were and the output's at `out3_2 x0 x1`. -/
theorem sound_kernel3 (c : Dev nD) (E : Set ℕ) (i : grid3.Coords) (arg1 : Memref sig .tc .vmem S64x56x64 .f32) (harg1 : arg1.IsWhole)
    (arg2 : Memref sig .tc .vmem S64x56x64 .f32) (harg2 : arg2.IsWhole) (arg3 : Memref sig .tc .vmem S64x8x64x64 .f32) (harg3 : arg3.IsWhole)
    (x0 x1 : Vec F S64x56x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  unfold owns
  iintro ⟨⟨%f0, %hf0, H0⟩, ⟨%f1, %hf1, H1⟩, ⟨%d2, %f2, -, H2⟩, Hk⟩
  subst hf0; subst hf1
  sl_unfold [cc3_kernel]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover3_2 _ _ _ _ _ _ _ _)).trans ?_
  sl_unfold_words
  rfl

/-! ## The pipeline's proof data -/

/-- The proof data of pipeline 3 on core `c`: the arrays as the region finds them; after the body at point `t` each input's
    buffer at its block and the output's at `out3_2` of the input blocks; the scoped rest and the generator register ride
    along untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Kernel.Run.lean ====
/-
  The run of @main: four kernel regions among five stretches of host operations.

  @main slices rows 0–7, 8–31, 32–71, 72–127 of the two arguments (a stretch before each region), runs the four regions
  on those slices, and joins the four [2048, 8, 64, 64] results along axis 1 (the last stretch). The contents of the
  TensorCore's buffers are followed through the nine items as a fold from the launch memory: a host stretch applies its
  operations (`StableHlo.after`), a region leaves its arrays at what its write-backs leave (`Dat.arrAt … N`) and every
  other buffer as it was. Every region is entered with all unscoped buffers held at the fold's contents, the generator
  register at some state and nothing owed, and is left the same way at the next contents. The launch theorem then says
  that every execution terminates with every unscoped buffer at the last contents `W9` (`run_main`); no item writes an
  argument (`W9_main_arg0`, `W9_main_arg1`), which is the frame claim (`frame`).
-/
import proofs.«168482_j7232724927058_1_alg».proof.Proof.Kernel.Reg0
import proofs.«168482_j7232724927058_1_alg».proof.Proof.Kernel.Reg1
import proofs.«168482_j7232724927058_1_alg».proof.Proof.Kernel.Reg2
import proofs.«168482_j7232724927058_1_alg».proof.Proof.Kernel.Reg3
import proofs.«168482_j7232724927058_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core `c`'s buffers at launch. -/
abbrev W0 : Dev nD → Valuation τ sig (Elt F) := fun c b => (s₀ m ρ).mem ((c : Dev nD), b)
/-- After the first two slices (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pair of slices (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third pair of slices (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth pair of slices (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the join of the four results (the end of @main). -/
abbrev W9 : Dev nD → Valuation τ sig (Elt F) := fun c => StableHlo.after hostOps4 (W8 m ρ c)

/-! ## A buffer no item writes keeps its launch contents -/

/-- A buffer that is no window's array of any region and that no host stretch writes holds its launch contents at the end. -/
theorem W9_of_untouched (c : Dev nD) (b : Ref sig .tc)
    (h0 : b ∉ hostOps0_W) (h1 : b ∉ hostOps1_W) (h2 : b ∉ hostOps2_W) (h3 : b ∉ hostOps3_W) (h4 : b ∉ hostOps4_W)
    (a0 : ∀ w, Pipeline.arrRef spec0 w ≠ b) (a1 : ∀ w, Pipeline.arrRef spec1 w ≠ b) (a2 : ∀ w, Pipeline.arrRef spec2 w ≠ b) (a3 : ∀ w, Pipeline.arrRef spec3 w ≠ b) :
    W9 m ρ c (Proc.devRef .tc b) = m ((c : Thread nD τ).loc b) :=
  calc W9 m ρ c (Proc.devRef .tc b)
    _ = W8 m ρ c (Proc.devRef .tc b) := StableHlo.after_of_writes_sub hostOps4 _ hostOps4_writes h4
    _ = W7 m ρ c (Proc.devRef .tc b) := W8_of_ne m ρ c b a3
    _ = W6 m ρ c (Proc.devRef .tc b) := StableHlo.after_of_writes_sub hostOps3 _ hostOps3_writes h3
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

theorem W9_main_arg0 (c : Dev nD) : W9 m ρ c (Proc.devRef .tc main_arg0) = m ((c : Thread nD τ).loc main_arg0) :=
  W9_of_untouched m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_of_untouched m ρ c main_arg1 (by decide) (by decide) (by decide) (by decide) (by decide) (by decide) (by decide) (by decide) (by decide)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- REGION 0 over the thread state: entered from every unscoped buffer at `W1`, left at `W2`. Its arrays are split out
    of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split out
    of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split out
    of the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are split out
    of the unscoped buffers and put back at the exit contents; the generator register goes into the region's invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The state the last host stretch leaves is the last thread state beside the core owing nothing. -/
theorem last_state (c : Dev nD) :
    (iprop(StableHlo.held (c : Thread nD τ) (Pipeline.ucRefs τ sig) (W9 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- @main's nine items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state each unscoped buffer of every core holds the fold's last contents `W9`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- THE FRAME: every execution terminates, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W9_main_arg0 m ρ c),
     (h c _ (mem_uc main_arg1 (by decide))).trans (W9_main_arg1 m ρ c)⟩) (run_main m ρ)

end Cert.Kernel.Hand

end
-- ==== Proof.KernelIdeal.Ops.lean ====
/-
  The arithmetic of one stored slab, as pure functions of the rows it reads.

  For one multiplicity index the kernel body forms, from rows a₀ … a_{d-1} of the first operand and b₀ … b_{d-1} of
  the second (each a [64, 1, 64] block: sample, one row, channel), the [64, 64, 64] array whose entry (n, u, v) is
  ((0 + a₀(n,u)·b₀(n,v)) + a₁(n,u)·b₁(n,v)) + … , multiplies it by a constant, and stores it as a [64, 1, 64, 64] slab.
  `term` is one outer product a(n,u)·b(n,v) written with the broadcasts the body uses; `accD` is the sum of d of them in
  the body's order, starting from the zero array; `scaled s` is the product with the constant of bit pattern `s`,
  laid out as a slab.
-/
import proofs.«168482_j7232724927058_1_alg».proof.Proof.Gen.KernelIdeal

noncomputable section

namespace Cert.KernelIdeal.Hand

open Cert.KernelIdeal Idealize.ShloMosaic Idealize.SL.Sem

variable {F : FTy → Type} [FloatOps F]

/-- The outer product of two rows: entry (n, u, v) is a(n, 0, u) · b(n, 0, v). -/
def term (a b : Vec F S64x1x64 .f32) : FVec F S64x64x64 .f32 :=
  mulf (broadcastTo S64x64x64 (shapeCast S64x64x1 (shapeCast S64x64 a Gen.shapeCasts_S64x1x64_S64x64) Gen.shapeCasts_S64x64_S64x64x1) Gen.broadcasts_S64x64x1_S64x64x64)
    (broadcastTo S64x64x64 (shapeCast S64x1x64 (shapeCast S64x64 b Gen.shapeCasts_S64x1x64_S64x64) Gen.shapeCasts_S64x64_S64x1x64) Gen.broadcasts_S64x1x64_S64x64x64)

/-- The zero array every accumulation starts from. -/
def zeros : FVec F S64x64x64 .f32 := broadcast S64x64x64 (Scalar.ofBits .f32 0x00000000#32)

/-- One outer product added to zero (contraction length 1). -/
def acc1 (a0 b0 : Vec F S64x1x64 .f32) : FVec F S64x64x64 .f32 := addf zeros (term a0 b0)

/-- Three outer products added in order (contraction length 3). -/
def acc3 (a0 b0 a1 b1 a2 b2 : Vec F S64x1x64 .f32) : FVec F S64x64x64 .f32 :=
  addf (addf (acc1 a0 b0) (term a1 b1)) (term a2 b2)

/-- Five outer products added in order (contraction length 5). -/
def acc5 (a0 b0 a1 b1 a2 b2 a3 b3 a4 b4 : Vec F S64x1x64 .f32) : FVec F S64x64x64 .f32 :=
  addf (addf (acc3 a0 b0 a1 b1 a2 b2) (term a3 b3)) (term a4 b4)

/-- Seven outer products added in order (contraction length 7). -/
def acc7 (a0 b0 a1 b1 a2 b2 a3 b3 a4 b4 a5 b5 a6 b6 : Vec F S64x1x64 .f32) : FVec F S64x64x64 .f32 :=
  addf (addf (acc5 a0 b0 a1 b1 a2 b2 a3 b3 a4 b4) (term a5 b5)) (term a6 b6)

/-- The accumulated array times the constant of bit pattern `s`, as a [64, 1, 64, 64] slab. -/
def scaled (s : BitVec 32) (acc : FVec F S64x64x64 .f32) : FVec F S64x1x64x64 .f32 :=
  shapeCast S64x1x64x64 (mulf acc (broadcast S64x64x64 (Scalar.ofBits .f32 s))) Gen.shapeCasts_S64x64x64_S64x1x64x64

end Cert.KernelIdeal.Hand

end
-- ==== Proof.KernelIdeal.Reg0.lean ====
/-
  Region 0 of @main (the pallas_call of contraction length 1), at any contents `V` of the TensorCore's buffers on entry.

  The grid has 32 points; at point t the two input windows hold rows 64·t … 64·t+63 of their [2048, 8, 64] arrays and
  the output window is written back to rows 64·t … 64·t+63 of the [2048, 8, 64, 64] result. The body stores eight slabs into
  the output block, slab i (at multiplicity index i) being `scaled` of the sum of the 1 outer product of rows
  1·i … 1·i+0 of the two input blocks (`out0_2`). Stated here: the blocks (`iblk0`), what the body leaves
  (`out0_2`, and that its eight slabs tile the block), the body's triple (`sound_kernel0`), the pipeline's proof data
  (`dat0`) and the body obligation at every point (`body_obligation0`).
-/
import proofs.«168482_j7232724927058_1_alg».proof.Proof.KernelIdeal.Ops
import proofs.«168482_j7232724927058_1_alg».proof.Proof.Gen.KernelIdeal.Launch
import proofs.«168482_j7232724927058_1_alg».proof.Proof.Gen.KernelIdeal.Skeleton
import proofs.«168482_j7232724927058_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's staging buffer holds its block at every point, for any proof data over `V`'s arrays whose body
    leaves the block in place: the window is fetched at every point, never cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: row j of an input block, slab i of the output block -/

abbrev rl0_0 : Rect S64x8x64 := Rect.unit (s := S64x8x64) ![0, 0, 0] S64x1x64.size Gen.inb_S64x8x64_S64x1x64_0_0_0
abbrev rl0_1 : Rect S64x8x64 := Rect.unit (s := S64x8x64) ![0, 1, 0] S64x1x64.size Gen.inb_S64x8x64_S64x1x64_0_1_0
abbrev rl0_2 : Rect S64x8x64 := Rect.unit (s := S64x8x64) ![0, 2, 0] S64x1x64.size Gen.inb_S64x8x64_S64x1x64_0_2_0
abbrev rl0_3 : Rect S64x8x64 := Rect.unit (s := S64x8x64) ![0, 3, 0] S64x1x64.size Gen.inb_S64x8x64_S64x1x64_0_3_0
abbrev rl0_4 : Rect S64x8x64 := Rect.unit (s := S64x8x64) ![0, 4, 0] S64x1x64.size Gen.inb_S64x8x64_S64x1x64_0_4_0
abbrev rl0_5 : Rect S64x8x64 := Rect.unit (s := S64x8x64) ![0, 5, 0] S64x1x64.size Gen.inb_S64x8x64_S64x1x64_0_5_0
abbrev rl0_6 : Rect S64x8x64 := Rect.unit (s := S64x8x64) ![0, 6, 0] S64x1x64.size Gen.inb_S64x8x64_S64x1x64_0_6_0
abbrev rl0_7 : Rect S64x8x64 := Rect.unit (s := S64x8x64) ![0, 7, 0] S64x1x64.size Gen.inb_S64x8x64_S64x1x64_0_7_0
abbrev rs0_0 : Rect S64x8x64x64 := Rect.unit (s := S64x8x64x64) ![0, 0, 0, 0] S64x1x64x64.size Gen.inb_S64x8x64x64_S64x1x64x64_0_0_0_0
abbrev rs0_1 : Rect S64x8x64x64 := Rect.unit (s := S64x8x64x64) ![0, 1, 0, 0] S64x1x64x64.size Gen.inb_S64x8x64x64_S64x1x64x64_0_1_0_0
abbrev rs0_2 : Rect S64x8x64x64 := Rect.unit (s := S64x8x64x64) ![0, 2, 0, 0] S64x1x64x64.size Gen.inb_S64x8x64x64_S64x1x64x64_0_2_0_0
abbrev rs0_3 : Rect S64x8x64x64 := Rect.unit (s := S64x8x64x64) ![0, 3, 0, 0] S64x1x64x64.size Gen.inb_S64x8x64x64_S64x1x64x64_0_3_0_0
abbrev rs0_4 : Rect S64x8x64x64 := Rect.unit (s := S64x8x64x64) ![0, 4, 0, 0] S64x1x64x64.size Gen.inb_S64x8x64x64_S64x1x64x64_0_4_0_0
abbrev rs0_5 : Rect S64x8x64x64 := Rect.unit (s := S64x8x64x64) ![0, 5, 0, 0] S64x1x64x64.size Gen.inb_S64x8x64x64_S64x1x64x64_0_5_0_0
abbrev rs0_6 : Rect S64x8x64x64 := Rect.unit (s := S64x8x64x64) ![0, 6, 0, 0] S64x1x64x64.size Gen.inb_S64x8x64x64_S64x1x64x64_0_6_0_0
abbrev rs0_7 : Rect S64x8x64x64 := Rect.unit (s := S64x8x64x64) ![0, 7, 0, 0] S64x1x64x64.size Gen.inb_S64x8x64x64_S64x1x64x64_0_7_0_0

/-! ## What the body leaves in the output block -/

/-- The output block after the body, from the two input blocks: eight slabs, the last stored first. Slab i is the scaled
    sum of the outer products of rows 1·i … 1·i+0. -/
def out0_2 (x0 x1 : Vec F S64x8x64 .f32) : Vec F S64x8x64x64 .f32 :=
  View.canon [⟨rs0_7, scaled 0x3F800000#32 (acc1 (View.ld x0 rl0_7) (View.ld x1 rl0_7))⟩,
    ⟨rs0_6, scaled 0x3F800000#32 (acc1 (View.ld x0 rl0_6) (View.ld x1 rl0_6))⟩,
    ⟨rs0_5, scaled 0x3F800000#32 (acc1 (View.ld x0 rl0_5) (View.ld x1 rl0_5))⟩,
    ⟨rs0_4, scaled 0x3F800000#32 (acc1 (View.ld x0 rl0_4) (View.ld x1 rl0_4))⟩,
    ⟨rs0_3, scaled 0x3F800000#32 (acc1 (View.ld x0 rl0_3) (View.ld x1 rl0_3))⟩,
    ⟨rs0_2, scaled 0x3F800000#32 (acc1 (View.ld x0 rl0_2) (View.ld x1 rl0_2))⟩,
    ⟨rs0_1, scaled 0x3F800000#32 (acc1 (View.ld x0 rl0_1) (View.ld x1 rl0_1))⟩,
    ⟨rs0_0, scaled 0x3F800000#32 (acc1 (View.ld x0 rl0_0) (View.ld x1 rl0_0))⟩]

/-- The eight slabs tile the block, so every index of it lies in one of them. -/
theorem cover0_2 (p0 p1 p2 p3 p4 p5 p6 p7 : Vec F S64x1x64x64 .f32) (y : S64x8x64x64.Idx) :
    ∃ pc ∈ ([⟨rs0_7, p7⟩, ⟨rs0_6, p6⟩, ⟨rs0_5, p5⟩, ⟨rs0_4, p4⟩, ⟨rs0_3, p3⟩, ⟨rs0_2, p2⟩, ⟨rs0_1, p1⟩, ⟨rs0_0, p0⟩] : List (View.Piece (Elt F) S64x8x64x64 .f32)), y ∈ pc.1.set :=
  View.cover_of_tiled [⟨rs0_7, p7⟩, ⟨rs0_6, p6⟩, ⟨rs0_5, p5⟩, ⟨rs0_4, p4⟩, ⟨rs0_3, p3⟩, ⟨rs0_2, p2⟩, ⟨rs0_1, p1⟩, ⟨rs0_0, p0⟩] S64x1x64x64.size (by rfl) y

/-! ## The body's triple -/

set_option maxHeartbeats 4000000 in
/-- The body on whole staging memrefs — the inputs' at contents `x0`, `x1`, the output's at anything — runs to the
    continuation with the inputs' as they were and the output's at `out0_2 x0 x1`. -/
theorem sound_kernel0 (c : Dev nD) (E : Set ℕ) (i : grid0.Coords) (arg1 : Memref sig .tc .vmem S64x8x64 .f32) (harg1 : arg1.IsWhole)
    (arg2 : Memref sig .tc .vmem S64x8x64 .f32) (harg2 : arg2.IsWhole) (arg3 : Memref sig .tc .vmem S64x8x64x64 .f32) (harg3 : arg3.IsWhole)
    (x0 x1 : Vec F S64x8x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  unfold owns
  iintro ⟨⟨%f0, %hf0, H0⟩, ⟨%f1, %hf1, H1⟩, ⟨%d2, %f2, -, H2⟩, Hk⟩
  subst hf0; subst hf1
  sl_unfold [cc0_kernel]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _ _ _ _ _ _ _ _)).trans ?_
  sl_unfold_words
  rfl

/-! ## The pipeline's proof data -/

/-- The proof data of pipeline 0 on core `c`: the arrays as the region finds them; after the body at point `t` each input's
    buffer at its block and the output's at `out0_2` of the input blocks; the scoped rest and the generator register ride
    along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Reg1.lean ====
/-
  Region 1 of @main (the pallas_call of contraction length 3), at any contents `V` of the TensorCore's buffers on entry.

  The grid has 32 points; at point t the two input windows hold rows 64·t … 64·t+63 of their [2048, 24, 64] arrays and
  the output window is written back to rows 64·t … 64·t+63 of the [2048, 8, 64, 64] result. The body stores eight slabs into
  the output block, slab i (at multiplicity index i) being `scaled` of the sum of the 3 outer products of rows
  3·i … 3·i+2 of the two input blocks (`out1_2`). Stated here: the blocks (`iblk1`), what the body leaves
  (`out1_2`, and that its eight slabs tile the block), the body's triple (`sound_kernel1`), the pipeline's proof data
  (`dat1`) and the body obligation at every point (`body_obligation1`).
-/
import proofs.«168482_j7232724927058_1_alg».proof.Proof.KernelIdeal.Ops
import proofs.«168482_j7232724927058_1_alg».proof.Proof.Gen.KernelIdeal.Launch
import proofs.«168482_j7232724927058_1_alg».proof.Proof.Gen.KernelIdeal.Skeleton
import proofs.«168482_j7232724927058_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's staging buffer holds its block at every point, for any proof data over `V`'s arrays whose body
    leaves the block in place: the window is fetched at every point, never cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: row j of an input block, slab i of the output block -/

abbrev rl1_0 : Rect S64x24x64 := Rect.unit (s := S64x24x64) ![0, 0, 0] S64x1x64.size Gen.inb_S64x24x64_S64x1x64_0_0_0
abbrev rl1_1 : Rect S64x24x64 := Rect.unit (s := S64x24x64) ![0, 1, 0] S64x1x64.size Gen.inb_S64x24x64_S64x1x64_0_1_0
abbrev rl1_2 : Rect S64x24x64 := Rect.unit (s := S64x24x64) ![0, 2, 0] S64x1x64.size Gen.inb_S64x24x64_S64x1x64_0_2_0
abbrev rl1_3 : Rect S64x24x64 := Rect.unit (s := S64x24x64) ![0, 3, 0] S64x1x64.size Gen.inb_S64x24x64_S64x1x64_0_3_0
abbrev rl1_4 : Rect S64x24x64 := Rect.unit (s := S64x24x64) ![0, 4, 0] S64x1x64.size Gen.inb_S64x24x64_S64x1x64_0_4_0
abbrev rl1_5 : Rect S64x24x64 := Rect.unit (s := S64x24x64) ![0, 5, 0] S64x1x64.size Gen.inb_S64x24x64_S64x1x64_0_5_0
abbrev rl1_6 : Rect S64x24x64 := Rect.unit (s := S64x24x64) ![0, 6, 0] S64x1x64.size Gen.inb_S64x24x64_S64x1x64_0_6_0
abbrev rl1_7 : Rect S64x24x64 := Rect.unit (s := S64x24x64) ![0, 7, 0] S64x1x64.size Gen.inb_S64x24x64_S64x1x64_0_7_0
abbrev rl1_8 : Rect S64x24x64 := Rect.unit (s := S64x24x64) ![0, 8, 0] S64x1x64.size Gen.inb_S64x24x64_S64x1x64_0_8_0
abbrev rl1_9 : Rect S64x24x64 := Rect.unit (s := S64x24x64) ![0, 9, 0] S64x1x64.size Gen.inb_S64x24x64_S64x1x64_0_9_0
abbrev rl1_10 : Rect S64x24x64 := Rect.unit (s := S64x24x64) ![0, 10, 0] S64x1x64.size Gen.inb_S64x24x64_S64x1x64_0_10_0
abbrev rl1_11 : Rect S64x24x64 := Rect.unit (s := S64x24x64) ![0, 11, 0] S64x1x64.size Gen.inb_S64x24x64_S64x1x64_0_11_0
abbrev rl1_12 : Rect S64x24x64 := Rect.unit (s := S64x24x64) ![0, 12, 0] S64x1x64.size Gen.inb_S64x24x64_S64x1x64_0_12_0
abbrev rl1_13 : Rect S64x24x64 := Rect.unit (s := S64x24x64) ![0, 13, 0] S64x1x64.size Gen.inb_S64x24x64_S64x1x64_0_13_0
abbrev rl1_14 : Rect S64x24x64 := Rect.unit (s := S64x24x64) ![0, 14, 0] S64x1x64.size Gen.inb_S64x24x64_S64x1x64_0_14_0
abbrev rl1_15 : Rect S64x24x64 := Rect.unit (s := S64x24x64) ![0, 15, 0] S64x1x64.size Gen.inb_S64x24x64_S64x1x64_0_15_0
abbrev rl1_16 : Rect S64x24x64 := Rect.unit (s := S64x24x64) ![0, 16, 0] S64x1x64.size Gen.inb_S64x24x64_S64x1x64_0_16_0
abbrev rl1_17 : Rect S64x24x64 := Rect.unit (s := S64x24x64) ![0, 17, 0] S64x1x64.size Gen.inb_S64x24x64_S64x1x64_0_17_0
abbrev rl1_18 : Rect S64x24x64 := Rect.unit (s := S64x24x64) ![0, 18, 0] S64x1x64.size Gen.inb_S64x24x64_S64x1x64_0_18_0
abbrev rl1_19 : Rect S64x24x64 := Rect.unit (s := S64x24x64) ![0, 19, 0] S64x1x64.size Gen.inb_S64x24x64_S64x1x64_0_19_0
abbrev rl1_20 : Rect S64x24x64 := Rect.unit (s := S64x24x64) ![0, 20, 0] S64x1x64.size Gen.inb_S64x24x64_S64x1x64_0_20_0
abbrev rl1_21 : Rect S64x24x64 := Rect.unit (s := S64x24x64) ![0, 21, 0] S64x1x64.size Gen.inb_S64x24x64_S64x1x64_0_21_0
abbrev rl1_22 : Rect S64x24x64 := Rect.unit (s := S64x24x64) ![0, 22, 0] S64x1x64.size Gen.inb_S64x24x64_S64x1x64_0_22_0
abbrev rl1_23 : Rect S64x24x64 := Rect.unit (s := S64x24x64) ![0, 23, 0] S64x1x64.size Gen.inb_S64x24x64_S64x1x64_0_23_0
abbrev rs1_0 : Rect S64x8x64x64 := Rect.unit (s := S64x8x64x64) ![0, 0, 0, 0] S64x1x64x64.size Gen.inb_S64x8x64x64_S64x1x64x64_0_0_0_0
abbrev rs1_1 : Rect S64x8x64x64 := Rect.unit (s := S64x8x64x64) ![0, 1, 0, 0] S64x1x64x64.size Gen.inb_S64x8x64x64_S64x1x64x64_0_1_0_0
abbrev rs1_2 : Rect S64x8x64x64 := Rect.unit (s := S64x8x64x64) ![0, 2, 0, 0] S64x1x64x64.size Gen.inb_S64x8x64x64_S64x1x64x64_0_2_0_0
abbrev rs1_3 : Rect S64x8x64x64 := Rect.unit (s := S64x8x64x64) ![0, 3, 0, 0] S64x1x64x64.size Gen.inb_S64x8x64x64_S64x1x64x64_0_3_0_0
abbrev rs1_4 : Rect S64x8x64x64 := Rect.unit (s := S64x8x64x64) ![0, 4, 0, 0] S64x1x64x64.size Gen.inb_S64x8x64x64_S64x1x64x64_0_4_0_0
abbrev rs1_5 : Rect S64x8x64x64 := Rect.unit (s := S64x8x64x64) ![0, 5, 0, 0] S64x1x64x64.size Gen.inb_S64x8x64x64_S64x1x64x64_0_5_0_0
abbrev rs1_6 : Rect S64x8x64x64 := Rect.unit (s := S64x8x64x64) ![0, 6, 0, 0] S64x1x64x64.size Gen.inb_S64x8x64x64_S64x1x64x64_0_6_0_0
abbrev rs1_7 : Rect S64x8x64x64 := Rect.unit (s := S64x8x64x64) ![0, 7, 0, 0] S64x1x64x64.size Gen.inb_S64x8x64x64_S64x1x64x64_0_7_0_0

/-! ## What the body leaves in the output block -/

/-- The output block after the body, from the two input blocks: eight slabs, the last stored first. Slab i is the scaled
    sum of the outer products of rows 3·i … 3·i+2. -/
def out1_2 (x0 x1 : Vec F S64x24x64 .f32) : Vec F S64x8x64x64 .f32 :=
  View.canon [⟨rs1_7, scaled 0x3F13CD3A#32 (acc3 (View.ld x0 rl1_21) (View.ld x1 rl1_21) (View.ld x0 rl1_22) (View.ld x1 rl1_22) (View.ld x0 rl1_23) (View.ld x1 rl1_23))⟩,
    ⟨rs1_6, scaled 0x3F13CD3A#32 (acc3 (View.ld x0 rl1_18) (View.ld x1 rl1_18) (View.ld x0 rl1_19) (View.ld x1 rl1_19) (View.ld x0 rl1_20) (View.ld x1 rl1_20))⟩,
    ⟨rs1_5, scaled 0x3F13CD3A#32 (acc3 (View.ld x0 rl1_15) (View.ld x1 rl1_15) (View.ld x0 rl1_16) (View.ld x1 rl1_16) (View.ld x0 rl1_17) (View.ld x1 rl1_17))⟩,
    ⟨rs1_4, scaled 0x3F13CD3A#32 (acc3 (View.ld x0 rl1_12) (View.ld x1 rl1_12) (View.ld x0 rl1_13) (View.ld x1 rl1_13) (View.ld x0 rl1_14) (View.ld x1 rl1_14))⟩,
    ⟨rs1_3, scaled 0x3F13CD3A#32 (acc3 (View.ld x0 rl1_9) (View.ld x1 rl1_9) (View.ld x0 rl1_10) (View.ld x1 rl1_10) (View.ld x0 rl1_11) (View.ld x1 rl1_11))⟩,
    ⟨rs1_2, scaled 0x3F13CD3A#32 (acc3 (View.ld x0 rl1_6) (View.ld x1 rl1_6) (View.ld x0 rl1_7) (View.ld x1 rl1_7) (View.ld x0 rl1_8) (View.ld x1 rl1_8))⟩,
    ⟨rs1_1, scaled 0x3F13CD3A#32 (acc3 (View.ld x0 rl1_3) (View.ld x1 rl1_3) (View.ld x0 rl1_4) (View.ld x1 rl1_4) (View.ld x0 rl1_5) (View.ld x1 rl1_5))⟩,
    ⟨rs1_0, scaled 0x3F13CD3A#32 (acc3 (View.ld x0 rl1_0) (View.ld x1 rl1_0) (View.ld x0 rl1_1) (View.ld x1 rl1_1) (View.ld x0 rl1_2) (View.ld x1 rl1_2))⟩]

/-- The eight slabs tile the block, so every index of it lies in one of them. -/
theorem cover1_2 (p0 p1 p2 p3 p4 p5 p6 p7 : Vec F S64x1x64x64 .f32) (y : S64x8x64x64.Idx) :
    ∃ pc ∈ ([⟨rs1_7, p7⟩, ⟨rs1_6, p6⟩, ⟨rs1_5, p5⟩, ⟨rs1_4, p4⟩, ⟨rs1_3, p3⟩, ⟨rs1_2, p2⟩, ⟨rs1_1, p1⟩, ⟨rs1_0, p0⟩] : List (View.Piece (Elt F) S64x8x64x64 .f32)), y ∈ pc.1.set :=
  View.cover_of_tiled [⟨rs1_7, p7⟩, ⟨rs1_6, p6⟩, ⟨rs1_5, p5⟩, ⟨rs1_4, p4⟩, ⟨rs1_3, p3⟩, ⟨rs1_2, p2⟩, ⟨rs1_1, p1⟩, ⟨rs1_0, p0⟩] S64x1x64x64.size (by rfl) y

/-! ## The body's triple -/

set_option maxHeartbeats 4000000 in
/-- The body on whole staging memrefs — the inputs' at contents `x0`, `x1`, the output's at anything — runs to the
    continuation with the inputs' as they were and the output's at `out1_2 x0 x1`. -/
theorem sound_kernel1 (c : Dev nD) (E : Set ℕ) (i : grid1.Coords) (arg1 : Memref sig .tc .vmem S64x24x64 .f32) (harg1 : arg1.IsWhole)
    (arg2 : Memref sig .tc .vmem S64x24x64 .f32) (harg2 : arg2.IsWhole) (arg3 : Memref sig .tc .vmem S64x8x64x64 .f32) (harg3 : arg3.IsWhole)
    (x0 x1 : Vec F S64x24x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  unfold owns
  iintro ⟨⟨%f0, %hf0, H0⟩, ⟨%f1, %hf1, H1⟩, ⟨%d2, %f2, -, H2⟩, Hk⟩
  subst hf0; subst hf1
  sl_unfold [cc1_kernel]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _ _ _ _ _ _ _ _)).trans ?_
  sl_unfold_words
  rfl

/-! ## The pipeline's proof data -/

/-- The proof data of pipeline 1 on core `c`: the arrays as the region finds them; after the body at point `t` each input's
    buffer at its block and the output's at `out1_2` of the input blocks; the scoped rest and the generator register ride
    along untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Reg2.lean ====
/-
  Region 2 of @main (the pallas_call of contraction length 5), at any contents `V` of the TensorCore's buffers on entry.

  The grid has 32 points; at point t the two input windows hold rows 64·t … 64·t+63 of their [2048, 40, 64] arrays and
  the output window is written back to rows 64·t … 64·t+63 of the [2048, 8, 64, 64] result. The body stores eight slabs into
  the output block, slab i (at multiplicity index i) being `scaled` of the sum of the 5 outer products of rows
  5·i … 5·i+4 of the two input blocks (`out2_2`). Stated here: the blocks (`iblk2`), what the body leaves
  (`out2_2`, and that its eight slabs tile the block), the body's triple (`sound_kernel2`), the pipeline's proof data
  (`dat2`) and the body obligation at every point (`body_obligation2`).
-/
import proofs.«168482_j7232724927058_1_alg».proof.Proof.KernelIdeal.Ops
import proofs.«168482_j7232724927058_1_alg».proof.Proof.Gen.KernelIdeal.Launch
import proofs.«168482_j7232724927058_1_alg».proof.Proof.Gen.KernelIdeal.Skeleton
import proofs.«168482_j7232724927058_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first operand's staging buffer holds its block at every point, for any proof data over `V`'s arrays whose body
    leaves the block in place: the window is fetched at every point, never cut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the second operand. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: row j of an input block, slab i of the output block -/

abbrev rl2_0 : Rect S64x40x64 := Rect.unit (s := S64x40x64) ![0, 0, 0] S64x1x64.size Gen.inb_S64x40x64_S64x1x64_0_0_0
abbrev rl2_1 : Rect S64x40x64 := Rect.unit (s := S64x40x64) ![0, 1, 0] S64x1x64.size Gen.inb_S64x40x64_S64x1x64_0_1_0
abbrev rl2_2 : Rect S64x40x64 := Rect.unit (s := S64x40x64) ![0, 2, 0] S64x1x64.size Gen.inb_S64x40x64_S64x1x64_0_2_0
abbrev rl2_3 : Rect S64x40x64 := Rect.unit (s := S64x40x64) ![0, 3, 0] S64x1x64.size Gen.inb_S64x40x64_S64x1x64_0_3_0
abbrev rl2_4 : Rect S64x40x64 := Rect.unit (s := S64x40x64) ![0, 4, 0] S64x1x64.size Gen.inb_S64x40x64_S64x1x64_0_4_0
abbrev rl2_5 : Rect S64x40x64 := Rect.unit (s := S64x40x64) ![0, 5, 0] S64x1x64.size Gen.inb_S64x40x64_S64x1x64_0_5_0
abbrev rl2_6 : Rect S64x40x64 := Rect.unit (s := S64x40x64) ![0, 6, 0] S64x1x64.size Gen.inb_S64x40x64_S64x1x64_0_6_0
abbrev rl2_7 : Rect S64x40x64 := Rect.unit (s := S64x40x64) ![0, 7, 0] S64x1x64.size Gen.inb_S64x40x64_S64x1x64_0_7_0
abbrev rl2_8 : Rect S64x40x64 := Rect.unit (s := S64x40x64) ![0, 8, 0] S64x1x64.size Gen.inb_S64x40x64_S64x1x64_0_8_0
abbrev rl2_9 : Rect S64x40x64 := Rect.unit (s := S64x40x64) ![0, 9, 0] S64x1x64.size Gen.inb_S64x40x64_S64x1x64_0_9_0
abbrev rl2_10 : Rect S64x40x64 := Rect.unit (s := S64x40x64) ![0, 10, 0] S64x1x64.size Gen.inb_S64x40x64_S64x1x64_0_10_0
abbrev rl2_11 : Rect S64x40x64 := Rect.unit (s := S64x40x64) ![0, 11, 0] S64x1x64.size Gen.inb_S64x40x64_S64x1x64_0_11_0
abbrev rl2_12 : Rect S64x40x64 := Rect.unit (s := S64x40x64) ![0, 12, 0] S64x1x64.size Gen.inb_S64x40x64_S64x1x64_0_12_0
abbrev rl2_13 : Rect S64x40x64 := Rect.unit (s := S64x40x64) ![0, 13, 0] S64x1x64.size Gen.inb_S64x40x64_S64x1x64_0_13_0
abbrev rl2_14 : Rect S64x40x64 := Rect.unit (s := S64x40x64) ![0, 14, 0] S64x1x64.size Gen.inb_S64x40x64_S64x1x64_0_14_0
abbrev rl2_15 : Rect S64x40x64 := Rect.unit (s := S64x40x64) ![0, 15, 0] S64x1x64.size Gen.inb_S64x40x64_S64x1x64_0_15_0
abbrev rl2_16 : Rect S64x40x64 := Rect.unit (s := S64x40x64) ![0, 16, 0] S64x1x64.size Gen.inb_S64x40x64_S64x1x64_0_16_0
abbrev rl2_17 : Rect S64x40x64 := Rect.unit (s := S64x40x64) ![0, 17, 0] S64x1x64.size Gen.inb_S64x40x64_S64x1x64_0_17_0
abbrev rl2_18 : Rect S64x40x64 := Rect.unit (s := S64x40x64) ![0, 18, 0] S64x1x64.size Gen.inb_S64x40x64_S64x1x64_0_18_0
abbrev rl2_19 : Rect S64x40x64 := Rect.unit (s := S64x40x64) ![0, 19, 0] S64x1x64.size Gen.inb_S64x40x64_S64x1x64_0_19_0
abbrev rl2_20 : Rect S64x40x64 := Rect.unit (s := S64x40x64) ![0, 20, 0] S64x1x64.size Gen.inb_S64x40x64_S64x1x64_0_20_0
abbrev rl2_21 : Rect S64x40x64 := Rect.unit (s := S64x40x64) ![0, 21, 0] S64x1x64.size Gen.inb_S64x40x64_S64x1x64_0_21_0
abbrev rl2_22 : Rect S64x40x64 := Rect.unit (s := S64x40x64) ![0, 22, 0] S64x1x64.size Gen.inb_S64x40x64_S64x1x64_0_22_0
abbrev rl2_23 : Rect S64x40x64 := Rect.unit (s := S64x40x64) ![0, 23, 0] S64x1x64.size Gen.inb_S64x40x64_S64x1x64_0_23_0
abbrev rl2_24 : Rect S64x40x64 := Rect.unit (s := S64x40x64) ![0, 24, 0] S64x1x64.size Gen.inb_S64x40x64_S64x1x64_0_24_0
abbrev rl2_25 : Rect S64x40x64 := Rect.unit (s := S64x40x64) ![0, 25, 0] S64x1x64.size Gen.inb_S64x40x64_S64x1x64_0_25_0
abbrev rl2_26 : Rect S64x40x64 := Rect.unit (s := S64x40x64) ![0, 26, 0] S64x1x64.size Gen.inb_S64x40x64_S64x1x64_0_26_0
abbrev rl2_27 : Rect S64x40x64 := Rect.unit (s := S64x40x64) ![0, 27, 0] S64x1x64.size Gen.inb_S64x40x64_S64x1x64_0_27_0
abbrev rl2_28 : Rect S64x40x64 := Rect.unit (s := S64x40x64) ![0, 28, 0] S64x1x64.size Gen.inb_S64x40x64_S64x1x64_0_28_0
abbrev rl2_29 : Rect S64x40x64 := Rect.unit (s := S64x40x64) ![0, 29, 0] S64x1x64.size Gen.inb_S64x40x64_S64x1x64_0_29_0
abbrev rl2_30 : Rect S64x40x64 := Rect.unit (s := S64x40x64) ![0, 30, 0] S64x1x64.size Gen.inb_S64x40x64_S64x1x64_0_30_0
abbrev rl2_31 : Rect S64x40x64 := Rect.unit (s := S64x40x64) ![0, 31, 0] S64x1x64.size Gen.inb_S64x40x64_S64x1x64_0_31_0
abbrev rl2_32 : Rect S64x40x64 := Rect.unit (s := S64x40x64) ![0, 32, 0] S64x1x64.size Gen.inb_S64x40x64_S64x1x64_0_32_0
abbrev rl2_33 : Rect S64x40x64 := Rect.unit (s := S64x40x64) ![0, 33, 0] S64x1x64.size Gen.inb_S64x40x64_S64x1x64_0_33_0
abbrev rl2_34 : Rect S64x40x64 := Rect.unit (s := S64x40x64) ![0, 34, 0] S64x1x64.size Gen.inb_S64x40x64_S64x1x64_0_34_0
abbrev rl2_35 : Rect S64x40x64 := Rect.unit (s := S64x40x64) ![0, 35, 0] S64x1x64.size Gen.inb_S64x40x64_S64x1x64_0_35_0
abbrev rl2_36 : Rect S64x40x64 := Rect.unit (s := S64x40x64) ![0, 36, 0] S64x1x64.size Gen.inb_S64x40x64_S64x1x64_0_36_0
abbrev rl2_37 : Rect S64x40x64 := Rect.unit (s := S64x40x64) ![0, 37, 0] S64x1x64.size Gen.inb_S64x40x64_S64x1x64_0_37_0
abbrev rl2_38 : Rect S64x40x64 := Rect.unit (s := S64x40x64) ![0, 38, 0] S64x1x64.size Gen.inb_S64x40x64_S64x1x64_0_38_0
abbrev rl2_39 : Rect S64x40x64 := Rect.unit (s := S64x40x64) ![0, 39, 0] S64x1x64.size Gen.inb_S64x40x64_S64x1x64_0_39_0
abbrev rs2_0 : Rect S64x8x64x64 := Rect.unit (s := S64x8x64x64) ![0, 0, 0, 0] S64x1x64x64.size Gen.inb_S64x8x64x64_S64x1x64x64_0_0_0_0
abbrev rs2_1 : Rect S64x8x64x64 := Rect.unit (s := S64x8x64x64) ![0, 1, 0, 0] S64x1x64x64.size Gen.inb_S64x8x64x64_S64x1x64x64_0_1_0_0
abbrev rs2_2 : Rect S64x8x64x64 := Rect.unit (s := S64x8x64x64) ![0, 2, 0, 0] S64x1x64x64.size Gen.inb_S64x8x64x64_S64x1x64x64_0_2_0_0
abbrev rs2_3 : Rect S64x8x64x64 := Rect.unit (s := S64x8x64x64) ![0, 3, 0, 0] S64x1x64x64.size Gen.inb_S64x8x64x64_S64x1x64x64_0_3_0_0
abbrev rs2_4 : Rect S64x8x64x64 := Rect.unit (s := S64x8x64x64) ![0, 4, 0, 0] S64x1x64x64.size Gen.inb_S64x8x64x64_S64x1x64x64_0_4_0_0
abbrev rs2_5 : Rect S64x8x64x64 := Rect.unit (s := S64x8x64x64) ![0, 5, 0, 0] S64x1x64x64.size Gen.inb_S64x8x64x64_S64x1x64x64_0_5_0_0
abbrev rs2_6 : Rect S64x8x64x64 := Rect.unit (s := S64x8x64x64) ![0, 6, 0, 0] S64x1x64x64.size Gen.inb_S64x8x64x64_S64x1x64x64_0_6_0_0
abbrev rs2_7 : Rect S64x8x64x64 := Rect.unit (s := S64x8x64x64) ![0, 7, 0, 0] S64x1x64x64.size Gen.inb_S64x8x64x64_S64x1x64x64_0_7_0_0

/-! ## What the body leaves in the output block -/

/-- The output block after the body, from the two input blocks: eight slabs, the last stored first. Slab i is the scaled
    sum of the outer products of rows 5·i … 5·i+4. -/
def out2_2 (x0 x1 : Vec F S64x40x64 .f32) : Vec F S64x8x64x64 .f32 :=
  View.canon [⟨rs2_7, scaled 0x3EE4F92E#32 (acc5 (View.ld x0 rl2_35) (View.ld x1 rl2_35) (View.ld x0 rl2_36) (View.ld x1 rl2_36) (View.ld x0 rl2_37) (View.ld x1 rl2_37) (View.ld x0 rl2_38) (View.ld x1 rl2_38) (View.ld x0 rl2_39) (View.ld x1 rl2_39))⟩,
    ⟨rs2_6, scaled 0x3EE4F92E#32 (acc5 (View.ld x0 rl2_30) (View.ld x1 rl2_30) (View.ld x0 rl2_31) (View.ld x1 rl2_31) (View.ld x0 rl2_32) (View.ld x1 rl2_32) (View.ld x0 rl2_33) (View.ld x1 rl2_33) (View.ld x0 rl2_34) (View.ld x1 rl2_34))⟩,
    ⟨rs2_5, scaled 0x3EE4F92E#32 (acc5 (View.ld x0 rl2_25) (View.ld x1 rl2_25) (View.ld x0 rl2_26) (View.ld x1 rl2_26) (View.ld x0 rl2_27) (View.ld x1 rl2_27) (View.ld x0 rl2_28) (View.ld x1 rl2_28) (View.ld x0 rl2_29) (View.ld x1 rl2_29))⟩,
    ⟨rs2_4, scaled 0x3EE4F92E#32 (acc5 (View.ld x0 rl2_20) (View.ld x1 rl2_20) (View.ld x0 rl2_21) (View.ld x1 rl2_21) (View.ld x0 rl2_22) (View.ld x1 rl2_22) (View.ld x0 rl2_23) (View.ld x1 rl2_23) (View.ld x0 rl2_24) (View.ld x1 rl2_24))⟩,
    ⟨rs2_3, scaled 0x3EE4F92E#32 (acc5 (View.ld x0 rl2_15) (View.ld x1 rl2_15) (View.ld x0 rl2_16) (View.ld x1 rl2_16) (View.ld x0 rl2_17) (View.ld x1 rl2_17) (View.ld x0 rl2_18) (View.ld x1 rl2_18) (View.ld x0 rl2_19) (View.ld x1 rl2_19))⟩,
    ⟨rs2_2, scaled 0x3EE4F92E#32 (acc5 (View.ld x0 rl2_10) (View.ld x1 rl2_10) (View.ld x0 rl2_11) (View.ld x1 rl2_11) (View.ld x0 rl2_12) (View.ld x1 rl2_12) (View.ld x0 rl2_13) (View.ld x1 rl2_13) (View.ld x0 rl2_14) (View.ld x1 rl2_14))⟩,
    ⟨rs2_1, scaled 0x3EE4F92E#32 (acc5 (View.ld x0 rl2_5) (View.ld x1 rl2_5) (View.ld x0 rl2_6) (View.ld x1 rl2_6) (View.ld x0 rl2_7) (View.ld x1 rl2_7) (View.ld x0 rl2_8) (View.ld x1 rl2_8) (View.ld x0 rl2_9) (View.ld x1 rl2_9))⟩,
    ⟨rs2_0, scaled 0x3EE4F92E#32 (acc5 (View.ld x0 rl2_0) (View.ld x1 rl2_0) (View.ld x0 rl2_1) (View.ld x1 rl2_1) (View.ld x0 rl2_2) (View.ld x1 rl2_2) (View.ld x0 rl2_3) (View.ld x1 rl2_3) (View.ld x0 rl2_4) (View.ld x1 rl2_4))⟩]

/-- The eight slabs tile the block, so every index of it lies in one of them. -/
theorem cover2_2 (p0 p1 p2 p3 p4 p5 p6 p7 : Vec F S64x1x64x64 .f32) (y : S64x8x64x64.Idx) :
    ∃ pc ∈ ([⟨rs2_7, p7⟩, ⟨rs2_6, p6⟩, ⟨rs2_5, p5⟩, ⟨rs2_4, p4⟩, ⟨rs2_3, p3⟩, ⟨rs2_2, p2⟩, ⟨rs2_1, p1⟩, ⟨rs2_0, p0⟩] : List (View.Piece (Elt F) S64x8x64x64 .f32)), y ∈ pc.1.set :=
  View.cover_of_tiled [⟨rs2_7, p7⟩, ⟨rs2_6, p6⟩, ⟨rs2_5, p5⟩, ⟨rs2_4, p4⟩, ⟨rs2_3, p3⟩, ⟨rs2_2, p2⟩, ⟨rs2_1, p1⟩, ⟨rs2_0, p0⟩] S64x1x64x64.size (by rfl) y

/-! ## The body's triple -/

set_option maxHeartbeats 4000000 in
/-- The body on whole staging memrefs — the inputs' at contents `x0`, `x1`, the output's at anything — runs to the
    continuation with the inputs' as they were and the output's at `out2_2 x0 x1`. -/
theorem sound_kernel2 (c : Dev nD) (E : Set ℕ) (i : grid2.Coords) (arg1 : Memref sig .tc .vmem S64x40x64 .f32) (harg1 : arg1.IsWhole)
    (arg2 : Memref sig .tc .vmem S64x40x64 .f32) (harg2 : arg2.IsWhole) (arg3 : Memref sig .tc .vmem S64x8x64x64 .f32) (harg3 : arg3.IsWhole)
    (x0 x1 : Vec F S64x40x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  unfold owns
  iintro ⟨⟨%f0, %hf0, H0⟩, ⟨%f1, %hf1, H1⟩, ⟨%d2, %f2, -, H2⟩, Hk⟩
  subst hf0; subst hf1
  sl_unfold [cc2_kernel]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover2_2 _ _ _ _ _ _ _ _)).trans ?_
  sl_unfold_words
  rfl

/-! ## The pipeline's proof data -/

/-- The proof data of pipeline 2 on core `c`: the arrays as the region finds them; after the body at point `t` each input's
    buffer at its block and the output's at `out2_2` of the input blocks; the scoped rest and the generator register ride
    along untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Reg3.lean ====
/-
  Region 3 of @main (the pallas_call of contraction length 7), at any contents `V` of the TensorCore's buffers on entry.

  The grid has 32 points; at point t the two input windows hold rows 64·t … 64·t+63 of their [2048, 56, 64] arrays and
  the output window is written back to rows 64·t … 64·t+63 of the [2048, 8, 64, 64] result. The body stores eight slabs into
  the output block, slab i (at multiplicity index i) being `scaled` of the sum of the 7 outer products of rows
  7·i … 7·i+6 of the two input blocks (`out3_2`). Stated here: the blocks (`iblk3`), what the body leaves
  (`out3_2`, and that its eight slabs tile the block), the body's triple (`sound_kernel3`), the pipeline's proof data
  (`dat3`) and the body obligation at every point (`body_obligation3`).
-/
import proofs.«168482_j7232724927058_1_alg».proof.Proof.KernelIdeal.Ops
import proofs.«168482_j7232724927058_1_alg».proof.Proof.Gen.KernelIdeal.Launch
import proofs.«168482_j7232724927058_1_alg».proof.Proof.Gen.KernelIdeal.Skeleton
import proofs.«168482_j7232724927058_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first operand's staging buffer holds its block at every point, for any proof data over `V`'s arrays whose body
    leaves the block in place: the window is fetched at every point, never cut. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the second operand. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: row j of an input block, slab i of the output block -/

abbrev rl3_0 : Rect S64x56x64 := Rect.unit (s := S64x56x64) ![0, 0, 0] S64x1x64.size Gen.inb_S64x56x64_S64x1x64_0_0_0
abbrev rl3_1 : Rect S64x56x64 := Rect.unit (s := S64x56x64) ![0, 1, 0] S64x1x64.size Gen.inb_S64x56x64_S64x1x64_0_1_0
abbrev rl3_2 : Rect S64x56x64 := Rect.unit (s := S64x56x64) ![0, 2, 0] S64x1x64.size Gen.inb_S64x56x64_S64x1x64_0_2_0
abbrev rl3_3 : Rect S64x56x64 := Rect.unit (s := S64x56x64) ![0, 3, 0] S64x1x64.size Gen.inb_S64x56x64_S64x1x64_0_3_0
abbrev rl3_4 : Rect S64x56x64 := Rect.unit (s := S64x56x64) ![0, 4, 0] S64x1x64.size Gen.inb_S64x56x64_S64x1x64_0_4_0
abbrev rl3_5 : Rect S64x56x64 := Rect.unit (s := S64x56x64) ![0, 5, 0] S64x1x64.size Gen.inb_S64x56x64_S64x1x64_0_5_0
abbrev rl3_6 : Rect S64x56x64 := Rect.unit (s := S64x56x64) ![0, 6, 0] S64x1x64.size Gen.inb_S64x56x64_S64x1x64_0_6_0
abbrev rl3_7 : Rect S64x56x64 := Rect.unit (s := S64x56x64) ![0, 7, 0] S64x1x64.size Gen.inb_S64x56x64_S64x1x64_0_7_0
abbrev rl3_8 : Rect S64x56x64 := Rect.unit (s := S64x56x64) ![0, 8, 0] S64x1x64.size Gen.inb_S64x56x64_S64x1x64_0_8_0
abbrev rl3_9 : Rect S64x56x64 := Rect.unit (s := S64x56x64) ![0, 9, 0] S64x1x64.size Gen.inb_S64x56x64_S64x1x64_0_9_0
abbrev rl3_10 : Rect S64x56x64 := Rect.unit (s := S64x56x64) ![0, 10, 0] S64x1x64.size Gen.inb_S64x56x64_S64x1x64_0_10_0
abbrev rl3_11 : Rect S64x56x64 := Rect.unit (s := S64x56x64) ![0, 11, 0] S64x1x64.size Gen.inb_S64x56x64_S64x1x64_0_11_0
abbrev rl3_12 : Rect S64x56x64 := Rect.unit (s := S64x56x64) ![0, 12, 0] S64x1x64.size Gen.inb_S64x56x64_S64x1x64_0_12_0
abbrev rl3_13 : Rect S64x56x64 := Rect.unit (s := S64x56x64) ![0, 13, 0] S64x1x64.size Gen.inb_S64x56x64_S64x1x64_0_13_0
abbrev rl3_14 : Rect S64x56x64 := Rect.unit (s := S64x56x64) ![0, 14, 0] S64x1x64.size Gen.inb_S64x56x64_S64x1x64_0_14_0
abbrev rl3_15 : Rect S64x56x64 := Rect.unit (s := S64x56x64) ![0, 15, 0] S64x1x64.size Gen.inb_S64x56x64_S64x1x64_0_15_0
abbrev rl3_16 : Rect S64x56x64 := Rect.unit (s := S64x56x64) ![0, 16, 0] S64x1x64.size Gen.inb_S64x56x64_S64x1x64_0_16_0
abbrev rl3_17 : Rect S64x56x64 := Rect.unit (s := S64x56x64) ![0, 17, 0] S64x1x64.size Gen.inb_S64x56x64_S64x1x64_0_17_0
abbrev rl3_18 : Rect S64x56x64 := Rect.unit (s := S64x56x64) ![0, 18, 0] S64x1x64.size Gen.inb_S64x56x64_S64x1x64_0_18_0
abbrev rl3_19 : Rect S64x56x64 := Rect.unit (s := S64x56x64) ![0, 19, 0] S64x1x64.size Gen.inb_S64x56x64_S64x1x64_0_19_0
abbrev rl3_20 : Rect S64x56x64 := Rect.unit (s := S64x56x64) ![0, 20, 0] S64x1x64.size Gen.inb_S64x56x64_S64x1x64_0_20_0
abbrev rl3_21 : Rect S64x56x64 := Rect.unit (s := S64x56x64) ![0, 21, 0] S64x1x64.size Gen.inb_S64x56x64_S64x1x64_0_21_0
abbrev rl3_22 : Rect S64x56x64 := Rect.unit (s := S64x56x64) ![0, 22, 0] S64x1x64.size Gen.inb_S64x56x64_S64x1x64_0_22_0
abbrev rl3_23 : Rect S64x56x64 := Rect.unit (s := S64x56x64) ![0, 23, 0] S64x1x64.size Gen.inb_S64x56x64_S64x1x64_0_23_0
abbrev rl3_24 : Rect S64x56x64 := Rect.unit (s := S64x56x64) ![0, 24, 0] S64x1x64.size Gen.inb_S64x56x64_S64x1x64_0_24_0
abbrev rl3_25 : Rect S64x56x64 := Rect.unit (s := S64x56x64) ![0, 25, 0] S64x1x64.size Gen.inb_S64x56x64_S64x1x64_0_25_0
abbrev rl3_26 : Rect S64x56x64 := Rect.unit (s := S64x56x64) ![0, 26, 0] S64x1x64.size Gen.inb_S64x56x64_S64x1x64_0_26_0
abbrev rl3_27 : Rect S64x56x64 := Rect.unit (s := S64x56x64) ![0, 27, 0] S64x1x64.size Gen.inb_S64x56x64_S64x1x64_0_27_0
abbrev rl3_28 : Rect S64x56x64 := Rect.unit (s := S64x56x64) ![0, 28, 0] S64x1x64.size Gen.inb_S64x56x64_S64x1x64_0_28_0
abbrev rl3_29 : Rect S64x56x64 := Rect.unit (s := S64x56x64) ![0, 29, 0] S64x1x64.size Gen.inb_S64x56x64_S64x1x64_0_29_0
abbrev rl3_30 : Rect S64x56x64 := Rect.unit (s := S64x56x64) ![0, 30, 0] S64x1x64.size Gen.inb_S64x56x64_S64x1x64_0_30_0
abbrev rl3_31 : Rect S64x56x64 := Rect.unit (s := S64x56x64) ![0, 31, 0] S64x1x64.size Gen.inb_S64x56x64_S64x1x64_0_31_0
abbrev rl3_32 : Rect S64x56x64 := Rect.unit (s := S64x56x64) ![0, 32, 0] S64x1x64.size Gen.inb_S64x56x64_S64x1x64_0_32_0
abbrev rl3_33 : Rect S64x56x64 := Rect.unit (s := S64x56x64) ![0, 33, 0] S64x1x64.size Gen.inb_S64x56x64_S64x1x64_0_33_0
abbrev rl3_34 : Rect S64x56x64 := Rect.unit (s := S64x56x64) ![0, 34, 0] S64x1x64.size Gen.inb_S64x56x64_S64x1x64_0_34_0
abbrev rl3_35 : Rect S64x56x64 := Rect.unit (s := S64x56x64) ![0, 35, 0] S64x1x64.size Gen.inb_S64x56x64_S64x1x64_0_35_0
abbrev rl3_36 : Rect S64x56x64 := Rect.unit (s := S64x56x64) ![0, 36, 0] S64x1x64.size Gen.inb_S64x56x64_S64x1x64_0_36_0
abbrev rl3_37 : Rect S64x56x64 := Rect.unit (s := S64x56x64) ![0, 37, 0] S64x1x64.size Gen.inb_S64x56x64_S64x1x64_0_37_0
abbrev rl3_38 : Rect S64x56x64 := Rect.unit (s := S64x56x64) ![0, 38, 0] S64x1x64.size Gen.inb_S64x56x64_S64x1x64_0_38_0
abbrev rl3_39 : Rect S64x56x64 := Rect.unit (s := S64x56x64) ![0, 39, 0] S64x1x64.size Gen.inb_S64x56x64_S64x1x64_0_39_0
abbrev rl3_40 : Rect S64x56x64 := Rect.unit (s := S64x56x64) ![0, 40, 0] S64x1x64.size Gen.inb_S64x56x64_S64x1x64_0_40_0
abbrev rl3_41 : Rect S64x56x64 := Rect.unit (s := S64x56x64) ![0, 41, 0] S64x1x64.size Gen.inb_S64x56x64_S64x1x64_0_41_0
abbrev rl3_42 : Rect S64x56x64 := Rect.unit (s := S64x56x64) ![0, 42, 0] S64x1x64.size Gen.inb_S64x56x64_S64x1x64_0_42_0
abbrev rl3_43 : Rect S64x56x64 := Rect.unit (s := S64x56x64) ![0, 43, 0] S64x1x64.size Gen.inb_S64x56x64_S64x1x64_0_43_0
abbrev rl3_44 : Rect S64x56x64 := Rect.unit (s := S64x56x64) ![0, 44, 0] S64x1x64.size Gen.inb_S64x56x64_S64x1x64_0_44_0
abbrev rl3_45 : Rect S64x56x64 := Rect.unit (s := S64x56x64) ![0, 45, 0] S64x1x64.size Gen.inb_S64x56x64_S64x1x64_0_45_0
abbrev rl3_46 : Rect S64x56x64 := Rect.unit (s := S64x56x64) ![0, 46, 0] S64x1x64.size Gen.inb_S64x56x64_S64x1x64_0_46_0
abbrev rl3_47 : Rect S64x56x64 := Rect.unit (s := S64x56x64) ![0, 47, 0] S64x1x64.size Gen.inb_S64x56x64_S64x1x64_0_47_0
abbrev rl3_48 : Rect S64x56x64 := Rect.unit (s := S64x56x64) ![0, 48, 0] S64x1x64.size Gen.inb_S64x56x64_S64x1x64_0_48_0
abbrev rl3_49 : Rect S64x56x64 := Rect.unit (s := S64x56x64) ![0, 49, 0] S64x1x64.size Gen.inb_S64x56x64_S64x1x64_0_49_0
abbrev rl3_50 : Rect S64x56x64 := Rect.unit (s := S64x56x64) ![0, 50, 0] S64x1x64.size Gen.inb_S64x56x64_S64x1x64_0_50_0
abbrev rl3_51 : Rect S64x56x64 := Rect.unit (s := S64x56x64) ![0, 51, 0] S64x1x64.size Gen.inb_S64x56x64_S64x1x64_0_51_0
abbrev rl3_52 : Rect S64x56x64 := Rect.unit (s := S64x56x64) ![0, 52, 0] S64x1x64.size Gen.inb_S64x56x64_S64x1x64_0_52_0
abbrev rl3_53 : Rect S64x56x64 := Rect.unit (s := S64x56x64) ![0, 53, 0] S64x1x64.size Gen.inb_S64x56x64_S64x1x64_0_53_0
abbrev rl3_54 : Rect S64x56x64 := Rect.unit (s := S64x56x64) ![0, 54, 0] S64x1x64.size Gen.inb_S64x56x64_S64x1x64_0_54_0
abbrev rl3_55 : Rect S64x56x64 := Rect.unit (s := S64x56x64) ![0, 55, 0] S64x1x64.size Gen.inb_S64x56x64_S64x1x64_0_55_0
abbrev rs3_0 : Rect S64x8x64x64 := Rect.unit (s := S64x8x64x64) ![0, 0, 0, 0] S64x1x64x64.size Gen.inb_S64x8x64x64_S64x1x64x64_0_0_0_0
abbrev rs3_1 : Rect S64x8x64x64 := Rect.unit (s := S64x8x64x64) ![0, 1, 0, 0] S64x1x64x64.size Gen.inb_S64x8x64x64_S64x1x64x64_0_1_0_0
abbrev rs3_2 : Rect S64x8x64x64 := Rect.unit (s := S64x8x64x64) ![0, 2, 0, 0] S64x1x64x64.size Gen.inb_S64x8x64x64_S64x1x64x64_0_2_0_0
abbrev rs3_3 : Rect S64x8x64x64 := Rect.unit (s := S64x8x64x64) ![0, 3, 0, 0] S64x1x64x64.size Gen.inb_S64x8x64x64_S64x1x64x64_0_3_0_0
abbrev rs3_4 : Rect S64x8x64x64 := Rect.unit (s := S64x8x64x64) ![0, 4, 0, 0] S64x1x64x64.size Gen.inb_S64x8x64x64_S64x1x64x64_0_4_0_0
abbrev rs3_5 : Rect S64x8x64x64 := Rect.unit (s := S64x8x64x64) ![0, 5, 0, 0] S64x1x64x64.size Gen.inb_S64x8x64x64_S64x1x64x64_0_5_0_0
abbrev rs3_6 : Rect S64x8x64x64 := Rect.unit (s := S64x8x64x64) ![0, 6, 0, 0] S64x1x64x64.size Gen.inb_S64x8x64x64_S64x1x64x64_0_6_0_0
abbrev rs3_7 : Rect S64x8x64x64 := Rect.unit (s := S64x8x64x64) ![0, 7, 0, 0] S64x1x64x64.size Gen.inb_S64x8x64x64_S64x1x64x64_0_7_0_0

/-! ## What the body leaves in the output block -/

/-- The output block after the body, from the two input blocks: eight slabs, the last stored first. Slab i is the scaled
    sum of the outer products of rows 7·i … 7·i+6. -/
def out3_2 (x0 x1 : Vec F S64x56x64 .f32) : Vec F S64x8x64x64 .f32 :=
  View.canon [⟨rs3_7, scaled 0x3EC1848F#32 (acc7 (View.ld x0 rl3_49) (View.ld x1 rl3_49) (View.ld x0 rl3_50) (View.ld x1 rl3_50) (View.ld x0 rl3_51) (View.ld x1 rl3_51) (View.ld x0 rl3_52) (View.ld x1 rl3_52) (View.ld x0 rl3_53) (View.ld x1 rl3_53) (View.ld x0 rl3_54) (View.ld x1 rl3_54) (View.ld x0 rl3_55) (View.ld x1 rl3_55))⟩,
    ⟨rs3_6, scaled 0x3EC1848F#32 (acc7 (View.ld x0 rl3_42) (View.ld x1 rl3_42) (View.ld x0 rl3_43) (View.ld x1 rl3_43) (View.ld x0 rl3_44) (View.ld x1 rl3_44) (View.ld x0 rl3_45) (View.ld x1 rl3_45) (View.ld x0 rl3_46) (View.ld x1 rl3_46) (View.ld x0 rl3_47) (View.ld x1 rl3_47) (View.ld x0 rl3_48) (View.ld x1 rl3_48))⟩,
    ⟨rs3_5, scaled 0x3EC1848F#32 (acc7 (View.ld x0 rl3_35) (View.ld x1 rl3_35) (View.ld x0 rl3_36) (View.ld x1 rl3_36) (View.ld x0 rl3_37) (View.ld x1 rl3_37) (View.ld x0 rl3_38) (View.ld x1 rl3_38) (View.ld x0 rl3_39) (View.ld x1 rl3_39) (View.ld x0 rl3_40) (View.ld x1 rl3_40) (View.ld x0 rl3_41) (View.ld x1 rl3_41))⟩,
    ⟨rs3_4, scaled 0x3EC1848F#32 (acc7 (View.ld x0 rl3_28) (View.ld x1 rl3_28) (View.ld x0 rl3_29) (View.ld x1 rl3_29) (View.ld x0 rl3_30) (View.ld x1 rl3_30) (View.ld x0 rl3_31) (View.ld x1 rl3_31) (View.ld x0 rl3_32) (View.ld x1 rl3_32) (View.ld x0 rl3_33) (View.ld x1 rl3_33) (View.ld x0 rl3_34) (View.ld x1 rl3_34))⟩,
    ⟨rs3_3, scaled 0x3EC1848F#32 (acc7 (View.ld x0 rl3_21) (View.ld x1 rl3_21) (View.ld x0 rl3_22) (View.ld x1 rl3_22) (View.ld x0 rl3_23) (View.ld x1 rl3_23) (View.ld x0 rl3_24) (View.ld x1 rl3_24) (View.ld x0 rl3_25) (View.ld x1 rl3_25) (View.ld x0 rl3_26) (View.ld x1 rl3_26) (View.ld x0 rl3_27) (View.ld x1 rl3_27))⟩,
    ⟨rs3_2, scaled 0x3EC1848F#32 (acc7 (View.ld x0 rl3_14) (View.ld x1 rl3_14) (View.ld x0 rl3_15) (View.ld x1 rl3_15) (View.ld x0 rl3_16) (View.ld x1 rl3_16) (View.ld x0 rl3_17) (View.ld x1 rl3_17) (View.ld x0 rl3_18) (View.ld x1 rl3_18) (View.ld x0 rl3_19) (View.ld x1 rl3_19) (View.ld x0 rl3_20) (View.ld x1 rl3_20))⟩,
    ⟨rs3_1, scaled 0x3EC1848F#32 (acc7 (View.ld x0 rl3_7) (View.ld x1 rl3_7) (View.ld x0 rl3_8) (View.ld x1 rl3_8) (View.ld x0 rl3_9) (View.ld x1 rl3_9) (View.ld x0 rl3_10) (View.ld x1 rl3_10) (View.ld x0 rl3_11) (View.ld x1 rl3_11) (View.ld x0 rl3_12) (View.ld x1 rl3_12) (View.ld x0 rl3_13) (View.ld x1 rl3_13))⟩,
    ⟨rs3_0, scaled 0x3EC1848F#32 (acc7 (View.ld x0 rl3_0) (View.ld x1 rl3_0) (View.ld x0 rl3_1) (View.ld x1 rl3_1) (View.ld x0 rl3_2) (View.ld x1 rl3_2) (View.ld x0 rl3_3) (View.ld x1 rl3_3) (View.ld x0 rl3_4) (View.ld x1 rl3_4) (View.ld x0 rl3_5) (View.ld x1 rl3_5) (View.ld x0 rl3_6) (View.ld x1 rl3_6))⟩]

/-- The eight slabs tile the block, so every index of it lies in one of them. -/
theorem cover3_2 (p0 p1 p2 p3 p4 p5 p6 p7 : Vec F S64x1x64x64 .f32) (y : S64x8x64x64.Idx) :
    ∃ pc ∈ ([⟨rs3_7, p7⟩, ⟨rs3_6, p6⟩, ⟨rs3_5, p5⟩, ⟨rs3_4, p4⟩, ⟨rs3_3, p3⟩, ⟨rs3_2, p2⟩, ⟨rs3_1, p1⟩, ⟨rs3_0, p0⟩] : List (View.Piece (Elt F) S64x8x64x64 .f32)), y ∈ pc.1.set :=
  View.cover_of_tiled [⟨rs3_7, p7⟩, ⟨rs3_6, p6⟩, ⟨rs3_5, p5⟩, ⟨rs3_4, p4⟩, ⟨rs3_3, p3⟩, ⟨rs3_2, p2⟩, ⟨rs3_1, p1⟩, ⟨rs3_0, p0⟩] S64x1x64x64.size (by rfl) y

/-! ## The body's triple -/

set_option maxHeartbeats 4000000 in
/-- The body on whole staging memrefs — the inputs' at contents `x0`, `x1`, the output's at anything — runs to the
    continuation with the inputs' as they were and the output's at `out3_2 x0 x1`. -/
theorem sound_kernel3 (c : Dev nD) (E : Set ℕ) (i : grid3.Coords) (arg1 : Memref sig .tc .vmem S64x56x64 .f32) (harg1 : arg1.IsWhole)
    (arg2 : Memref sig .tc .vmem S64x56x64 .f32) (harg2 : arg2.IsWhole) (arg3 : Memref sig .tc .vmem S64x8x64x64 .f32) (harg3 : arg3.IsWhole)
    (x0 x1 : Vec F S64x56x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  unfold owns
  iintro ⟨⟨%f0, %hf0, H0⟩, ⟨%f1, %hf1, H1⟩, ⟨%d2, %f2, -, H2⟩, Hk⟩
  subst hf0; subst hf1
  sl_unfold [cc3_kernel]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover3_2 _ _ _ _ _ _ _ _)).trans ?_
  sl_unfold_words
  rfl

/-! ## The pipeline's proof data -/

/-- The proof data of pipeline 3 on core `c`: the arrays as the region finds them; after the body at point `t` each input's
    buffer at its block and the output's at `out3_2` of the input blocks; the scoped rest and the generator register ride
    along untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.Run.lean ====
/-
  The run of @main: four kernel regions among five stretches of host operations.

  @main slices rows 0–7, 8–31, 32–71, 72–127 of the two arguments (a stretch before each region), runs the four regions
  on those slices, and joins the four [2048, 8, 64, 64] results along axis 1 (the last stretch). The contents of the
  TensorCore's buffers are followed through the nine items as a fold from the launch memory: a host stretch applies its
  operations (`StableHlo.after`), a region leaves its arrays at what its write-backs leave (`Dat.arrAt … N`) and every
  other buffer as it was. Every region is entered with all unscoped buffers held at the fold's contents, the generator
  register at some state and nothing owed, and is left the same way at the next contents. The launch theorem then says
  that every execution terminates with every unscoped buffer at the last contents `W9` (`run_main`); no item writes an
  argument (`W9_main_arg0`, `W9_main_arg1`), which is the frame claim (`frame`).
-/
import proofs.«168482_j7232724927058_1_alg».proof.Proof.KernelIdeal.Reg0
import proofs.«168482_j7232724927058_1_alg».proof.Proof.KernelIdeal.Reg1
import proofs.«168482_j7232724927058_1_alg».proof.Proof.KernelIdeal.Reg2
import proofs.«168482_j7232724927058_1_alg».proof.Proof.KernelIdeal.Reg3
import proofs.«168482_j7232724927058_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core `c`'s buffers at launch. -/
abbrev W0 : Dev nD → Valuation τ sig (Elt F) := fun c b => (s₀ m ρ).mem ((c : Dev nD), b)
/-- After the first two slices (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pair of slices (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third pair of slices (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth pair of slices (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the join of the four results (the end of @main). -/
abbrev W9 : Dev nD → Valuation τ sig (Elt F) := fun c => StableHlo.after hostOps4 (W8 m ρ c)

/-! ## A buffer no item writes keeps its launch contents -/

/-- A buffer that is no window's array of any region and that no host stretch writes holds its launch contents at the end. -/
theorem W9_of_untouched (c : Dev nD) (b : Ref sig .tc)
    (h0 : b ∉ hostOps0_W) (h1 : b ∉ hostOps1_W) (h2 : b ∉ hostOps2_W) (h3 : b ∉ hostOps3_W) (h4 : b ∉ hostOps4_W)
    (a0 : ∀ w, Pipeline.arrRef spec0 w ≠ b) (a1 : ∀ w, Pipeline.arrRef spec1 w ≠ b) (a2 : ∀ w, Pipeline.arrRef spec2 w ≠ b) (a3 : ∀ w, Pipeline.arrRef spec3 w ≠ b) :
    W9 m ρ c (Proc.devRef .tc b) = m ((c : Thread nD τ).loc b) :=
  calc W9 m ρ c (Proc.devRef .tc b)
    _ = W8 m ρ c (Proc.devRef .tc b) := StableHlo.after_of_writes_sub hostOps4 _ hostOps4_writes h4
    _ = W7 m ρ c (Proc.devRef .tc b) := W8_of_ne m ρ c b a3
    _ = W6 m ρ c (Proc.devRef .tc b) := StableHlo.after_of_writes_sub hostOps3 _ hostOps3_writes h3
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

theorem W9_main_arg0 (c : Dev nD) : W9 m ρ c (Proc.devRef .tc main_arg0) = m ((c : Thread nD τ).loc main_arg0) :=
  W9_of_untouched m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_of_untouched m ρ c main_arg1 (by decide) (by decide) (by decide) (by decide) (by decide) (by decide) (by decide) (by decide) (by decide)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- REGION 0 over the thread state: entered from every unscoped buffer at `W1`, left at `W2`. Its arrays are split out
    of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split out
    of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split out
    of the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are split out
    of the unscoped buffers and put back at the exit contents; the generator register goes into the region's invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The state the last host stretch leaves is the last thread state beside the core owing nothing. -/
theorem last_state (c : Dev nD) :
    (iprop(StableHlo.held (c : Thread nD τ) (Pipeline.ucRefs τ sig) (W9 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- @main's nine items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state each unscoped buffer of every core holds the fold's last contents `W9`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- THE FRAME: every execution terminates, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W9_main_arg0 m ρ c),
     (h c _ (mem_uc main_arg1 (by decide))).trans (W9_main_arg1 m ρ c)⟩) (run_main m ρ)

end Cert.KernelIdeal.Hand

end
-- ==== Proof.KernelIdeal.OpsValue.lean ====
/-
  The slab arithmetic read at an index, on the extended reals.

  At the ideal instance every operation is the exact one and a change of layout moves no value, so:
  `term a b` at (n, u, v) is a(n, 0, u) · b(n, 0, v); the zero array is 0 everywhere; `accD` at (n, u, v) is the sum of
  its d products in the body's order (the leading 0 + dropped); `scaled s acc` at (n, 0, u, v) is acc(n, u, v) times the
  constant; and row j of a [64, B, 64] block read at (n, 0, u) is the block at (n, j, u).
-/
import proofs.«168482_j7232724927058_1_alg».proof.Proof.KernelIdeal.Ops
import Idealize.ShloMosaic.Lib.Pipeline.Value
import Idealize.ShloMosaic.Lib.Pipeline.FrameBody
import Idealize.ShloMosaic.Lib.ValueIdx
import Idealize.ShloMosaic.PureOps.Ideal.Laws

noncomputable section

namespace Cert.KernelIdeal.Hand

open Cert.KernelIdeal Idealize.ShloMosaic Idealize.SL.Sem Idealize.ShloMosaic.ValueIdx

/-- [64,1,64] → [64,64] → [64,64,1] → broadcast to [64,64,64]: entry (n, u, v) is the row's entry (n, 0, u). -/
theorem bcastU (a : Vec Ideal S64x1x64 .f32) (n u v : Fin 64) :
    broadcastTo S64x64x64 (shapeCast S64x64x1 (shapeCast S64x64 a Gen.shapeCasts_S64x1x64_S64x64) Gen.shapeCasts_S64x64_S64x64x1) Gen.broadcasts_S64x64x1_S64x64x64 (ix3 n u v)
      = a (ix3 n 0 u) := by
  refine (broadcastTo_apply _ Gen.broadcasts_S64x64x1_S64x64x64 (ix3 n u v) (ix3 n u (0 : Fin 1)) (fun ax => ?_)).trans ?_
  · match ax with
    | ⟨0, _⟩ => rfl
    | ⟨1, _⟩ => rfl
    | ⟨2, _⟩ => rfl
  refine (shapeCast_apply _ Gen.shapeCasts_S64x64_S64x64x1 (ix3 n u (0 : Fin 1)) (ix2 n u) (by
    rewrite [Shape.rowMajor_val_two, Shape.rowMajor_val_three]
    show n.val * 64 + u.val = (n.val * 64 + u.val) * 1 + 0
    omega)).trans ?_
  exact shapeCast_apply a Gen.shapeCasts_S64x1x64_S64x64 (ix2 n u) (ix3 n (0 : Fin 1) u) (by
    rewrite [Shape.rowMajor_val_two, Shape.rowMajor_val_three]
    show (n.val * 1 + 0) * 64 + u.val = n.val * 64 + u.val
    omega)

/-- [64,1,64] → [64,64] → [64,1,64] → broadcast to [64,64,64]: entry (n, u, v) is the row's entry (n, 0, v). -/
theorem bcastV (b : Vec Ideal S64x1x64 .f32) (n u v : Fin 64) :
    broadcastTo S64x64x64 (shapeCast S64x1x64 (shapeCast S64x64 b Gen.shapeCasts_S64x1x64_S64x64) Gen.shapeCasts_S64x64_S64x1x64) Gen.broadcasts_S64x1x64_S64x64x64 (ix3 n u v)
      = b (ix3 n 0 v) := by
  refine (broadcastTo_apply _ Gen.broadcasts_S64x1x64_S64x64x64 (ix3 n u v) (ix3 n (0 : Fin 1) v) (fun ax => ?_)).trans ?_
  · match ax with
    | ⟨0, _⟩ => rfl
    | ⟨1, _⟩ => rfl
    | ⟨2, _⟩ => rfl
  refine (shapeCast_apply _ Gen.shapeCasts_S64x64_S64x1x64 (ix3 n (0 : Fin 1) v) (ix2 n v) (by
    rewrite [Shape.rowMajor_val_two, Shape.rowMajor_val_three]
    show n.val * 64 + v.val = (n.val * 1 + 0) * 64 + v.val
    omega)).trans ?_
  exact shapeCast_apply b Gen.shapeCasts_S64x1x64_S64x64 (ix2 n v) (ix3 n (0 : Fin 1) v) (by
    rewrite [Shape.rowMajor_val_two, Shape.rowMajor_val_three]
    show (n.val * 1 + 0) * 64 + v.val = n.val * 64 + v.val
    omega)

/-- One outer product at an entry. -/
theorem term_apply (a b : Vec Ideal S64x1x64 .f32) (n u v : Fin 64) :
    term a b (ix3 n u v) = a (ix3 n 0 u) * b (ix3 n 0 v) := by
  unfold term
  rw [mulf_apply, bcastU, bcastV]

/-- The zero array is zero. -/
theorem zeros_apply (j : S64x64x64.Idx) : zeros (F := Ideal) j = 0 := by
  unfold zeros
  rw [broadcast_apply]
  exact Ideal.ofBits_zero_f32

theorem acc1_apply (a0 b0 : Vec Ideal S64x1x64 .f32) (n u v : Fin 64) :
    acc1 a0 b0 (ix3 n u v) = a0 (ix3 n 0 u) * b0 (ix3 n 0 v) := by
  unfold acc1
  rw [addf_apply, zeros_apply, term_apply, zero_add]

theorem acc3_apply (a0 b0 a1 b1 a2 b2 : Vec Ideal S64x1x64 .f32) (n u v : Fin 64) :
    acc3 a0 b0 a1 b1 a2 b2 (ix3 n u v)
      = a0 (ix3 n 0 u) * b0 (ix3 n 0 v) + a1 (ix3 n 0 u) * b1 (ix3 n 0 v) + a2 (ix3 n 0 u) * b2 (ix3 n 0 v) := by
  unfold acc3
  rw [addf_apply, addf_apply, acc1_apply, term_apply, term_apply]

theorem acc5_apply (a0 b0 a1 b1 a2 b2 a3 b3 a4 b4 : Vec Ideal S64x1x64 .f32) (n u v : Fin 64) :
    acc5 a0 b0 a1 b1 a2 b2 a3 b3 a4 b4 (ix3 n u v)
      = a0 (ix3 n 0 u) * b0 (ix3 n 0 v) + a1 (ix3 n 0 u) * b1 (ix3 n 0 v) + a2 (ix3 n 0 u) * b2 (ix3 n 0 v)
        + a3 (ix3 n 0 u) * b3 (ix3 n 0 v) + a4 (ix3 n 0 u) * b4 (ix3 n 0 v) := by
  unfold acc5
  rw [addf_apply, addf_apply, acc3_apply, term_apply, term_apply]

theorem acc7_apply (a0 b0 a1 b1 a2 b2 a3 b3 a4 b4 a5 b5 a6 b6 : Vec Ideal S64x1x64 .f32) (n u v : Fin 64) :
    acc7 a0 b0 a1 b1 a2 b2 a3 b3 a4 b4 a5 b5 a6 b6 (ix3 n u v)
      = a0 (ix3 n 0 u) * b0 (ix3 n 0 v) + a1 (ix3 n 0 u) * b1 (ix3 n 0 v) + a2 (ix3 n 0 u) * b2 (ix3 n 0 v)
        + a3 (ix3 n 0 u) * b3 (ix3 n 0 v) + a4 (ix3 n 0 u) * b4 (ix3 n 0 v) + a5 (ix3 n 0 u) * b5 (ix3 n 0 v)
        + a6 (ix3 n 0 u) * b6 (ix3 n 0 v) := by
  unfold acc7
  rw [addf_apply, addf_apply, acc5_apply, term_apply, term_apply]

/-- The scaled slab at (n, 0, u, v) is the accumulated entry (n, u, v) times the constant. -/
theorem scaled_apply (s : BitVec 32) (acc : FVec Ideal S64x64x64 .f32) (n : Fin 64) (z : Fin 1) (u v : Fin 64) :
    scaled s acc (ix4 n z u v) = acc (ix3 n u v) * Ideal.ofBits .f32 s := by
  unfold scaled
  refine (shapeCast_apply _ Gen.shapeCasts_S64x64x64_S64x1x64x64 (ix4 n z u v) (ix3 n u v) (by
    rewrite [Shape.rowMajor_val_three, Shape.rowMajor_val_four]
    have hz : z.val < 1 := z.isLt
    show (n.val * 64 + u.val) * 64 + v.val = ((n.val * 1 + z.val) * 64 + u.val) * 64 + v.val
    omega)).trans ?_
  rw [mulf_apply, broadcast_apply]
  rfl

/-- Row j of a [64, B, 64] block, read at (n, 0, u), is the block at (n, j, u). -/
theorem ld_row {B : Nat} (x : (⟨3, ![64, B, 64]⟩ : Shape).Idx → Elt Ideal .f32) (j : Nat) (hj : j < B)
    (inb : ∀ a, (![0, j, 0] : Fin 3 → Nat) a + S64x1x64.size a ≤ (⟨3, ![64, B, 64]⟩ : Shape).size a)
    (n : Fin 64) (z : Fin 1) (u : Fin 64) :
    View.ld (Val := Elt Ideal) x (Rect.unit (s := (⟨3, ![64, B, 64]⟩ : Shape)) ![0, j, 0] S64x1x64.size inb) (ix3 n z u)
      = x (ix3 n ⟨j, hj⟩ u) := by
  show x _ = x _
  refine congrArg x (funext fun a => Fin.ext ?_)
  have hz : z.val < 1 := z.isLt
  match a with
  | ⟨0, _⟩ => show 0 + 1 * n.val = n.val; omega
  | ⟨1, _⟩ => show j + 1 * z.val = j; omega
  | ⟨2, _⟩ => show 0 + 1 * u.val = u.val; omega

end Cert.KernelIdeal.Hand

end
-- ==== Proof.Spec.lean ====
/-
  What both programs compute, as functions of the two argument arrays a₀, a₁ : [2048, 128, 64].

  The 128 rows split into four groups of 8·d rows, d = 1, 3, 5, 7, starting at rows 0, 8, 32, 72. Within a group, row
  d·i + k belongs to multiplicity index i (of 8) and component k (of d). The result for the group is the [2048, 8, 64, 64]
  array whose entry (n, i, u, v) is (Σ_{k<d} a₀(n, off + d·i + k, u) · a₁(n, off + d·i + k, v)) · s_d, with s_d the f32
  constant both programs multiply by (1, and the f32 roundings of 1/√3, 1/√5, 1/√7: the same bit patterns on both sides,
  never evaluated here). `blkD` is that function of a group's two [2048, 8·d, 64] slices, `slcD` the slice, `grpD` their
  composition.
-/
import Idealize.ShloMosaic.PureOps.Ideal
import Idealize.ShloMosaic.Lib.ValueIdx

noncomputable section

namespace Cert.Spec

open Idealize.ShloMosaic Idealize.ShloMosaic.ValueIdx

/-- The arguments' shape, a group result's shape. -/
abbrev SA : Shape := ⟨3, ![2048, 128, 64]⟩
abbrev SO : Shape := ⟨4, ![2048, 8, 64, 64]⟩

/-! ## The group of contraction length 1 (rows 0 … 7) -/

abbrev SG0 : Shape := ⟨3, ![2048, 8, 64]⟩

/-- Rows 0 … 7 of an argument. -/
def slc0 (a : SA.Idx → EReal) : SG0.Idx → EReal := fun i =>
  a (ix3 (i 0) ⟨0 + (i 1).val, by have h : (i 1).val < 8 := (i 1).isLt; omega⟩ (i 2))

/-- Entry (n, i, u, v): the sum over the 1 component k of x₀(n, 1·i + k, u) · x₁(n, 1·i + k, v), times the constant. -/
def blk0 (x0 x1 : SG0.Idx → EReal) : SO.Idx → EReal := fun j =>
  (∑ k : Fin 1, x0 (ix3 (j 0) ⟨1 * (j 1).val + k.val, by have h : (j 1).val < 8 := (j 1).isLt; have hk := k.isLt; omega⟩ (j 2))
      * x1 (ix3 (j 0) ⟨1 * (j 1).val + k.val, by have h : (j 1).val < 8 := (j 1).isLt; have hk := k.isLt; omega⟩ (j 3)))
    * Ideal.ofBits .f32 0x3F800000#32

/-- The group's result from the whole arguments. -/
def grp0 (a0 a1 : SA.Idx → EReal) : SO.Idx → EReal := blk0 (slc0 a0) (slc0 a1)

/-! ## The group of contraction length 3 (rows 8 … 31) -/

abbrev SG1 : Shape := ⟨3, ![2048, 24, 64]⟩

/-- Rows 8 … 31 of an argument. -/
def slc1 (a : SA.Idx → EReal) : SG1.Idx → EReal := fun i =>
  a (ix3 (i 0) ⟨8 + (i 1).val, by have h : (i 1).val < 24 := (i 1).isLt; omega⟩ (i 2))

/-- Entry (n, i, u, v): the sum over the 3 components k of x₀(n, 3·i + k, u) · x₁(n, 3·i + k, v), times the constant. -/
def blk1 (x0 x1 : SG1.Idx → EReal) : SO.Idx → EReal := fun j =>
  (∑ k : Fin 3, x0 (ix3 (j 0) ⟨3 * (j 1).val + k.val, by have h : (j 1).val < 8 := (j 1).isLt; have hk := k.isLt; omega⟩ (j 2))
      * x1 (ix3 (j 0) ⟨3 * (j 1).val + k.val, by have h : (j 1).val < 8 := (j 1).isLt; have hk := k.isLt; omega⟩ (j 3)))
    * Ideal.ofBits .f32 0x3F13CD3A#32

/-- The group's result from the whole arguments. -/
def grp1 (a0 a1 : SA.Idx → EReal) : SO.Idx → EReal := blk1 (slc1 a0) (slc1 a1)

/-! ## The group of contraction length 5 (rows 32 … 71) -/

abbrev SG2 : Shape := ⟨3, ![2048, 40, 64]⟩

/-- Rows 32 … 71 of an argument. -/
def slc2 (a : SA.Idx → EReal) : SG2.Idx → EReal := fun i =>
  a (ix3 (i 0) ⟨32 + (i 1).val, by have h : (i 1).val < 40 := (i 1).isLt; omega⟩ (i 2))

/-- Entry (n, i, u, v): the sum over the 5 components k of x₀(n, 5·i + k, u) · x₁(n, 5·i + k, v), times the constant. -/
def blk2 (x0 x1 : SG2.Idx → EReal) : SO.Idx → EReal := fun j =>
  (∑ k : Fin 5, x0 (ix3 (j 0) ⟨5 * (j 1).val + k.val, by have h : (j 1).val < 8 := (j 1).isLt; have hk := k.isLt; omega⟩ (j 2))
      * x1 (ix3 (j 0) ⟨5 * (j 1).val + k.val, by have h : (j 1).val < 8 := (j 1).isLt; have hk := k.isLt; omega⟩ (j 3)))
    * Ideal.ofBits .f32 0x3EE4F92E#32

/-- The group's result from the whole arguments. -/
def grp2 (a0 a1 : SA.Idx → EReal) : SO.Idx → EReal := blk2 (slc2 a0) (slc2 a1)

/-! ## The group of contraction length 7 (rows 72 … 127) -/

abbrev SG3 : Shape := ⟨3, ![2048, 56, 64]⟩

/-- Rows 72 … 127 of an argument. -/
def slc3 (a : SA.Idx → EReal) : SG3.Idx → EReal := fun i =>
  a (ix3 (i 0) ⟨72 + (i 1).val, by have h : (i 1).val < 56 := (i 1).isLt; omega⟩ (i 2))

/-- Entry (n, i, u, v): the sum over the 7 components k of x₀(n, 7·i + k, u) · x₁(n, 7·i + k, v), times the constant. -/
def blk3 (x0 x1 : SG3.Idx → EReal) : SO.Idx → EReal := fun j =>
  (∑ k : Fin 7, x0 (ix3 (j 0) ⟨7 * (j 1).val + k.val, by have h : (j 1).val < 8 := (j 1).isLt; have hk := k.isLt; omega⟩ (j 2))
      * x1 (ix3 (j 0) ⟨7 * (j 1).val + k.val, by have h : (j 1).val < 8 := (j 1).isLt; have hk := k.isLt; omega⟩ (j 3)))
    * Ideal.ofBits .f32 0x3EC1848F#32

/-- The group's result from the whole arguments. -/
def grp3 (a0 a1 : SA.Idx → EReal) : SO.Idx → EReal := blk3 (slc3 a0) (slc3 a1)

end Cert.Spec

end
-- ==== Proof.KernelIdeal.Val0.lean ====
/-
  The value of region 0 (contraction length 1): after its 32 grid points the output array holds, at (n, i, u, v), the sum
  over the 1 component k of x₀(n, 1·i + k, u) · x₁(n, 1·i + k, v) times the constant, x₀ and x₁ being the two
  [2048, 8, 64] arrays the region was entered with.

  Slab i of a block is that function at the block's rows (`slab0_ok`), so the whole block is (`out0_2_apply`); the input
  blocks at point t are rows 64·t … 64·t+63 of the arrays (`iblk0_apply`), the output block goes back to the same rows
  (`flushed0_eq`), and the 32 blocks cover the array (`cover0`).
-/
import proofs.«168482_j7232724927058_1_alg».proof.Proof.KernelIdeal.Reg0
import proofs.«168482_j7232724927058_1_alg».proof.Proof.KernelIdeal.OpsValue
import proofs.«168482_j7232724927058_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- Row 1·i + k of a block lies inside it. -/
theorem inb0 (i : Nat) (hi : i < 8) (k : Nat) (hk : k < 1) :
    ∀ a, (![0, 1 * i + k, 0] : Fin 3 → Nat) a + S64x1x64.size a ≤ S64x8x64.size a := fun a => by
  match a with
  | ⟨0, _⟩ => show 0 + 64 ≤ 64; omega
  | ⟨1, _⟩ => show 1 * i + k + 1 ≤ 8; omega
  | ⟨2, _⟩ => show 0 + 64 ≤ 64; omega

/-- The block-level function: entry (n, i, u, v) from the two input blocks. -/
def bfun0 (x0 x1 : Vec Ideal S64x8x64 .f32) : S64x8x64x64.Idx → Elt Ideal .f32 := fun y =>
  (∑ k : Fin 1, x0 (ix3 (y 0) ⟨1 * (y 1).val + k.val, by have h : (y 1).val < 8 := (y 1).isLt; have hk := k.isLt; omega⟩ (y 2))
      * x1 (ix3 (y 0) ⟨1 * (y 1).val + k.val, by have h : (y 1).val < 8 := (y 1).isLt; have hk := k.isLt; omega⟩ (y 3)))
    * Ideal.ofBits .f32 0x3F800000#32

/-- Slab i, at any of its entries, is the block-level function at that entry's place in the block. -/
theorem slab0_ok (x0 x1 : Vec Ideal S64x8x64 .f32) (i : Nat) (hi : i < 8)
    (inbs : ∀ a, (![0, i, 0, 0] : Fin 4 → Nat) a + S64x1x64x64.size a ≤ S64x8x64x64.size a) (x : S64x1x64x64.Idx) :
    scaled 0x3F800000#32 (acc1 (View.ld x0 (Rect.unit (s := S64x8x64) ![0, 1 * i + 0, 0] S64x1x64.size (inb0 i hi 0 (by omega)))) (View.ld x1 (Rect.unit (s := S64x8x64) ![0, 1 * i + 0, 0] S64x1x64.size (inb0 i hi 0 (by omega))))) x
      = bfun0 x0 x1 ((Rect.unit (s := S64x8x64x64) ![0, i, 0, 0] S64x1x64x64.size inbs).emb x) := by
  obtain ⟨n, z, u, v, rfl⟩ : ∃ (n : Fin 64) (z : Fin 1) (u v : Fin 64), x = ix4 n z u v := ⟨x 0, x 1, x 2, x 3, eq_ix4 x⟩
  have hz : z.val < 1 := z.isLt
  have hemb : (Rect.unit (s := S64x8x64x64) ![0, i, 0, 0] S64x1x64x64.size inbs).emb (ix4 n z u v) = ix4 n (⟨i, hi⟩ : Fin 8) u v := by
    funext a; apply Fin.ext
    match a with
    | ⟨0, _⟩ => show 0 + 1 * n.val = n.val; omega
    | ⟨1, _⟩ => show i + 1 * z.val = i; omega
    | ⟨2, _⟩ => show 0 + 1 * u.val = u.val; omega
    | ⟨3, _⟩ => show 0 + 1 * v.val = v.val; omega
  rw [hemb, scaled_apply, acc1_apply,
    ld_row x0 (1 * i + 0) (by omega) _ n 0 u, ld_row x1 (1 * i + 0) (by omega) _ n 0 v]
  unfold bfun0
  rw [Fin.sum_univ_one]
  rfl

/-- THE BLOCK: what the body leaves in the output block, entry by entry. -/
theorem out0_2_apply (x0 x1 : Vec Ideal S64x8x64 .f32) (y : S64x8x64x64.Idx) : out0_2 x0 x1 y = bfun0 x0 x1 y := by
  unfold out0_2
  refine View.canon_apply_of_pieces (Val := Elt Ideal) (bfun0 x0 x1) _ (fun p hp x => ?_) y (cover0_2 _ _ _ _ _ _ _ _ y)
  simp only [List.mem_cons, List.mem_nil_iff, or_false] at hp
  rcases hp with rfl | rfl | rfl | rfl | rfl | rfl | rfl | rfl
  · exact slab0_ok x0 x1 7 (by decide) Gen.inb_S64x8x64x64_S64x1x64x64_0_7_0_0 x
  · exact slab0_ok x0 x1 6 (by decide) Gen.inb_S64x8x64x64_S64x1x64x64_0_6_0_0 x
  · exact slab0_ok x0 x1 5 (by decide) Gen.inb_S64x8x64x64_S64x1x64x64_0_5_0_0 x
  · exact slab0_ok x0 x1 4 (by decide) Gen.inb_S64x8x64x64_S64x1x64x64_0_4_0_0 x
  · exact slab0_ok x0 x1 3 (by decide) Gen.inb_S64x8x64x64_S64x1x64x64_0_3_0_0 x
  · exact slab0_ok x0 x1 2 (by decide) Gen.inb_S64x8x64x64_S64x1x64x64_0_2_0_0 x
  · exact slab0_ok x0 x1 1 (by decide) Gen.inb_S64x8x64x64_S64x1x64x64_0_1_0_0 x
  · exact slab0_ok x0 x1 0 (by decide) Gen.inb_S64x8x64x64_S64x1x64x64_0_0_0_0 x

/-- The printed index maps over the grid: every window's block index is (t, 0, …, 0). -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

variable (V : (c : Dev nD) → (b : Ref sig .tc) → Buf (Elt Ideal) ((c : Thread nD τ).loc b))

/-- The first operand's block at point t is rows 64·t … 64·t+63 of its array. -/
theorem iblk0_0_apply (c : Dev nD) (t : Fin cfg0.N) (x : S64x8x64.Idx) (k : S2048x8x64.Idx)
    (hk0 : (k 0).val = 64 * t.val + (x 0).val) (hk1 : (k 1).val = (x 1).val) (hk2 : (k 2).val = (x 2).val) :
    (iblk0 V c 0 t : Vec Ideal S64x8x64 .f32) x = (V c main_v0 : S2048x8x64.Idx → Elt Ideal .f32) k := by
  obtain ⟨e0, e1, e2, -⟩ := idx_facts0 t
  unfold iblk0
  rw [View.read_apply]
  show V c main_v0 _ = V c main_v0 _
  refine congrArg (V c main_v0) (funext fun a => Fin.ext ?_)
  match a with
  | ⟨0, _⟩ => show win0_0.index t (0 : Fin 3) * 64 + 1 * (x 0).val = (k 0).val; rw [e0, hk0]; omega
  | ⟨1, _⟩ => show win0_0.index t (1 : Fin 3) * 8 + 1 * (x 1).val = (k 1).val; rw [e1, hk1]; omega
  | ⟨2, _⟩ => show win0_0.index t (2 : Fin 3) * 64 + 1 * (x 2).val = (k 2).val; rw [e2, hk2]; omega

/-- The same for the second operand. -/
theorem iblk0_1_apply (c : Dev nD) (t : Fin cfg0.N) (x : S64x8x64.Idx) (k : S2048x8x64.Idx)
    (hk0 : (k 0).val = 64 * t.val + (x 0).val) (hk1 : (k 1).val = (x 1).val) (hk2 : (k 2).val = (x 2).val) :
    (iblk0 V c 1 t : Vec Ideal S64x8x64 .f32) x = (V c main_v1 : S2048x8x64.Idx → Elt Ideal .f32) k := by
  obtain ⟨-, -, -, e0, e1, e2, -⟩ := idx_facts0 t
  unfold iblk0
  rw [View.read_apply]
  show V c main_v1 _ = V c main_v1 _
  refine congrArg (V c main_v1) (funext fun a => Fin.ext ?_)
  match a with
  | ⟨0, _⟩ => show win0_1.index t (0 : Fin 3) * 64 + 1 * (x 0).val = (k 0).val; rw [e0, hk0]; omega
  | ⟨1, _⟩ => show win0_1.index t (1 : Fin 3) * 8 + 1 * (x 1).val = (k 1).val; rw [e1, hk1]; omega
  | ⟨2, _⟩ => show win0_1.index t (2 : Fin 3) * 64 + 1 * (x 2).val = (k 2).val; rw [e2, hk2]; omega

/-- WHAT POINT t WRITES BACK is block t of `blk0` of the two arrays as the region found them. -/
theorem flushed0_eq (c : Dev nD) (t : Fin cfg0.N) :
    (dat0 (F := Ideal) V c).flushed 2 t = ((cfg0.win 2).blk t).view.read (Elt Ideal) (Cert.Spec.blk0 (V c main_v0) (V c main_v1)) := by
  show (cfg0.win 2).cut (grid0.coords t) ((dat0 (F := Ideal) V c).after 2 t) = _
  rw [after0_2]
  obtain ⟨-, -, -, -, -, -, e0, e1, e2, e3⟩ := idx_facts0 t
  funext y
  show out0_2 (iblk0 V c 0 t) (iblk0 V c 1 t) y = Cert.Spec.blk0 (V c main_v0) (V c main_v1) (((cfg0.win 2).blk t).view.emb y)
  have h0 : ((((cfg0.win 2).blk t).view.emb y) 0).val = 64 * t.val + (y 0).val := by
    show win0_2.index t (0 : Fin 4) * 64 + 1 * (y 0).val = _; rw [e0]; omega
  have h1 : ((((cfg0.win 2).blk t).view.emb y) 1).val = (y 1).val := by
    show win0_2.index t (1 : Fin 4) * 8 + 1 * (y 1).val = _; rw [e1]; omega
  have h2 : ((((cfg0.win 2).blk t).view.emb y) 2).val = (y 2).val := by
    show win0_2.index t (2 : Fin 4) * 64 + 1 * (y 2).val = _; rw [e2]; omega
  have h3 : ((((cfg0.win 2).blk t).view.emb y) 3).val = (y 3).val := by
    show win0_2.index t (3 : Fin 4) * 64 + 1 * (y 3).val = _; rw [e3]; omega
  generalize (((cfg0.win 2).blk t).view.emb y) = q at h0 h1 h2 h3
  rw [out0_2_apply]
  unfold bfun0 Cert.Spec.blk0
  refine congrArg (· * Ideal.ofBits .f32 0x3F800000#32) (Finset.sum_congr rfl fun k _ => ?_)
  refine congrArg₂ (· * ·) (iblk0_0_apply V c t _ _ ?_ ?_ ?_) (iblk0_1_apply V c t _ _ ?_ ?_ ?_)
  · show (q 0).val = 64 * t.val + (y 0).val; exact h0
  · show 1 * (q 1).val + k.val = 1 * (y 1).val + k.val; rw [h1]
  · show (q 2).val = (y 2).val; exact h2
  · show (q 0).val = 64 * t.val + (y 0).val; exact h0
  · show 1 * (q 1).val + k.val = 1 * (y 1).val + k.val; rw [h1]
  · show (q 3).val = (y 3).val; exact h3

/-- An index of the output array is in point t's block iff each coordinate is in the block's range on its axis. -/
theorem mem_blk0 (t : Fin cfg0.N) (i : S2048x8x64x64.Idx) :
    i ∈ ((cfg0.win 2).blk t).view.set ↔ ∀ a : Fin 4, win0_2.index t a * S64x8x64x64.size a ≤ (i a).val ∧ (i a).val < win0_2.index t a * S64x8x64x64.size a + S64x8x64x64.size a := by
  show i ∈ ((View.whole main_v2).slice (win0_2.rect t)).set ↔ _
  rw [View.set_slice_whole, Rect.mem_set_unit]
  exact Iff.rfl

/-- The 32 blocks cover the output array: row n is in the block of point n / 64. -/
theorem cover0 (i : S2048x8x64x64.Idx) : ∃ t : Fin cfg0.N, (cfg0.win 2).flush t = true ∧ i ∈ ((cfg0.win 2).blk t).view.set := by
  have hi0 : (i 0).val < 2048 := (i 0).isLt
  have hi1 : (i 1).val < 8 := (i 1).isLt
  have hi2 : (i 2).val < 64 := (i 2).isLt
  have hi3 : (i 3).val < 64 := (i 3).isLt
  refine ⟨⟨(i 0).val / 64, by rw [show cfg0.N = 32 from N_0]; omega⟩, flush0_2 _, ?_⟩
  rw [mem_blk0]
  obtain ⟨-, -, -, -, -, -, e0, e1, e2, e3⟩ := idx_facts0 ⟨(i 0).val / 64, by rw [show cfg0.N = 32 from N_0]; omega⟩
  intro a
  match a with
  | ⟨0, _⟩ => show win0_2.index _ (0 : Fin 4) * 64 ≤ (i 0).val ∧ (i 0).val < win0_2.index _ (0 : Fin 4) * 64 + 64; rw [e0]; show (i 0).val / 64 * 64 ≤ (i 0).val ∧ (i 0).val < (i 0).val / 64 * 64 + 64; omega
  | ⟨1, _⟩ => show win0_2.index _ (1 : Fin 4) * 8 ≤ (i 1).val ∧ (i 1).val < win0_2.index _ (1 : Fin 4) * 8 + 8; rw [e1]; omega
  | ⟨2, _⟩ => show win0_2.index _ (2 : Fin 4) * 64 ≤ (i 2).val ∧ (i 2).val < win0_2.index _ (2 : Fin 4) * 64 + 64; rw [e2]; omega
  | ⟨3, _⟩ => show win0_2.index _ (3 : Fin 4) * 64 ≤ (i 3).val ∧ (i 3).val < win0_2.index _ (3 : Fin 4) * 64 + 64; rw [e3]; omega

/-- THE REGION'S RESULT: after the 32 points the output array holds `blk0` of the two input arrays as the region found them. -/
theorem final0 (c : Dev nD) :
    (dat0 (F := Ideal) V c).arrAt 2 cfg0.N = Cert.Spec.blk0 (V c main_v0) (V c main_v1) :=
  (dat0 (F := Ideal) V c).arrAt_eq_of_cover 2 (Cert.Spec.blk0 (V c main_v0) (V c main_v1)) (fun t _ => flushed0_eq V c t) (cover0)

end Cert.KernelIdeal.Hand

end
-- ==== Proof.KernelIdeal.Val1.lean ====
/-
  The value of region 1 (contraction length 3): after its 32 grid points the output array holds, at (n, i, u, v), the sum
  over the 3 components k of x₀(n, 3·i + k, u) · x₁(n, 3·i + k, v) times the constant, x₀ and x₁ being the two
  [2048, 24, 64] arrays the region was entered with.

  Slab i of a block is that function at the block's rows (`slab1_ok`), so the whole block is (`out1_2_apply`); the input
  blocks at point t are rows 64·t … 64·t+63 of the arrays (`iblk1_apply`), the output block goes back to the same rows
  (`flushed1_eq`), and the 32 blocks cover the array (`cover1`).
-/
import proofs.«168482_j7232724927058_1_alg».proof.Proof.KernelIdeal.Reg1
import proofs.«168482_j7232724927058_1_alg».proof.Proof.KernelIdeal.OpsValue
import proofs.«168482_j7232724927058_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- Row 3·i + k of a block lies inside it. -/
theorem inb1 (i : Nat) (hi : i < 8) (k : Nat) (hk : k < 3) :
    ∀ a, (![0, 3 * i + k, 0] : Fin 3 → Nat) a + S64x1x64.size a ≤ S64x24x64.size a := fun a => by
  match a with
  | ⟨0, _⟩ => show 0 + 64 ≤ 64; omega
  | ⟨1, _⟩ => show 3 * i + k + 1 ≤ 24; omega
  | ⟨2, _⟩ => show 0 + 64 ≤ 64; omega

/-- The block-level function: entry (n, i, u, v) from the two input blocks. -/
def bfun1 (x0 x1 : Vec Ideal S64x24x64 .f32) : S64x8x64x64.Idx → Elt Ideal .f32 := fun y =>
  (∑ k : Fin 3, x0 (ix3 (y 0) ⟨3 * (y 1).val + k.val, by have h : (y 1).val < 8 := (y 1).isLt; have hk := k.isLt; omega⟩ (y 2))
      * x1 (ix3 (y 0) ⟨3 * (y 1).val + k.val, by have h : (y 1).val < 8 := (y 1).isLt; have hk := k.isLt; omega⟩ (y 3)))
    * Ideal.ofBits .f32 0x3F13CD3A#32

/-- Slab i, at any of its entries, is the block-level function at that entry's place in the block. -/
theorem slab1_ok (x0 x1 : Vec Ideal S64x24x64 .f32) (i : Nat) (hi : i < 8)
    (inbs : ∀ a, (![0, i, 0, 0] : Fin 4 → Nat) a + S64x1x64x64.size a ≤ S64x8x64x64.size a) (x : S64x1x64x64.Idx) :
    scaled 0x3F13CD3A#32 (acc3 (View.ld x0 (Rect.unit (s := S64x24x64) ![0, 3 * i + 0, 0] S64x1x64.size (inb1 i hi 0 (by omega)))) (View.ld x1 (Rect.unit (s := S64x24x64) ![0, 3 * i + 0, 0] S64x1x64.size (inb1 i hi 0 (by omega))))
        (View.ld x0 (Rect.unit (s := S64x24x64) ![0, 3 * i + 1, 0] S64x1x64.size (inb1 i hi 1 (by omega)))) (View.ld x1 (Rect.unit (s := S64x24x64) ![0, 3 * i + 1, 0] S64x1x64.size (inb1 i hi 1 (by omega))))
        (View.ld x0 (Rect.unit (s := S64x24x64) ![0, 3 * i + 2, 0] S64x1x64.size (inb1 i hi 2 (by omega)))) (View.ld x1 (Rect.unit (s := S64x24x64) ![0, 3 * i + 2, 0] S64x1x64.size (inb1 i hi 2 (by omega))))) x
      = bfun1 x0 x1 ((Rect.unit (s := S64x8x64x64) ![0, i, 0, 0] S64x1x64x64.size inbs).emb x) := by
  obtain ⟨n, z, u, v, rfl⟩ : ∃ (n : Fin 64) (z : Fin 1) (u v : Fin 64), x = ix4 n z u v := ⟨x 0, x 1, x 2, x 3, eq_ix4 x⟩
  have hz : z.val < 1 := z.isLt
  have hemb : (Rect.unit (s := S64x8x64x64) ![0, i, 0, 0] S64x1x64x64.size inbs).emb (ix4 n z u v) = ix4 n (⟨i, hi⟩ : Fin 8) u v := by
    funext a; apply Fin.ext
    match a with
    | ⟨0, _⟩ => show 0 + 1 * n.val = n.val; omega
    | ⟨1, _⟩ => show i + 1 * z.val = i; omega
    | ⟨2, _⟩ => show 0 + 1 * u.val = u.val; omega
    | ⟨3, _⟩ => show 0 + 1 * v.val = v.val; omega
  rw [hemb, scaled_apply, acc3_apply,
    ld_row x0 (3 * i + 0) (by omega) _ n 0 u, ld_row x1 (3 * i + 0) (by omega) _ n 0 v,
    ld_row x0 (3 * i + 1) (by omega) _ n 0 u, ld_row x1 (3 * i + 1) (by omega) _ n 0 v,
    ld_row x0 (3 * i + 2) (by omega) _ n 0 u, ld_row x1 (3 * i + 2) (by omega) _ n 0 v]
  unfold bfun1
  rw [Fin.sum_univ_three]
  rfl

/-- THE BLOCK: what the body leaves in the output block, entry by entry. -/
theorem out1_2_apply (x0 x1 : Vec Ideal S64x24x64 .f32) (y : S64x8x64x64.Idx) : out1_2 x0 x1 y = bfun1 x0 x1 y := by
  unfold out1_2
  refine View.canon_apply_of_pieces (Val := Elt Ideal) (bfun1 x0 x1) _ (fun p hp x => ?_) y (cover1_2 _ _ _ _ _ _ _ _ y)
  simp only [List.mem_cons, List.mem_nil_iff, or_false] at hp
  rcases hp with rfl | rfl | rfl | rfl | rfl | rfl | rfl | rfl
  · exact slab1_ok x0 x1 7 (by decide) Gen.inb_S64x8x64x64_S64x1x64x64_0_7_0_0 x
  · exact slab1_ok x0 x1 6 (by decide) Gen.inb_S64x8x64x64_S64x1x64x64_0_6_0_0 x
  · exact slab1_ok x0 x1 5 (by decide) Gen.inb_S64x8x64x64_S64x1x64x64_0_5_0_0 x
  · exact slab1_ok x0 x1 4 (by decide) Gen.inb_S64x8x64x64_S64x1x64x64_0_4_0_0 x
  · exact slab1_ok x0 x1 3 (by decide) Gen.inb_S64x8x64x64_S64x1x64x64_0_3_0_0 x
  · exact slab1_ok x0 x1 2 (by decide) Gen.inb_S64x8x64x64_S64x1x64x64_0_2_0_0 x
  · exact slab1_ok x0 x1 1 (by decide) Gen.inb_S64x8x64x64_S64x1x64x64_0_1_0_0 x
  · exact slab1_ok x0 x1 0 (by decide) Gen.inb_S64x8x64x64_S64x1x64x64_0_0_0_0 x

/-- The printed index maps over the grid: every window's block index is (t, 0, …, 0). -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 4) = t.val ∧ win1_2.index t (1 : Fin 4) = 0 ∧ win1_2.index t (2 : Fin 4) = 0 ∧ win1_2.index t (3 : Fin 4) = 0 :=
  (by decide +kernel : ∀ t : Fin grid1.N, _)

variable (V : (c : Dev nD) → (b : Ref sig .tc) → Buf (Elt Ideal) ((c : Thread nD τ).loc b))

/-- The first operand's block at point t is rows 64·t … 64·t+63 of its array. -/
theorem iblk1_0_apply (c : Dev nD) (t : Fin cfg1.N) (x : S64x24x64.Idx) (k : S2048x24x64.Idx)
    (hk0 : (k 0).val = 64 * t.val + (x 0).val) (hk1 : (k 1).val = (x 1).val) (hk2 : (k 2).val = (x 2).val) :
    (iblk1 V c 0 t : Vec Ideal S64x24x64 .f32) x = (V c main_v3 : S2048x24x64.Idx → Elt Ideal .f32) k := by
  obtain ⟨e0, e1, e2, -⟩ := idx_facts1 t
  unfold iblk1
  rw [View.read_apply]
  show V c main_v3 _ = V c main_v3 _
  refine congrArg (V c main_v3) (funext fun a => Fin.ext ?_)
  match a with
  | ⟨0, _⟩ => show win1_0.index t (0 : Fin 3) * 64 + 1 * (x 0).val = (k 0).val; rw [e0, hk0]; omega
  | ⟨1, _⟩ => show win1_0.index t (1 : Fin 3) * 24 + 1 * (x 1).val = (k 1).val; rw [e1, hk1]; omega
  | ⟨2, _⟩ => show win1_0.index t (2 : Fin 3) * 64 + 1 * (x 2).val = (k 2).val; rw [e2, hk2]; omega

/-- The same for the second operand. -/
theorem iblk1_1_apply (c : Dev nD) (t : Fin cfg1.N) (x : S64x24x64.Idx) (k : S2048x24x64.Idx)
    (hk0 : (k 0).val = 64 * t.val + (x 0).val) (hk1 : (k 1).val = (x 1).val) (hk2 : (k 2).val = (x 2).val) :
    (iblk1 V c 1 t : Vec Ideal S64x24x64 .f32) x = (V c main_v4 : S2048x24x64.Idx → Elt Ideal .f32) k := by
  obtain ⟨-, -, -, e0, e1, e2, -⟩ := idx_facts1 t
  unfold iblk1
  rw [View.read_apply]
  show V c main_v4 _ = V c main_v4 _
  refine congrArg (V c main_v4) (funext fun a => Fin.ext ?_)
  match a with
  | ⟨0, _⟩ => show win1_1.index t (0 : Fin 3) * 64 + 1 * (x 0).val = (k 0).val; rw [e0, hk0]; omega
  | ⟨1, _⟩ => show win1_1.index t (1 : Fin 3) * 24 + 1 * (x 1).val = (k 1).val; rw [e1, hk1]; omega
  | ⟨2, _⟩ => show win1_1.index t (2 : Fin 3) * 64 + 1 * (x 2).val = (k 2).val; rw [e2, hk2]; omega

/-- WHAT POINT t WRITES BACK is block t of `blk1` of the two arrays as the region found them. -/
theorem flushed1_eq (c : Dev nD) (t : Fin cfg1.N) :
    (dat1 (F := Ideal) V c).flushed 2 t = ((cfg1.win 2).blk t).view.read (Elt Ideal) (Cert.Spec.blk1 (V c main_v3) (V c main_v4)) := by
  show (cfg1.win 2).cut (grid1.coords t) ((dat1 (F := Ideal) V c).after 2 t) = _
  rw [after1_2]
  obtain ⟨-, -, -, -, -, -, e0, e1, e2, e3⟩ := idx_facts1 t
  funext y
  show out1_2 (iblk1 V c 0 t) (iblk1 V c 1 t) y = Cert.Spec.blk1 (V c main_v3) (V c main_v4) (((cfg1.win 2).blk t).view.emb y)
  have h0 : ((((cfg1.win 2).blk t).view.emb y) 0).val = 64 * t.val + (y 0).val := by
    show win1_2.index t (0 : Fin 4) * 64 + 1 * (y 0).val = _; rw [e0]; omega
  have h1 : ((((cfg1.win 2).blk t).view.emb y) 1).val = (y 1).val := by
    show win1_2.index t (1 : Fin 4) * 8 + 1 * (y 1).val = _; rw [e1]; omega
  have h2 : ((((cfg1.win 2).blk t).view.emb y) 2).val = (y 2).val := by
    show win1_2.index t (2 : Fin 4) * 64 + 1 * (y 2).val = _; rw [e2]; omega
  have h3 : ((((cfg1.win 2).blk t).view.emb y) 3).val = (y 3).val := by
    show win1_2.index t (3 : Fin 4) * 64 + 1 * (y 3).val = _; rw [e3]; omega
  generalize (((cfg1.win 2).blk t).view.emb y) = q at h0 h1 h2 h3
  rw [out1_2_apply]
  unfold bfun1 Cert.Spec.blk1
  refine congrArg (· * Ideal.ofBits .f32 0x3F13CD3A#32) (Finset.sum_congr rfl fun k _ => ?_)
  refine congrArg₂ (· * ·) (iblk1_0_apply V c t _ _ ?_ ?_ ?_) (iblk1_1_apply V c t _ _ ?_ ?_ ?_)
  · show (q 0).val = 64 * t.val + (y 0).val; exact h0
  · show 3 * (q 1).val + k.val = 3 * (y 1).val + k.val; rw [h1]
  · show (q 2).val = (y 2).val; exact h2
  · show (q 0).val = 64 * t.val + (y 0).val; exact h0
  · show 3 * (q 1).val + k.val = 3 * (y 1).val + k.val; rw [h1]
  · show (q 3).val = (y 3).val; exact h3

/-- An index of the output array is in point t's block iff each coordinate is in the block's range on its axis. -/
theorem mem_blk1 (t : Fin cfg1.N) (i : S2048x8x64x64.Idx) :
    i ∈ ((cfg1.win 2).blk t).view.set ↔ ∀ a : Fin 4, win1_2.index t a * S64x8x64x64.size a ≤ (i a).val ∧ (i a).val < win1_2.index t a * S64x8x64x64.size a + S64x8x64x64.size a := by
  show i ∈ ((View.whole main_v5).slice (win1_2.rect t)).set ↔ _
  rw [View.set_slice_whole, Rect.mem_set_unit]
  exact Iff.rfl

/-- The 32 blocks cover the output array: row n is in the block of point n / 64. -/
theorem cover1 (i : S2048x8x64x64.Idx) : ∃ t : Fin cfg1.N, (cfg1.win 2).flush t = true ∧ i ∈ ((cfg1.win 2).blk t).view.set := by
  have hi0 : (i 0).val < 2048 := (i 0).isLt
  have hi1 : (i 1).val < 8 := (i 1).isLt
  have hi2 : (i 2).val < 64 := (i 2).isLt
  have hi3 : (i 3).val < 64 := (i 3).isLt
  refine ⟨⟨(i 0).val / 64, by rw [show cfg1.N = 32 from N_1]; omega⟩, flush1_2 _, ?_⟩
  rw [mem_blk1]
  obtain ⟨-, -, -, -, -, -, e0, e1, e2, e3⟩ := idx_facts1 ⟨(i 0).val / 64, by rw [show cfg1.N = 32 from N_1]; omega⟩
  intro a
  match a with
  | ⟨0, _⟩ => show win1_2.index _ (0 : Fin 4) * 64 ≤ (i 0).val ∧ (i 0).val < win1_2.index _ (0 : Fin 4) * 64 + 64; rw [e0]; show (i 0).val / 64 * 64 ≤ (i 0).val ∧ (i 0).val < (i 0).val / 64 * 64 + 64; omega
  | ⟨1, _⟩ => show win1_2.index _ (1 : Fin 4) * 8 ≤ (i 1).val ∧ (i 1).val < win1_2.index _ (1 : Fin 4) * 8 + 8; rw [e1]; omega
  | ⟨2, _⟩ => show win1_2.index _ (2 : Fin 4) * 64 ≤ (i 2).val ∧ (i 2).val < win1_2.index _ (2 : Fin 4) * 64 + 64; rw [e2]; omega
  | ⟨3, _⟩ => show win1_2.index _ (3 : Fin 4) * 64 ≤ (i 3).val ∧ (i 3).val < win1_2.index _ (3 : Fin 4) * 64 + 64; rw [e3]; omega

/-- THE REGION'S RESULT: after the 32 points the output array holds `blk1` of the two input arrays as the region found them. -/
theorem final1 (c : Dev nD) :
    (dat1 (F := Ideal) V c).arrAt 2 cfg1.N = Cert.Spec.blk1 (V c main_v3) (V c main_v4) :=
  (dat1 (F := Ideal) V c).arrAt_eq_of_cover 2 (Cert.Spec.blk1 (V c main_v3) (V c main_v4)) (fun t _ => flushed1_eq V c t) (cover1)

end Cert.KernelIdeal.Hand

end
-- ==== Proof.KernelIdeal.Val2.lean ====
/-
  The value of region 2 (contraction length 5): after its 32 grid points the output array holds, at (n, i, u, v), the sum
  over the 5 components k of x₀(n, 5·i + k, u) · x₁(n, 5·i + k, v) times the constant, x₀ and x₁ being the two
  [2048, 40, 64] arrays the region was entered with.

  Slab i of a block is that function at the block's rows (`slab2_ok`), so the whole block is (`out2_2_apply`); the input
  blocks at point t are rows 64·t … 64·t+63 of the arrays (`iblk2_apply`), the output block goes back to the same rows
  (`flushed2_eq`), and the 32 blocks cover the array (`cover2`).
-/
import proofs.«168482_j7232724927058_1_alg».proof.Proof.KernelIdeal.Reg2
import proofs.«168482_j7232724927058_1_alg».proof.Proof.KernelIdeal.OpsValue
import proofs.«168482_j7232724927058_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- Row 5·i + k of a block lies inside it. -/
theorem inb2 (i : Nat) (hi : i < 8) (k : Nat) (hk : k < 5) :
    ∀ a, (![0, 5 * i + k, 0] : Fin 3 → Nat) a + S64x1x64.size a ≤ S64x40x64.size a := fun a => by
  match a with
  | ⟨0, _⟩ => show 0 + 64 ≤ 64; omega
  | ⟨1, _⟩ => show 5 * i + k + 1 ≤ 40; omega
  | ⟨2, _⟩ => show 0 + 64 ≤ 64; omega

/-- The block-level function: entry (n, i, u, v) from the two input blocks. -/
def bfun2 (x0 x1 : Vec Ideal S64x40x64 .f32) : S64x8x64x64.Idx → Elt Ideal .f32 := fun y =>
  (∑ k : Fin 5, x0 (ix3 (y 0) ⟨5 * (y 1).val + k.val, by have h : (y 1).val < 8 := (y 1).isLt; have hk := k.isLt; omega⟩ (y 2))
      * x1 (ix3 (y 0) ⟨5 * (y 1).val + k.val, by have h : (y 1).val < 8 := (y 1).isLt; have hk := k.isLt; omega⟩ (y 3)))
    * Ideal.ofBits .f32 0x3EE4F92E#32

/-- Slab i, at any of its entries, is the block-level function at that entry's place in the block. -/
theorem slab2_ok (x0 x1 : Vec Ideal S64x40x64 .f32) (i : Nat) (hi : i < 8)
    (inbs : ∀ a, (![0, i, 0, 0] : Fin 4 → Nat) a + S64x1x64x64.size a ≤ S64x8x64x64.size a) (x : S64x1x64x64.Idx) :
    scaled 0x3EE4F92E#32 (acc5 (View.ld x0 (Rect.unit (s := S64x40x64) ![0, 5 * i + 0, 0] S64x1x64.size (inb2 i hi 0 (by omega)))) (View.ld x1 (Rect.unit (s := S64x40x64) ![0, 5 * i + 0, 0] S64x1x64.size (inb2 i hi 0 (by omega))))
        (View.ld x0 (Rect.unit (s := S64x40x64) ![0, 5 * i + 1, 0] S64x1x64.size (inb2 i hi 1 (by omega)))) (View.ld x1 (Rect.unit (s := S64x40x64) ![0, 5 * i + 1, 0] S64x1x64.size (inb2 i hi 1 (by omega))))
        (View.ld x0 (Rect.unit (s := S64x40x64) ![0, 5 * i + 2, 0] S64x1x64.size (inb2 i hi 2 (by omega)))) (View.ld x1 (Rect.unit (s := S64x40x64) ![0, 5 * i + 2, 0] S64x1x64.size (inb2 i hi 2 (by omega))))
        (View.ld x0 (Rect.unit (s := S64x40x64) ![0, 5 * i + 3, 0] S64x1x64.size (inb2 i hi 3 (by omega)))) (View.ld x1 (Rect.unit (s := S64x40x64) ![0, 5 * i + 3, 0] S64x1x64.size (inb2 i hi 3 (by omega))))
        (View.ld x0 (Rect.unit (s := S64x40x64) ![0, 5 * i + 4, 0] S64x1x64.size (inb2 i hi 4 (by omega)))) (View.ld x1 (Rect.unit (s := S64x40x64) ![0, 5 * i + 4, 0] S64x1x64.size (inb2 i hi 4 (by omega))))) x
      = bfun2 x0 x1 ((Rect.unit (s := S64x8x64x64) ![0, i, 0, 0] S64x1x64x64.size inbs).emb x) := by
  obtain ⟨n, z, u, v, rfl⟩ : ∃ (n : Fin 64) (z : Fin 1) (u v : Fin 64), x = ix4 n z u v := ⟨x 0, x 1, x 2, x 3, eq_ix4 x⟩
  have hz : z.val < 1 := z.isLt
  have hemb : (Rect.unit (s := S64x8x64x64) ![0, i, 0, 0] S64x1x64x64.size inbs).emb (ix4 n z u v) = ix4 n (⟨i, hi⟩ : Fin 8) u v := by
    funext a; apply Fin.ext
    match a with
    | ⟨0, _⟩ => show 0 + 1 * n.val = n.val; omega
    | ⟨1, _⟩ => show i + 1 * z.val = i; omega
    | ⟨2, _⟩ => show 0 + 1 * u.val = u.val; omega
    | ⟨3, _⟩ => show 0 + 1 * v.val = v.val; omega
  rw [hemb, scaled_apply, acc5_apply,
    ld_row x0 (5 * i + 0) (by omega) _ n 0 u, ld_row x1 (5 * i + 0) (by omega) _ n 0 v,
    ld_row x0 (5 * i + 1) (by omega) _ n 0 u, ld_row x1 (5 * i + 1) (by omega) _ n 0 v,
    ld_row x0 (5 * i + 2) (by omega) _ n 0 u, ld_row x1 (5 * i + 2) (by omega) _ n 0 v,
    ld_row x0 (5 * i + 3) (by omega) _ n 0 u, ld_row x1 (5 * i + 3) (by omega) _ n 0 v,
    ld_row x0 (5 * i + 4) (by omega) _ n 0 u, ld_row x1 (5 * i + 4) (by omega) _ n 0 v]
  unfold bfun2
  rw [Fin.sum_univ_five]
  rfl

/-- THE BLOCK: what the body leaves in the output block, entry by entry. -/
theorem out2_2_apply (x0 x1 : Vec Ideal S64x40x64 .f32) (y : S64x8x64x64.Idx) : out2_2 x0 x1 y = bfun2 x0 x1 y := by
  unfold out2_2
  refine View.canon_apply_of_pieces (Val := Elt Ideal) (bfun2 x0 x1) _ (fun p hp x => ?_) y (cover2_2 _ _ _ _ _ _ _ _ y)
  simp only [List.mem_cons, List.mem_nil_iff, or_false] at hp
  rcases hp with rfl | rfl | rfl | rfl | rfl | rfl | rfl | rfl
  · exact slab2_ok x0 x1 7 (by decide) Gen.inb_S64x8x64x64_S64x1x64x64_0_7_0_0 x
  · exact slab2_ok x0 x1 6 (by decide) Gen.inb_S64x8x64x64_S64x1x64x64_0_6_0_0 x
  · exact slab2_ok x0 x1 5 (by decide) Gen.inb_S64x8x64x64_S64x1x64x64_0_5_0_0 x
  · exact slab2_ok x0 x1 4 (by decide) Gen.inb_S64x8x64x64_S64x1x64x64_0_4_0_0 x
  · exact slab2_ok x0 x1 3 (by decide) Gen.inb_S64x8x64x64_S64x1x64x64_0_3_0_0 x
  · exact slab2_ok x0 x1 2 (by decide) Gen.inb_S64x8x64x64_S64x1x64x64_0_2_0_0 x
  · exact slab2_ok x0 x1 1 (by decide) Gen.inb_S64x8x64x64_S64x1x64x64_0_1_0_0 x
  · exact slab2_ok x0 x1 0 (by decide) Gen.inb_S64x8x64x64_S64x1x64x64_0_0_0_0 x

/-- The printed index maps over the grid: every window's block index is (t, 0, …, 0). -/
theorem idx_facts2 : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 4) = t.val ∧ win2_2.index t (1 : Fin 4) = 0 ∧ win2_2.index t (2 : Fin 4) = 0 ∧ win2_2.index t (3 : Fin 4) = 0 :=
  (by decide +kernel : ∀ t : Fin grid2.N, _)

variable (V : (c : Dev nD) → (b : Ref sig .tc) → Buf (Elt Ideal) ((c : Thread nD τ).loc b))

/-- The first operand's block at point t is rows 64·t … 64·t+63 of its array. -/
theorem iblk2_0_apply (c : Dev nD) (t : Fin cfg2.N) (x : S64x40x64.Idx) (k : S2048x40x64.Idx)
    (hk0 : (k 0).val = 64 * t.val + (x 0).val) (hk1 : (k 1).val = (x 1).val) (hk2 : (k 2).val = (x 2).val) :
    (iblk2 V c 0 t : Vec Ideal S64x40x64 .f32) x = (V c main_v6 : S2048x40x64.Idx → Elt Ideal .f32) k := by
  obtain ⟨e0, e1, e2, -⟩ := idx_facts2 t
  unfold iblk2
  rw [View.read_apply]
  show V c main_v6 _ = V c main_v6 _
  refine congrArg (V c main_v6) (funext fun a => Fin.ext ?_)
  match a with
  | ⟨0, _⟩ => show win2_0.index t (0 : Fin 3) * 64 + 1 * (x 0).val = (k 0).val; rw [e0, hk0]; omega
  | ⟨1, _⟩ => show win2_0.index t (1 : Fin 3) * 40 + 1 * (x 1).val = (k 1).val; rw [e1, hk1]; omega
  | ⟨2, _⟩ => show win2_0.index t (2 : Fin 3) * 64 + 1 * (x 2).val = (k 2).val; rw [e2, hk2]; omega

/-- The same for the second operand. -/
theorem iblk2_1_apply (c : Dev nD) (t : Fin cfg2.N) (x : S64x40x64.Idx) (k : S2048x40x64.Idx)
    (hk0 : (k 0).val = 64 * t.val + (x 0).val) (hk1 : (k 1).val = (x 1).val) (hk2 : (k 2).val = (x 2).val) :
    (iblk2 V c 1 t : Vec Ideal S64x40x64 .f32) x = (V c main_v7 : S2048x40x64.Idx → Elt Ideal .f32) k := by
  obtain ⟨-, -, -, e0, e1, e2, -⟩ := idx_facts2 t
  unfold iblk2
  rw [View.read_apply]
  show V c main_v7 _ = V c main_v7 _
  refine congrArg (V c main_v7) (funext fun a => Fin.ext ?_)
  match a with
  | ⟨0, _⟩ => show win2_1.index t (0 : Fin 3) * 64 + 1 * (x 0).val = (k 0).val; rw [e0, hk0]; omega
  | ⟨1, _⟩ => show win2_1.index t (1 : Fin 3) * 40 + 1 * (x 1).val = (k 1).val; rw [e1, hk1]; omega
  | ⟨2, _⟩ => show win2_1.index t (2 : Fin 3) * 64 + 1 * (x 2).val = (k 2).val; rw [e2, hk2]; omega

/-- WHAT POINT t WRITES BACK is block t of `blk2` of the two arrays as the region found them. -/
theorem flushed2_eq (c : Dev nD) (t : Fin cfg2.N) :
    (dat2 (F := Ideal) V c).flushed 2 t = ((cfg2.win 2).blk t).view.read (Elt Ideal) (Cert.Spec.blk2 (V c main_v6) (V c main_v7)) := by
  show (cfg2.win 2).cut (grid2.coords t) ((dat2 (F := Ideal) V c).after 2 t) = _
  rw [after2_2]
  obtain ⟨-, -, -, -, -, -, e0, e1, e2, e3⟩ := idx_facts2 t
  funext y
  show out2_2 (iblk2 V c 0 t) (iblk2 V c 1 t) y = Cert.Spec.blk2 (V c main_v6) (V c main_v7) (((cfg2.win 2).blk t).view.emb y)
  have h0 : ((((cfg2.win 2).blk t).view.emb y) 0).val = 64 * t.val + (y 0).val := by
    show win2_2.index t (0 : Fin 4) * 64 + 1 * (y 0).val = _; rw [e0]; omega
  have h1 : ((((cfg2.win 2).blk t).view.emb y) 1).val = (y 1).val := by
    show win2_2.index t (1 : Fin 4) * 8 + 1 * (y 1).val = _; rw [e1]; omega
  have h2 : ((((cfg2.win 2).blk t).view.emb y) 2).val = (y 2).val := by
    show win2_2.index t (2 : Fin 4) * 64 + 1 * (y 2).val = _; rw [e2]; omega
  have h3 : ((((cfg2.win 2).blk t).view.emb y) 3).val = (y 3).val := by
    show win2_2.index t (3 : Fin 4) * 64 + 1 * (y 3).val = _; rw [e3]; omega
  generalize (((cfg2.win 2).blk t).view.emb y) = q at h0 h1 h2 h3
  rw [out2_2_apply]
  unfold bfun2 Cert.Spec.blk2
  refine congrArg (· * Ideal.ofBits .f32 0x3EE4F92E#32) (Finset.sum_congr rfl fun k _ => ?_)
  refine congrArg₂ (· * ·) (iblk2_0_apply V c t _ _ ?_ ?_ ?_) (iblk2_1_apply V c t _ _ ?_ ?_ ?_)
  · show (q 0).val = 64 * t.val + (y 0).val; exact h0
  · show 5 * (q 1).val + k.val = 5 * (y 1).val + k.val; rw [h1]
  · show (q 2).val = (y 2).val; exact h2
  · show (q 0).val = 64 * t.val + (y 0).val; exact h0
  · show 5 * (q 1).val + k.val = 5 * (y 1).val + k.val; rw [h1]
  · show (q 3).val = (y 3).val; exact h3

/-- An index of the output array is in point t's block iff each coordinate is in the block's range on its axis. -/
theorem mem_blk2 (t : Fin cfg2.N) (i : S2048x8x64x64.Idx) :
    i ∈ ((cfg2.win 2).blk t).view.set ↔ ∀ a : Fin 4, win2_2.index t a * S64x8x64x64.size a ≤ (i a).val ∧ (i a).val < win2_2.index t a * S64x8x64x64.size a + S64x8x64x64.size a := by
  show i ∈ ((View.whole main_v8).slice (win2_2.rect t)).set ↔ _
  rw [View.set_slice_whole, Rect.mem_set_unit]
  exact Iff.rfl

/-- The 32 blocks cover the output array: row n is in the block of point n / 64. -/
theorem cover2 (i : S2048x8x64x64.Idx) : ∃ t : Fin cfg2.N, (cfg2.win 2).flush t = true ∧ i ∈ ((cfg2.win 2).blk t).view.set := by
  have hi0 : (i 0).val < 2048 := (i 0).isLt
  have hi1 : (i 1).val < 8 := (i 1).isLt
  have hi2 : (i 2).val < 64 := (i 2).isLt
  have hi3 : (i 3).val < 64 := (i 3).isLt
  refine ⟨⟨(i 0).val / 64, by rw [show cfg2.N = 32 from N_2]; omega⟩, flush2_2 _, ?_⟩
  rw [mem_blk2]
  obtain ⟨-, -, -, -, -, -, e0, e1, e2, e3⟩ := idx_facts2 ⟨(i 0).val / 64, by rw [show cfg2.N = 32 from N_2]; omega⟩
  intro a
  match a with
  | ⟨0, _⟩ => show win2_2.index _ (0 : Fin 4) * 64 ≤ (i 0).val ∧ (i 0).val < win2_2.index _ (0 : Fin 4) * 64 + 64; rw [e0]; show (i 0).val / 64 * 64 ≤ (i 0).val ∧ (i 0).val < (i 0).val / 64 * 64 + 64; omega
  | ⟨1, _⟩ => show win2_2.index _ (1 : Fin 4) * 8 ≤ (i 1).val ∧ (i 1).val < win2_2.index _ (1 : Fin 4) * 8 + 8; rw [e1]; omega
  | ⟨2, _⟩ => show win2_2.index _ (2 : Fin 4) * 64 ≤ (i 2).val ∧ (i 2).val < win2_2.index _ (2 : Fin 4) * 64 + 64; rw [e2]; omega
  | ⟨3, _⟩ => show win2_2.index _ (3 : Fin 4) * 64 ≤ (i 3).val ∧ (i 3).val < win2_2.index _ (3 : Fin 4) * 64 + 64; rw [e3]; omega

/-- THE REGION'S RESULT: after the 32 points the output array holds `blk2` of the two input arrays as the region found them. -/
theorem final2 (c : Dev nD) :
    (dat2 (F := Ideal) V c).arrAt 2 cfg2.N = Cert.Spec.blk2 (V c main_v6) (V c main_v7) :=
  (dat2 (F := Ideal) V c).arrAt_eq_of_cover 2 (Cert.Spec.blk2 (V c main_v6) (V c main_v7)) (fun t _ => flushed2_eq V c t) (cover2)

end Cert.KernelIdeal.Hand

end
-- ==== Proof.KernelIdeal.Val3.lean ====
/-
  The value of region 3 (contraction length 7): after its 32 grid points the output array holds, at (n, i, u, v), the sum
  over the 7 components k of x₀(n, 7·i + k, u) · x₁(n, 7·i + k, v) times the constant, x₀ and x₁ being the two
  [2048, 56, 64] arrays the region was entered with.

  Slab i of a block is that function at the block's rows (`slab3_ok`), so the whole block is (`out3_2_apply`); the input
  blocks at point t are rows 64·t … 64·t+63 of the arrays (`iblk3_apply`), the output block goes back to the same rows
  (`flushed3_eq`), and the 32 blocks cover the array (`cover3`).
-/
import proofs.«168482_j7232724927058_1_alg».proof.Proof.KernelIdeal.Reg3
import proofs.«168482_j7232724927058_1_alg».proof.Proof.KernelIdeal.OpsValue
import proofs.«168482_j7232724927058_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- Row 7·i + k of a block lies inside it. -/
theorem inb3 (i : Nat) (hi : i < 8) (k : Nat) (hk : k < 7) :
    ∀ a, (![0, 7 * i + k, 0] : Fin 3 → Nat) a + S64x1x64.size a ≤ S64x56x64.size a := fun a => by
  match a with
  | ⟨0, _⟩ => show 0 + 64 ≤ 64; omega
  | ⟨1, _⟩ => show 7 * i + k + 1 ≤ 56; omega
  | ⟨2, _⟩ => show 0 + 64 ≤ 64; omega

/-- The block-level function: entry (n, i, u, v) from the two input blocks. -/
def bfun3 (x0 x1 : Vec Ideal S64x56x64 .f32) : S64x8x64x64.Idx → Elt Ideal .f32 := fun y =>
  (∑ k : Fin 7, x0 (ix3 (y 0) ⟨7 * (y 1).val + k.val, by have h : (y 1).val < 8 := (y 1).isLt; have hk := k.isLt; omega⟩ (y 2))
      * x1 (ix3 (y 0) ⟨7 * (y 1).val + k.val, by have h : (y 1).val < 8 := (y 1).isLt; have hk := k.isLt; omega⟩ (y 3)))
    * Ideal.ofBits .f32 0x3EC1848F#32

/-- Slab i, at any of its entries, is the block-level function at that entry's place in the block. -/
theorem slab3_ok (x0 x1 : Vec Ideal S64x56x64 .f32) (i : Nat) (hi : i < 8)
    (inbs : ∀ a, (![0, i, 0, 0] : Fin 4 → Nat) a + S64x1x64x64.size a ≤ S64x8x64x64.size a) (x : S64x1x64x64.Idx) :
    scaled 0x3EC1848F#32 (acc7 (View.ld x0 (Rect.unit (s := S64x56x64) ![0, 7 * i + 0, 0] S64x1x64.size (inb3 i hi 0 (by omega)))) (View.ld x1 (Rect.unit (s := S64x56x64) ![0, 7 * i + 0, 0] S64x1x64.size (inb3 i hi 0 (by omega))))
        (View.ld x0 (Rect.unit (s := S64x56x64) ![0, 7 * i + 1, 0] S64x1x64.size (inb3 i hi 1 (by omega)))) (View.ld x1 (Rect.unit (s := S64x56x64) ![0, 7 * i + 1, 0] S64x1x64.size (inb3 i hi 1 (by omega))))
        (View.ld x0 (Rect.unit (s := S64x56x64) ![0, 7 * i + 2, 0] S64x1x64.size (inb3 i hi 2 (by omega)))) (View.ld x1 (Rect.unit (s := S64x56x64) ![0, 7 * i + 2, 0] S64x1x64.size (inb3 i hi 2 (by omega))))
        (View.ld x0 (Rect.unit (s := S64x56x64) ![0, 7 * i + 3, 0] S64x1x64.size (inb3 i hi 3 (by omega)))) (View.ld x1 (Rect.unit (s := S64x56x64) ![0, 7 * i + 3, 0] S64x1x64.size (inb3 i hi 3 (by omega))))
        (View.ld x0 (Rect.unit (s := S64x56x64) ![0, 7 * i + 4, 0] S64x1x64.size (inb3 i hi 4 (by omega)))) (View.ld x1 (Rect.unit (s := S64x56x64) ![0, 7 * i + 4, 0] S64x1x64.size (inb3 i hi 4 (by omega))))
        (View.ld x0 (Rect.unit (s := S64x56x64) ![0, 7 * i + 5, 0] S64x1x64.size (inb3 i hi 5 (by omega)))) (View.ld x1 (Rect.unit (s := S64x56x64) ![0, 7 * i + 5, 0] S64x1x64.size (inb3 i hi 5 (by omega))))
        (View.ld x0 (Rect.unit (s := S64x56x64) ![0, 7 * i + 6, 0] S64x1x64.size (inb3 i hi 6 (by omega)))) (View.ld x1 (Rect.unit (s := S64x56x64) ![0, 7 * i + 6, 0] S64x1x64.size (inb3 i hi 6 (by omega))))) x
      = bfun3 x0 x1 ((Rect.unit (s := S64x8x64x64) ![0, i, 0, 0] S64x1x64x64.size inbs).emb x) := by
  obtain ⟨n, z, u, v, rfl⟩ : ∃ (n : Fin 64) (z : Fin 1) (u v : Fin 64), x = ix4 n z u v := ⟨x 0, x 1, x 2, x 3, eq_ix4 x⟩
  have hz : z.val < 1 := z.isLt
  have hemb : (Rect.unit (s := S64x8x64x64) ![0, i, 0, 0] S64x1x64x64.size inbs).emb (ix4 n z u v) = ix4 n (⟨i, hi⟩ : Fin 8) u v := by
    funext a; apply Fin.ext
    match a with
    | ⟨0, _⟩ => show 0 + 1 * n.val = n.val; omega
    | ⟨1, _⟩ => show i + 1 * z.val = i; omega
    | ⟨2, _⟩ => show 0 + 1 * u.val = u.val; omega
    | ⟨3, _⟩ => show 0 + 1 * v.val = v.val; omega
  rw [hemb, scaled_apply, acc7_apply,
    ld_row x0 (7 * i + 0) (by omega) _ n 0 u, ld_row x1 (7 * i + 0) (by omega) _ n 0 v,
    ld_row x0 (7 * i + 1) (by omega) _ n 0 u, ld_row x1 (7 * i + 1) (by omega) _ n 0 v,
    ld_row x0 (7 * i + 2) (by omega) _ n 0 u, ld_row x1 (7 * i + 2) (by omega) _ n 0 v,
    ld_row x0 (7 * i + 3) (by omega) _ n 0 u, ld_row x1 (7 * i + 3) (by omega) _ n 0 v,
    ld_row x0 (7 * i + 4) (by omega) _ n 0 u, ld_row x1 (7 * i + 4) (by omega) _ n 0 v,
    ld_row x0 (7 * i + 5) (by omega) _ n 0 u, ld_row x1 (7 * i + 5) (by omega) _ n 0 v,
    ld_row x0 (7 * i + 6) (by omega) _ n 0 u, ld_row x1 (7 * i + 6) (by omega) _ n 0 v]
  unfold bfun3
  rw [Fin.sum_univ_seven]
  rfl

/-- THE BLOCK: what the body leaves in the output block, entry by entry. -/
theorem out3_2_apply (x0 x1 : Vec Ideal S64x56x64 .f32) (y : S64x8x64x64.Idx) : out3_2 x0 x1 y = bfun3 x0 x1 y := by
  unfold out3_2
  refine View.canon_apply_of_pieces (Val := Elt Ideal) (bfun3 x0 x1) _ (fun p hp x => ?_) y (cover3_2 _ _ _ _ _ _ _ _ y)
  simp only [List.mem_cons, List.mem_nil_iff, or_false] at hp
  rcases hp with rfl | rfl | rfl | rfl | rfl | rfl | rfl | rfl
  · exact slab3_ok x0 x1 7 (by decide) Gen.inb_S64x8x64x64_S64x1x64x64_0_7_0_0 x
  · exact slab3_ok x0 x1 6 (by decide) Gen.inb_S64x8x64x64_S64x1x64x64_0_6_0_0 x
  · exact slab3_ok x0 x1 5 (by decide) Gen.inb_S64x8x64x64_S64x1x64x64_0_5_0_0 x
  · exact slab3_ok x0 x1 4 (by decide) Gen.inb_S64x8x64x64_S64x1x64x64_0_4_0_0 x
  · exact slab3_ok x0 x1 3 (by decide) Gen.inb_S64x8x64x64_S64x1x64x64_0_3_0_0 x
  · exact slab3_ok x0 x1 2 (by decide) Gen.inb_S64x8x64x64_S64x1x64x64_0_2_0_0 x
  · exact slab3_ok x0 x1 1 (by decide) Gen.inb_S64x8x64x64_S64x1x64x64_0_1_0_0 x
  · exact slab3_ok x0 x1 0 (by decide) Gen.inb_S64x8x64x64_S64x1x64x64_0_0_0_0 x

/-- The printed index maps over the grid: every window's block index is (t, 0, …, 0). -/
theorem idx_facts3 : ∀ t : Fin cfg3.N,
    win3_0.index t (0 : Fin 3) = t.val ∧ win3_0.index t (1 : Fin 3) = 0 ∧ win3_0.index t (2 : Fin 3) = 0
    ∧ win3_1.index t (0 : Fin 3) = t.val ∧ win3_1.index t (1 : Fin 3) = 0 ∧ win3_1.index t (2 : Fin 3) = 0
    ∧ win3_2.index t (0 : Fin 4) = t.val ∧ win3_2.index t (1 : Fin 4) = 0 ∧ win3_2.index t (2 : Fin 4) = 0 ∧ win3_2.index t (3 : Fin 4) = 0 :=
  (by decide +kernel : ∀ t : Fin grid3.N, _)

variable (V : (c : Dev nD) → (b : Ref sig .tc) → Buf (Elt Ideal) ((c : Thread nD τ).loc b))

/-- The first operand's block at point t is rows 64·t … 64·t+63 of its array. -/
theorem iblk3_0_apply (c : Dev nD) (t : Fin cfg3.N) (x : S64x56x64.Idx) (k : S2048x56x64.Idx)
    (hk0 : (k 0).val = 64 * t.val + (x 0).val) (hk1 : (k 1).val = (x 1).val) (hk2 : (k 2).val = (x 2).val) :
    (iblk3 V c 0 t : Vec Ideal S64x56x64 .f32) x = (V c main_v9 : S2048x56x64.Idx → Elt Ideal .f32) k := by
  obtain ⟨e0, e1, e2, -⟩ := idx_facts3 t
  unfold iblk3
  rw [View.read_apply]
  show V c main_v9 _ = V c main_v9 _
  refine congrArg (V c main_v9) (funext fun a => Fin.ext ?_)
  match a with
  | ⟨0, _⟩ => show win3_0.index t (0 : Fin 3) * 64 + 1 * (x 0).val = (k 0).val; rw [e0, hk0]; omega
  | ⟨1, _⟩ => show win3_0.index t (1 : Fin 3) * 56 + 1 * (x 1).val = (k 1).val; rw [e1, hk1]; omega
  | ⟨2, _⟩ => show win3_0.index t (2 : Fin 3) * 64 + 1 * (x 2).val = (k 2).val; rw [e2, hk2]; omega

/-- The same for the second operand. -/
theorem iblk3_1_apply (c : Dev nD) (t : Fin cfg3.N) (x : S64x56x64.Idx) (k : S2048x56x64.Idx)
    (hk0 : (k 0).val = 64 * t.val + (x 0).val) (hk1 : (k 1).val = (x 1).val) (hk2 : (k 2).val = (x 2).val) :
    (iblk3 V c 1 t : Vec Ideal S64x56x64 .f32) x = (V c main_v10 : S2048x56x64.Idx → Elt Ideal .f32) k := by
  obtain ⟨-, -, -, e0, e1, e2, -⟩ := idx_facts3 t
  unfold iblk3
  rw [View.read_apply]
  show V c main_v10 _ = V c main_v10 _
  refine congrArg (V c main_v10) (funext fun a => Fin.ext ?_)
  match a with
  | ⟨0, _⟩ => show win3_1.index t (0 : Fin 3) * 64 + 1 * (x 0).val = (k 0).val; rw [e0, hk0]; omega
  | ⟨1, _⟩ => show win3_1.index t (1 : Fin 3) * 56 + 1 * (x 1).val = (k 1).val; rw [e1, hk1]; omega
  | ⟨2, _⟩ => show win3_1.index t (2 : Fin 3) * 64 + 1 * (x 2).val = (k 2).val; rw [e2, hk2]; omega

/-- WHAT POINT t WRITES BACK is block t of `blk3` of the two arrays as the region found them. -/
theorem flushed3_eq (c : Dev nD) (t : Fin cfg3.N) :
    (dat3 (F := Ideal) V c).flushed 2 t = ((cfg3.win 2).blk t).view.read (Elt Ideal) (Cert.Spec.blk3 (V c main_v9) (V c main_v10)) := by
  show (cfg3.win 2).cut (grid3.coords t) ((dat3 (F := Ideal) V c).after 2 t) = _
  rw [after3_2]
  obtain ⟨-, -, -, -, -, -, e0, e1, e2, e3⟩ := idx_facts3 t
  funext y
  show out3_2 (iblk3 V c 0 t) (iblk3 V c 1 t) y = Cert.Spec.blk3 (V c main_v9) (V c main_v10) (((cfg3.win 2).blk t).view.emb y)
  have h0 : ((((cfg3.win 2).blk t).view.emb y) 0).val = 64 * t.val + (y 0).val := by
    show win3_2.index t (0 : Fin 4) * 64 + 1 * (y 0).val = _; rw [e0]; omega
  have h1 : ((((cfg3.win 2).blk t).view.emb y) 1).val = (y 1).val := by
    show win3_2.index t (1 : Fin 4) * 8 + 1 * (y 1).val = _; rw [e1]; omega
  have h2 : ((((cfg3.win 2).blk t).view.emb y) 2).val = (y 2).val := by
    show win3_2.index t (2 : Fin 4) * 64 + 1 * (y 2).val = _; rw [e2]; omega
  have h3 : ((((cfg3.win 2).blk t).view.emb y) 3).val = (y 3).val := by
    show win3_2.index t (3 : Fin 4) * 64 + 1 * (y 3).val = _; rw [e3]; omega
  generalize (((cfg3.win 2).blk t).view.emb y) = q at h0 h1 h2 h3
  rw [out3_2_apply]
  unfold bfun3 Cert.Spec.blk3
  refine congrArg (· * Ideal.ofBits .f32 0x3EC1848F#32) (Finset.sum_congr rfl fun k _ => ?_)
  refine congrArg₂ (· * ·) (iblk3_0_apply V c t _ _ ?_ ?_ ?_) (iblk3_1_apply V c t _ _ ?_ ?_ ?_)
  · show (q 0).val = 64 * t.val + (y 0).val; exact h0
  · show 7 * (q 1).val + k.val = 7 * (y 1).val + k.val; rw [h1]
  · show (q 2).val = (y 2).val; exact h2
  · show (q 0).val = 64 * t.val + (y 0).val; exact h0
  · show 7 * (q 1).val + k.val = 7 * (y 1).val + k.val; rw [h1]
  · show (q 3).val = (y 3).val; exact h3

/-- An index of the output array is in point t's block iff each coordinate is in the block's range on its axis. -/
theorem mem_blk3 (t : Fin cfg3.N) (i : S2048x8x64x64.Idx) :
    i ∈ ((cfg3.win 2).blk t).view.set ↔ ∀ a : Fin 4, win3_2.index t a * S64x8x64x64.size a ≤ (i a).val ∧ (i a).val < win3_2.index t a * S64x8x64x64.size a + S64x8x64x64.size a := by
  show i ∈ ((View.whole main_v11).slice (win3_2.rect t)).set ↔ _
  rw [View.set_slice_whole, Rect.mem_set_unit]
  exact Iff.rfl

/-- The 32 blocks cover the output array: row n is in the block of point n / 64. -/
theorem cover3 (i : S2048x8x64x64.Idx) : ∃ t : Fin cfg3.N, (cfg3.win 2).flush t = true ∧ i ∈ ((cfg3.win 2).blk t).view.set := by
  have hi0 : (i 0).val < 2048 := (i 0).isLt
  have hi1 : (i 1).val < 8 := (i 1).isLt
  have hi2 : (i 2).val < 64 := (i 2).isLt
  have hi3 : (i 3).val < 64 := (i 3).isLt
  refine ⟨⟨(i 0).val / 64, by rw [show cfg3.N = 32 from N_3]; omega⟩, flush3_2 _, ?_⟩
  rw [mem_blk3]
  obtain ⟨-, -, -, -, -, -, e0, e1, e2, e3⟩ := idx_facts3 ⟨(i 0).val / 64, by rw [show cfg3.N = 32 from N_3]; omega⟩
  intro a
  match a with
  | ⟨0, _⟩ => show win3_2.index _ (0 : Fin 4) * 64 ≤ (i 0).val ∧ (i 0).val < win3_2.index _ (0 : Fin 4) * 64 + 64; rw [e0]; show (i 0).val / 64 * 64 ≤ (i 0).val ∧ (i 0).val < (i 0).val / 64 * 64 + 64; omega
  | ⟨1, _⟩ => show win3_2.index _ (1 : Fin 4) * 8 ≤ (i 1).val ∧ (i 1).val < win3_2.index _ (1 : Fin 4) * 8 + 8; rw [e1]; omega
  | ⟨2, _⟩ => show win3_2.index _ (2 : Fin 4) * 64 ≤ (i 2).val ∧ (i 2).val < win3_2.index _ (2 : Fin 4) * 64 + 64; rw [e2]; omega
  | ⟨3, _⟩ => show win3_2.index _ (3 : Fin 4) * 64 ≤ (i 3).val ∧ (i 3).val < win3_2.index _ (3 : Fin 4) * 64 + 64; rw [e3]; omega

/-- THE REGION'S RESULT: after the 32 points the output array holds `blk3` of the two input arrays as the region found them. -/
theorem final3 (c : Dev nD) :
    (dat3 (F := Ideal) V c).arrAt 2 cfg3.N = Cert.Spec.blk3 (V c main_v9) (V c main_v10) :=
  (dat3 (F := Ideal) V c).arrAt_eq_of_cover 2 (Cert.Spec.blk3 (V c main_v9) (V c main_v10)) (fun t _ => flushed3_eq V c t) (cover3)

end Cert.KernelIdeal.Hand

end
-- ==== Proof.KernelIdeal.Value.lean ====
/-
  The value of the whole run at the ideal instance: the result array ends at the join, along axis 1, of the four groups'
  results (`Cert.Spec.grp0` … `grp3` of the two arguments).

  Each region is entered with the two slices of the arguments its host stretch made (`entryK`: no earlier item writes an
  argument), so by the region's value (`finalK`) its output array holds the group's result; no later item writes that
  array before the last stretch joins the four (`W8_vK`, `W9_result`).
-/
import proofs.«168482_j7232724927058_1_alg».proof.Proof.KernelIdeal.Run
import proofs.«168482_j7232724927058_1_alg».proof.Proof.KernelIdeal.Val0
import proofs.«168482_j7232724927058_1_alg».proof.Proof.KernelIdeal.Val1
import proofs.«168482_j7232724927058_1_alg».proof.Proof.KernelIdeal.Val2
import proofs.«168482_j7232724927058_1_alg».proof.Proof.KernelIdeal.Val3
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result both programs end with: the four groups' results joined along the multiplicity axis. -/
def result (a0 a1 : Cert.Spec.SA.Idx → EReal) : S2048x32x64x64.Idx → EReal :=
  concatenate S2048x32x64x64 1 [⟨S2048x8x64x64, Cert.Spec.grp0 a0 a1⟩, ⟨S2048x8x64x64, Cert.Spec.grp1 a0 a1⟩, ⟨S2048x8x64x64, Cert.Spec.grp2 a0 a1⟩, ⟨S2048x8x64x64, Cert.Spec.grp3 a0 a1⟩]
    Gen.concatenates_S2048x8x64x64_S2048x8x64x64_S2048x8x64x64_S2048x8x64x64_S2048x32x64x64_d1

/-! ## An argument is still at its launch contents when each stretch slices it -/

theorem W2_arg (c : Dev nD) (b : Ref sig .tc) (h0 : b ∉ hostOps0_W) (a0 : ∀ w, Pipeline.arrRef spec0 w ≠ b) :
    W2 m ρ c (Proc.devRef .tc b) = m ((c : Thread nD τ).loc b) :=
  (W2_of_ne m ρ c b a0).trans (StableHlo.after_of_writes_sub hostOps0 _ hostOps0_writes h0)
theorem W4_arg (c : Dev nD) (b : Ref sig .tc) (h0 : b ∉ hostOps0_W) (h1 : b ∉ hostOps1_W) (a0 : ∀ w, Pipeline.arrRef spec0 w ≠ b) (a1 : ∀ w, Pipeline.arrRef spec1 w ≠ b) :
    W4 m ρ c (Proc.devRef .tc b) = m ((c : Thread nD τ).loc b) :=
  (W4_of_ne m ρ c b a1).trans ((StableHlo.after_of_writes_sub hostOps1 _ hostOps1_writes h1).trans (W2_arg m ρ c b h0 a0))
theorem W6_arg (c : Dev nD) (b : Ref sig .tc) (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b) :
    W6 m ρ c (Proc.devRef .tc b) = m ((c : Thread nD τ).loc b) :=
  (W6_of_ne m ρ c b a2).trans ((StableHlo.after_of_writes_sub hostOps2 _ hostOps2_writes h2).trans (W4_arg m ρ c b h0 h1 a0 a1))

/-! ## What each region is entered with: the group's rows of the two arguments -/

/-- A slice of rows 0 … 7 is `slc0`. -/
theorem slice0_eq (a : S2048x128x64.Idx → Elt Ideal .f32) :
    extractStridedSlice S2048x8x64 ![0, 0, 0] a Gen.slices_S2048x128x64_S2048x8x64_0_0_0 = Cert.Spec.slc0 a := by
  funext i
  refine extractStridedSlice_apply ![0, 0, 0] a Gen.slices_S2048x128x64_S2048x8x64_0_0_0 i _ (fun ax => ?_)
  match ax with
  | ⟨0, _⟩ => show (i 0).val = 0 + (i 0).val; omega
  | ⟨1, _⟩ => show 0 + (i 1).val = 0 + (i 1).val; rfl
  | ⟨2, _⟩ => show (i 2).val = 0 + (i 2).val; omega

theorem entry0_0 (c : Dev nD) : V1 m ρ c main_v0 = Cert.Spec.slc0 (m ((c : Thread nD τ).loc main_arg0)) := by
  have e : W1 m ρ c (Proc.devRef .tc main_v0) = extractStridedSlice S2048x8x64 ![0, 0, 0] (W0 m ρ c (Proc.devRef .tc main_arg0)) Gen.slices_S2048x128x64_S2048x8x64_0_0_0 := by
    show StableHlo.after hostOps0 (W0 m ρ c) (Proc.devRef .tc main_v0) = _
    after_results
  show W1 m ρ c (Proc.devRef .tc main_v0) = _
  rw [e, show W0 m ρ c (Proc.devRef .tc main_arg0) = m ((c : Thread nD τ).loc main_arg0) from rfl]
  exact slice0_eq _
theorem entry0_1 (c : Dev nD) : V1 m ρ c main_v1 = Cert.Spec.slc0 (m ((c : Thread nD τ).loc main_arg1)) := by
  have e : W1 m ρ c (Proc.devRef .tc main_v1) = extractStridedSlice S2048x8x64 ![0, 0, 0] (W0 m ρ c (Proc.devRef .tc main_arg1)) Gen.slices_S2048x128x64_S2048x8x64_0_0_0 := by
    show StableHlo.after hostOps0 (W0 m ρ c) (Proc.devRef .tc main_v1) = _
    after_results
  show W1 m ρ c (Proc.devRef .tc main_v1) = _
  rw [e, show W0 m ρ c (Proc.devRef .tc main_arg1) = m ((c : Thread nD τ).loc main_arg1) from rfl]
  exact slice0_eq _

/-- Region 0 leaves the group's result in its output array. -/
theorem out0_grp (c : Dev nD) : W2 m ρ c (Proc.devRef .tc main_v2) = Cert.Spec.grp0 (m ((c : Thread nD τ).loc main_arg0)) (m ((c : Thread nD τ).loc main_arg1)) := by
  refine (W2_arr m ρ c 2).trans ((final0 (V1 m ρ) c).trans ?_)
  rw [entry0_0, entry0_1]
  rfl

/-- A slice of rows 8 … 31 is `slc1`. -/
theorem slice1_eq (a : S2048x128x64.Idx → Elt Ideal .f32) :
    extractStridedSlice S2048x24x64 ![0, 8, 0] a Gen.slices_S2048x128x64_S2048x24x64_0_8_0 = Cert.Spec.slc1 a := by
  funext i
  refine extractStridedSlice_apply ![0, 8, 0] a Gen.slices_S2048x128x64_S2048x24x64_0_8_0 i _ (fun ax => ?_)
  match ax with
  | ⟨0, _⟩ => show (i 0).val = 0 + (i 0).val; omega
  | ⟨1, _⟩ => show 8 + (i 1).val = 8 + (i 1).val; rfl
  | ⟨2, _⟩ => show (i 2).val = 0 + (i 2).val; omega

theorem entry1_0 (c : Dev nD) : V3 m ρ c main_v3 = Cert.Spec.slc1 (m ((c : Thread nD τ).loc main_arg0)) := by
  have e : W3 m ρ c (Proc.devRef .tc main_v3) = extractStridedSlice S2048x24x64 ![0, 8, 0] (W2 m ρ c (Proc.devRef .tc main_arg0)) Gen.slices_S2048x128x64_S2048x24x64_0_8_0 := by
    show StableHlo.after hostOps1 (W2 m ρ c) (Proc.devRef .tc main_v3) = _
    after_results
  show W3 m ρ c (Proc.devRef .tc main_v3) = _
  rw [e, show W2 m ρ c (Proc.devRef .tc main_arg0) = m ((c : Thread nD τ).loc main_arg0) from W2_arg m ρ c main_arg0 (by decide) (by decide)]
  exact slice1_eq _
theorem entry1_1 (c : Dev nD) : V3 m ρ c main_v4 = Cert.Spec.slc1 (m ((c : Thread nD τ).loc main_arg1)) := by
  have e : W3 m ρ c (Proc.devRef .tc main_v4) = extractStridedSlice S2048x24x64 ![0, 8, 0] (W2 m ρ c (Proc.devRef .tc main_arg1)) Gen.slices_S2048x128x64_S2048x24x64_0_8_0 := by
    show StableHlo.after hostOps1 (W2 m ρ c) (Proc.devRef .tc main_v4) = _
    after_results
  show W3 m ρ c (Proc.devRef .tc main_v4) = _
  rw [e, show W2 m ρ c (Proc.devRef .tc main_arg1) = m ((c : Thread nD τ).loc main_arg1) from W2_arg m ρ c main_arg1 (by decide) (by decide)]
  exact slice1_eq _

/-- Region 1 leaves the group's result in its output array. -/
theorem out1_grp (c : Dev nD) : W4 m ρ c (Proc.devRef .tc main_v5) = Cert.Spec.grp1 (m ((c : Thread nD τ).loc main_arg0)) (m ((c : Thread nD τ).loc main_arg1)) := by
  refine (W4_arr m ρ c 2).trans ((final1 (V3 m ρ) c).trans ?_)
  rw [entry1_0, entry1_1]
  rfl

/-- A slice of rows 32 … 71 is `slc2`. -/
theorem slice2_eq (a : S2048x128x64.Idx → Elt Ideal .f32) :
    extractStridedSlice S2048x40x64 ![0, 32, 0] a Gen.slices_S2048x128x64_S2048x40x64_0_32_0 = Cert.Spec.slc2 a := by
  funext i
  refine extractStridedSlice_apply ![0, 32, 0] a Gen.slices_S2048x128x64_S2048x40x64_0_32_0 i _ (fun ax => ?_)
  match ax with
  | ⟨0, _⟩ => show (i 0).val = 0 + (i 0).val; omega
  | ⟨1, _⟩ => show 32 + (i 1).val = 32 + (i 1).val; rfl
  | ⟨2, _⟩ => show (i 2).val = 0 + (i 2).val; omega

theorem entry2_0 (c : Dev nD) : V5 m ρ c main_v6 = Cert.Spec.slc2 (m ((c : Thread nD τ).loc main_arg0)) := by
  have e : W5 m ρ c (Proc.devRef .tc main_v6) = extractStridedSlice S2048x40x64 ![0, 32, 0] (W4 m ρ c (Proc.devRef .tc main_arg0)) Gen.slices_S2048x128x64_S2048x40x64_0_32_0 := by
    show StableHlo.after hostOps2 (W4 m ρ c) (Proc.devRef .tc main_v6) = _
    after_results
  show W5 m ρ c (Proc.devRef .tc main_v6) = _
  rw [e, show W4 m ρ c (Proc.devRef .tc main_arg0) = m ((c : Thread nD τ).loc main_arg0) from W4_arg m ρ c main_arg0 (by decide) (by decide) (by decide) (by decide)]
  exact slice2_eq _
theorem entry2_1 (c : Dev nD) : V5 m ρ c main_v7 = Cert.Spec.slc2 (m ((c : Thread nD τ).loc main_arg1)) := by
  have e : W5 m ρ c (Proc.devRef .tc main_v7) = extractStridedSlice S2048x40x64 ![0, 32, 0] (W4 m ρ c (Proc.devRef .tc main_arg1)) Gen.slices_S2048x128x64_S2048x40x64_0_32_0 := by
    show StableHlo.after hostOps2 (W4 m ρ c) (Proc.devRef .tc main_v7) = _
    after_results
  show W5 m ρ c (Proc.devRef .tc main_v7) = _
  rw [e, show W4 m ρ c (Proc.devRef .tc main_arg1) = m ((c : Thread nD τ).loc main_arg1) from W4_arg m ρ c main_arg1 (by decide) (by decide) (by decide) (by decide)]
  exact slice2_eq _

/-- Region 2 leaves the group's result in its output array. -/
theorem out2_grp (c : Dev nD) : W6 m ρ c (Proc.devRef .tc main_v8) = Cert.Spec.grp2 (m ((c : Thread nD τ).loc main_arg0)) (m ((c : Thread nD τ).loc main_arg1)) := by
  refine (W6_arr m ρ c 2).trans ((final2 (V5 m ρ) c).trans ?_)
  rw [entry2_0, entry2_1]
  rfl

/-- A slice of rows 72 … 127 is `slc3`. -/
theorem slice3_eq (a : S2048x128x64.Idx → Elt Ideal .f32) :
    extractStridedSlice S2048x56x64 ![0, 72, 0] a Gen.slices_S2048x128x64_S2048x56x64_0_72_0 = Cert.Spec.slc3 a := by
  funext i
  refine extractStridedSlice_apply ![0, 72, 0] a Gen.slices_S2048x128x64_S2048x56x64_0_72_0 i _ (fun ax => ?_)
  match ax with
  | ⟨0, _⟩ => show (i 0).val = 0 + (i 0).val; omega
  | ⟨1, _⟩ => show 72 + (i 1).val = 72 + (i 1).val; rfl
  | ⟨2, _⟩ => show (i 2).val = 0 + (i 2).val; omega

theorem entry3_0 (c : Dev nD) : V7 m ρ c main_v9 = Cert.Spec.slc3 (m ((c : Thread nD τ).loc main_arg0)) := by
  have e : W7 m ρ c (Proc.devRef .tc main_v9) = extractStridedSlice S2048x56x64 ![0, 72, 0] (W6 m ρ c (Proc.devRef .tc main_arg0)) Gen.slices_S2048x128x64_S2048x56x64_0_72_0 := by
    show StableHlo.after hostOps3 (W6 m ρ c) (Proc.devRef .tc main_v9) = _
    after_results
  show W7 m ρ c (Proc.devRef .tc main_v9) = _
  rw [e, show W6 m ρ c (Proc.devRef .tc main_arg0) = m ((c : Thread nD τ).loc main_arg0) from W6_arg m ρ c main_arg0 (by decide) (by decide) (by decide) (by decide) (by decide) (by decide)]
  exact slice3_eq _
theorem entry3_1 (c : Dev nD) : V7 m ρ c main_v10 = Cert.Spec.slc3 (m ((c : Thread nD τ).loc main_arg1)) := by
  have e : W7 m ρ c (Proc.devRef .tc main_v10) = extractStridedSlice S2048x56x64 ![0, 72, 0] (W6 m ρ c (Proc.devRef .tc main_arg1)) Gen.slices_S2048x128x64_S2048x56x64_0_72_0 := by
    show StableHlo.after hostOps3 (W6 m ρ c) (Proc.devRef .tc main_v10) = _
    after_results
  show W7 m ρ c (Proc.devRef .tc main_v10) = _
  rw [e, show W6 m ρ c (Proc.devRef .tc main_arg1) = m ((c : Thread nD τ).loc main_arg1) from W6_arg m ρ c main_arg1 (by decide) (by decide) (by decide) (by decide) (by decide) (by decide)]
  exact slice3_eq _

/-- Region 3 leaves the group's result in its output array. -/
theorem out3_grp (c : Dev nD) : W8 m ρ c (Proc.devRef .tc main_v11) = Cert.Spec.grp3 (m ((c : Thread nD τ).loc main_arg0)) (m ((c : Thread nD τ).loc main_arg1)) := by
  refine (W8_arr m ρ c 2).trans ((final3 (V7 m ρ) c).trans ?_)
  rw [entry3_0, entry3_1]
  rfl

/-! ## The four results reach the join untouched -/

theorem W8_v2 (c : Dev nD) : W8 m ρ c (Proc.devRef .tc main_v2) = Cert.Spec.grp0 (m ((c : Thread nD τ).loc main_arg0)) (m ((c : Thread nD τ).loc main_arg1)) :=
  calc W8 m ρ c (Proc.devRef .tc main_v2)
    _ = W7 m ρ c (Proc.devRef .tc main_v2) := W8_of_ne m ρ c main_v2 (by decide)
    _ = W6 m ρ c (Proc.devRef .tc main_v2) := StableHlo.after_of_writes_sub hostOps3 _ hostOps3_writes (by decide)
    _ = W5 m ρ c (Proc.devRef .tc main_v2) := W6_of_ne m ρ c main_v2 (by decide)
    _ = W4 m ρ c (Proc.devRef .tc main_v2) := StableHlo.after_of_writes_sub hostOps2 _ hostOps2_writes (by decide)
    _ = W3 m ρ c (Proc.devRef .tc main_v2) := W4_of_ne m ρ c main_v2 (by decide)
    _ = W2 m ρ c (Proc.devRef .tc main_v2) := StableHlo.after_of_writes_sub hostOps1 _ hostOps1_writes (by decide)
    _ = _ := out0_grp m ρ c
theorem W8_v5 (c : Dev nD) : W8 m ρ c (Proc.devRef .tc main_v5) = Cert.Spec.grp1 (m ((c : Thread nD τ).loc main_arg0)) (m ((c : Thread nD τ).loc main_arg1)) :=
  calc W8 m ρ c (Proc.devRef .tc main_v5)
    _ = W7 m ρ c (Proc.devRef .tc main_v5) := W8_of_ne m ρ c main_v5 (by decide)
    _ = W6 m ρ c (Proc.devRef .tc main_v5) := StableHlo.after_of_writes_sub hostOps3 _ hostOps3_writes (by decide)
    _ = W5 m ρ c (Proc.devRef .tc main_v5) := W6_of_ne m ρ c main_v5 (by decide)
    _ = W4 m ρ c (Proc.devRef .tc main_v5) := StableHlo.after_of_writes_sub hostOps2 _ hostOps2_writes (by decide)
    _ = _ := out1_grp m ρ c
theorem W8_v8 (c : Dev nD) : W8 m ρ c (Proc.devRef .tc main_v8) = Cert.Spec.grp2 (m ((c : Thread nD τ).loc main_arg0)) (m ((c : Thread nD τ).loc main_arg1)) :=
  calc W8 m ρ c (Proc.devRef .tc main_v8)
    _ = W7 m ρ c (Proc.devRef .tc main_v8) := W8_of_ne m ρ c main_v8 (by decide)
    _ = W6 m ρ c (Proc.devRef .tc main_v8) := StableHlo.after_of_writes_sub hostOps3 _ hostOps3_writes (by decide)
    _ = _ := out2_grp m ρ c
theorem W8_v11 (c : Dev nD) : W8 m ρ c (Proc.devRef .tc main_v11) = Cert.Spec.grp3 (m ((c : Thread nD τ).loc main_arg0)) (m ((c : Thread nD τ).loc main_arg1)) :=
  out3_grp m ρ c

/-- THE RESULT ARRAY at the end of @main. -/
theorem W9_result (c : Dev nD) : W9 m ρ c (Proc.devRef .tc main_v12) = result (m ((c : Thread nD τ).loc main_arg0)) (m ((c : Thread nD τ).loc main_arg1)) := by
  have e : W9 m ρ c (Proc.devRef .tc main_v12) = concatenate S2048x32x64x64 1 [⟨S2048x8x64x64, W8 m ρ c (Proc.devRef .tc main_v2)⟩, ⟨S2048x8x64x64, W8 m ρ c (Proc.devRef .tc main_v5)⟩, ⟨S2048x8x64x64, W8 m ρ c (Proc.devRef .tc main_v8)⟩, ⟨S2048x8x64x64, W8 m ρ c (Proc.devRef .tc main_v11)⟩]
      Gen.concatenates_S2048x8x64x64_S2048x8x64x64_S2048x8x64x64_S2048x8x64x64_S2048x32x64x64_d1 := by
    show StableHlo.after hostOps4 (W8 m ρ c) (Proc.devRef .tc main_v12) = _
    after_results
    rfl
  rw [e, W8_v2, W8_v5, W8_v8, W8_v11]
  rfl

/-- THE RUN, READ: every execution terminates with the result array at `result` of the arguments and the arguments as launched. -/
theorem run_value : θ_run defs (onTc (τ := τ) (main (F := Ideal))) ⟨m, fun _ => 0, ρ⟩ (fun r => ∀ c : Dev nD,
      r.2.mem ((c.tc : Thread nD τ).loc main_v12) = result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v12 (by decide))).trans (W9_result m ρ c),
     (h c _ (mem_uc main_arg0 (by decide))).trans (W9_main_arg0 m ρ c),
     (h c _ (mem_uc main_arg1 (by decide))).trans (W9_main_arg1 m ρ c)⟩) (run_main m ρ)

end Cert.KernelIdeal.Hand

end
-- ==== Proof.RefValue.lean ====
import proofs.«168482_j7232724927058_1_alg».proof.Proof.Gen.ReferenceIdeal.Read
import proofs.«168482_j7232724927058_1_alg».proof.Proof.Spec

noncomputable section

namespace Cert.RefValue

open Cert.ReferenceIdeal Cert.ReferenceIdeal.Read Idealize.ShloMosaic Idealize.ShloMosaic.ValueIdx

/-!
  The reference's four group results are the specification's. Each group's stage chain is slice, reshape, a contraction
  over the component axis and a product with a broadcast constant; read at one result entry it is the specification's
  sum over the components times the same constant, once the composed slice-and-reshape index is computed: the reshape
  preserves the row-major position, and with every coordinate below its extent the division and remainders return the
  coordinates.
-/

/-- The group of contraction length 1 (rows 0 … 7). At entry j = (n, i, u, v) the product with the broadcast constant
    splits off, and the contraction's term k reads the reshaped slice at (n, i, k, u) and (n, i, k, v). The reshape
    [2048, 8, 64] → [2048, 8, 1, 64] keeps the row-major position L = ((n·8 + i)·1 + k)·64 + u, so it reads the slice at
    (L / 512, L / 64 % 8, L % 64) = (n, 1·i + k, u), and the slice reads the argument at row 0 + (1·i + k). -/
theorem ref_grp0 (x0 x1 : (⟨S2048x128x64, .f32⟩ : BufTy).Contents (Elt Ideal)) : val_main_v6 (F := Ideal) x0 x1 = Cert.Spec.grp0 x0 x1 := by
  funext j
  have h0 : (j 0).val < 2048 := (j 0).isLt
  have h1 : (j 1).val < 8 := (j 1).isLt
  have h2 : (j 2).val < 64 := (j 2).isLt
  have h3 : (j 3).val < 64 := (j 3).isLt
  rw [val_main_v6_apply, val_main_v4_apply, val_main_v5_apply, val_main_cst_apply]
  unfold Cert.Spec.grp0 Cert.Spec.blk0 Cert.Spec.slc0
  show (∑ k : Fin 1, _) * Ideal.ofBits .f32 _ = _
  congr 1
  refine Finset.sum_congr rfl fun k _ => ?_
  have hk : k.val < 1 := k.isLt
  rw [val_main_v1_apply, val_main_v0_apply, val_main_v3_apply, val_main_v2_apply]
  congr 1
  · congr 1
    funext a
    match a with
    | ⟨0, _⟩ => apply Fin.ext; show ((((j 0).val * 8 + (j 1).val) * 1 + k.val) * 64 + (j 2).val) / 512 = (j 0).val; omega
    | ⟨1, _⟩ => apply Fin.ext; show ((((j 0).val * 8 + (j 1).val) * 1 + k.val) * 64 + (j 2).val) / 64 % 8 = 0 + (1 * (j 1).val + k.val); omega
    | ⟨2, _⟩ => apply Fin.ext; show ((((j 0).val * 8 + (j 1).val) * 1 + k.val) * 64 + (j 2).val) % 64 = (j 2).val; omega
  · congr 1
    funext a
    match a with
    | ⟨0, _⟩ => apply Fin.ext; show ((((j 0).val * 8 + (j 1).val) * 1 + k.val) * 64 + (j 3).val) / 512 = (j 0).val; omega
    | ⟨1, _⟩ => apply Fin.ext; show ((((j 0).val * 8 + (j 1).val) * 1 + k.val) * 64 + (j 3).val) / 64 % 8 = 0 + (1 * (j 1).val + k.val); omega
    | ⟨2, _⟩ => apply Fin.ext; show ((((j 0).val * 8 + (j 1).val) * 1 + k.val) * 64 + (j 3).val) % 64 = (j 3).val; omega

/-- The group of contraction length 3 (rows 8 … 31). At entry j = (n, i, u, v) the product with the broadcast constant
    splits off, and the contraction's term k reads the reshaped slice at (n, i, k, u) and (n, i, k, v). The reshape
    [2048, 24, 64] → [2048, 8, 3, 64] keeps the row-major position L = ((n·8 + i)·3 + k)·64 + u, so it reads the slice at
    (L / 1536, L / 64 % 24, L % 64) = (n, 3·i + k, u), and the slice reads the argument at row 8 + (3·i + k). -/
theorem ref_grp1 (x0 x1 : (⟨S2048x128x64, .f32⟩ : BufTy).Contents (Elt Ideal)) : val_main_v13 (F := Ideal) x0 x1 = Cert.Spec.grp1 x0 x1 := by
  funext j
  have h0 : (j 0).val < 2048 := (j 0).isLt
  have h1 : (j 1).val < 8 := (j 1).isLt
  have h2 : (j 2).val < 64 := (j 2).isLt
  have h3 : (j 3).val < 64 := (j 3).isLt
  rw [val_main_v13_apply, val_main_v11_apply, val_main_v12_apply, val_main_cst_0_apply]
  unfold Cert.Spec.grp1 Cert.Spec.blk1 Cert.Spec.slc1
  show (∑ k : Fin 3, _) * Ideal.ofBits .f32 _ = _
  congr 1
  refine Finset.sum_congr rfl fun k _ => ?_
  have hk : k.val < 3 := k.isLt
  rw [val_main_v8_apply, val_main_v7_apply, val_main_v10_apply, val_main_v9_apply]
  congr 1
  · congr 1
    funext a
    match a with
    | ⟨0, _⟩ => apply Fin.ext; show ((((j 0).val * 8 + (j 1).val) * 3 + k.val) * 64 + (j 2).val) / 1536 = (j 0).val; omega
    | ⟨1, _⟩ => apply Fin.ext; show 8 + ((((j 0).val * 8 + (j 1).val) * 3 + k.val) * 64 + (j 2).val) / 64 % 24 = 8 + (3 * (j 1).val + k.val); omega
    | ⟨2, _⟩ => apply Fin.ext; show ((((j 0).val * 8 + (j 1).val) * 3 + k.val) * 64 + (j 2).val) % 64 = (j 2).val; omega
  · congr 1
    funext a
    match a with
    | ⟨0, _⟩ => apply Fin.ext; show ((((j 0).val * 8 + (j 1).val) * 3 + k.val) * 64 + (j 3).val) / 1536 = (j 0).val; omega
    | ⟨1, _⟩ => apply Fin.ext; show 8 + ((((j 0).val * 8 + (j 1).val) * 3 + k.val) * 64 + (j 3).val) / 64 % 24 = 8 + (3 * (j 1).val + k.val); omega
    | ⟨2, _⟩ => apply Fin.ext; show ((((j 0).val * 8 + (j 1).val) * 3 + k.val) * 64 + (j 3).val) % 64 = (j 3).val; omega

/-- The group of contraction length 5 (rows 32 … 71). At entry j = (n, i, u, v) the product with the broadcast constant
    splits off, and the contraction's term k reads the reshaped slice at (n, i, k, u) and (n, i, k, v). The reshape
    [2048, 40, 64] → [2048, 8, 5, 64] keeps the row-major position L = ((n·8 + i)·5 + k)·64 + u, so it reads the slice at
    (L / 2560, L / 64 % 40, L % 64) = (n, 5·i + k, u), and the slice reads the argument at row 32 + (5·i + k). -/
theorem ref_grp2 (x0 x1 : (⟨S2048x128x64, .f32⟩ : BufTy).Contents (Elt Ideal)) : val_main_v20 (F := Ideal) x0 x1 = Cert.Spec.grp2 x0 x1 := by
  funext j
  have h0 : (j 0).val < 2048 := (j 0).isLt
  have h1 : (j 1).val < 8 := (j 1).isLt
  have h2 : (j 2).val < 64 := (j 2).isLt
  have h3 : (j 3).val < 64 := (j 3).isLt
  rw [val_main_v20_apply, val_main_v18_apply, val_main_v19_apply, val_main_cst_1_apply]
  unfold Cert.Spec.grp2 Cert.Spec.blk2 Cert.Spec.slc2
  show (∑ k : Fin 5, _) * Ideal.ofBits .f32 _ = _
  congr 1
  refine Finset.sum_congr rfl fun k _ => ?_
  have hk : k.val < 5 := k.isLt
  rw [val_main_v15_apply, val_main_v14_apply, val_main_v17_apply, val_main_v16_apply]
  congr 1
  · congr 1
    funext a
    match a with
    | ⟨0, _⟩ => apply Fin.ext; show ((((j 0).val * 8 + (j 1).val) * 5 + k.val) * 64 + (j 2).val) / 2560 = (j 0).val; omega
    | ⟨1, _⟩ => apply Fin.ext; show 32 + ((((j 0).val * 8 + (j 1).val) * 5 + k.val) * 64 + (j 2).val) / 64 % 40 = 32 + (5 * (j 1).val + k.val); omega
    | ⟨2, _⟩ => apply Fin.ext; show ((((j 0).val * 8 + (j 1).val) * 5 + k.val) * 64 + (j 2).val) % 64 = (j 2).val; omega
  · congr 1
    funext a
    match a with
    | ⟨0, _⟩ => apply Fin.ext; show ((((j 0).val * 8 + (j 1).val) * 5 + k.val) * 64 + (j 3).val) / 2560 = (j 0).val; omega
    | ⟨1, _⟩ => apply Fin.ext; show 32 + ((((j 0).val * 8 + (j 1).val) * 5 + k.val) * 64 + (j 3).val) / 64 % 40 = 32 + (5 * (j 1).val + k.val); omega
    | ⟨2, _⟩ => apply Fin.ext; show ((((j 0).val * 8 + (j 1).val) * 5 + k.val) * 64 + (j 3).val) % 64 = (j 3).val; omega

/-- The group of contraction length 7 (rows 72 … 127). At entry j = (n, i, u, v) the product with the broadcast constant
    splits off, and the contraction's term k reads the reshaped slice at (n, i, k, u) and (n, i, k, v). The reshape
    [2048, 56, 64] → [2048, 8, 7, 64] keeps the row-major position L = ((n·8 + i)·7 + k)·64 + u, so it reads the slice at
    (L / 3584, L / 64 % 56, L % 64) = (n, 7·i + k, u), and the slice reads the argument at row 72 + (7·i + k). -/
theorem ref_grp3 (x0 x1 : (⟨S2048x128x64, .f32⟩ : BufTy).Contents (Elt Ideal)) : val_main_v27 (F := Ideal) x0 x1 = Cert.Spec.grp3 x0 x1 := by
  funext j
  have h0 : (j 0).val < 2048 := (j 0).isLt
  have h1 : (j 1).val < 8 := (j 1).isLt
  have h2 : (j 2).val < 64 := (j 2).isLt
  have h3 : (j 3).val < 64 := (j 3).isLt
  rw [val_main_v27_apply, val_main_v25_apply, val_main_v26_apply, val_main_cst_2_apply]
  unfold Cert.Spec.grp3 Cert.Spec.blk3 Cert.Spec.slc3
  show (∑ k : Fin 7, _) * Ideal.ofBits .f32 _ = _
  congr 1
  refine Finset.sum_congr rfl fun k _ => ?_
  have hk : k.val < 7 := k.isLt
  rw [val_main_v22_apply, val_main_v21_apply, val_main_v24_apply, val_main_v23_apply]
  congr 1
  · congr 1
    funext a
    match a with
    | ⟨0, _⟩ => apply Fin.ext; show ((((j 0).val * 8 + (j 1).val) * 7 + k.val) * 64 + (j 2).val) / 3584 = (j 0).val; omega
    | ⟨1, _⟩ => apply Fin.ext; show 72 + ((((j 0).val * 8 + (j 1).val) * 7 + k.val) * 64 + (j 2).val) / 64 % 56 = 72 + (7 * (j 1).val + k.val); omega
    | ⟨2, _⟩ => apply Fin.ext; show ((((j 0).val * 8 + (j 1).val) * 7 + k.val) * 64 + (j 2).val) % 64 = (j 2).val; omega
  · congr 1
    funext a
    match a with
    | ⟨0, _⟩ => apply Fin.ext; show ((((j 0).val * 8 + (j 1).val) * 7 + k.val) * 64 + (j 3).val) / 3584 = (j 0).val; omega
    | ⟨1, _⟩ => apply Fin.ext; show 72 + ((((j 0).val * 8 + (j 1).val) * 7 + k.val) * 64 + (j 3).val) / 64 % 56 = 72 + (7 * (j 1).val + k.val); omega
    | ⟨2, _⟩ => apply Fin.ext; show ((((j 0).val * 8 + (j 1).val) * 7 + k.val) * 64 + (j 3).val) % 64 = (j 3).val; omega

end Cert.RefValue

end
-- ==== Proof.lean ====
/-
  The certificate: a TensorDot in 'uv' mode — per irrep group a contraction over the spherical axis and an outer product
  over the channels — computed by four Pallas kernels (contraction lengths 1, 3, 5, 7) whose results are joined, against
  the einsum reference.

  Over the extended reals both programs end with the same array: for the group of contraction length d, starting at row
  off of the 128, entry (n, i, u, v) is (Σ_{k<d} a₀(n, off + d·i + k, u) · a₁(n, off + d·i + k, v)) · s_d, s_d the same f32
  constant on both sides; the four [2048, 8, 64, 64] groups are joined along axis 1 (`Cert.KernelIdeal.Hand.result`). The
  kernel adds its d products to a zero array in order and the reference's contraction is the sum over k, so only
  0 + x = x and the meaning of a finite sum are used: no law that needs finite inputs, and the precondition is never opened.

  The three frames: each kernel program is run item by item (host slices, a region, …, the join), every region by the
  pipeline's launch theorem over its body's triple; the reference is straight-line host code. The ideal pass rewrote
  nothing, so `preserves` is trivial.
-/
import proofs.«168482_j7232724927058_1_alg».proof.Defs
import proofs.«168482_j7232724927058_1_alg».proof.Proof.Kernel.Run
import proofs.«168482_j7232724927058_1_alg».proof.Proof.KernelIdeal.Value
import proofs.«168482_j7232724927058_1_alg».proof.Proof.RefValue
import proofs.«168482_j7232724927058_1_alg».proof.Proof.Gen.ReferenceIdeal.Run
import proofs.«168482_j7232724927058_1_alg».proof.Proof.Gen.ReferenceIdeal.Read
import proofs.«168482_j7232724927058_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with `result` of the arguments: the kernel program by its run read region by region,
    the reference because each of its four scaled contractions is the group's result (`Cert.RefValue.ref_grpK`) and its
    last operation is the same join. -/
theorem algebraic : Cert.algebraic_KernelIdeal_ReferenceIdeal := by
  intro m ρ m' ρ' _ hagree
  refine ⟨fun c => Cert.KernelIdeal.Hand.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq (F := Ideal) _ _).trans ?_
  rw [(hagree c).1, (hagree c).2]
  unfold Cert.ReferenceIdeal.Read.val_main_v28
  rw [Cert.RefValue.ref_grp0, Cert.RefValue.ref_grp1, Cert.RefValue.ref_grp2, Cert.RefValue.ref_grp3]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
